-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S64x1024 : Shape := ⟨2, ![64, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S8x4096x1024 .f32) (main_arg1 : FVec F S64x1024 .f32) (main_arg2 : FVec F S64x1024 .f32) (main_arg3 : FVec F S64x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S8x4096x1024 : Shape := ⟨3, ![8, 4096, 1024]⟩
abbrev S64x1024 : Shape := ⟨2, ![64, 1024]⟩
abbrev S192x1024 : Shape := ⟨2, ![192, 1024]⟩
abbrev S8x4096x64 : Shape := ⟨3, ![8, 4096, 64]⟩
abbrev S1x2048x1024 : Shape := ⟨3, ![1, 2048, 1024]⟩
abbrev S1x2048x64 : Shape := ⟨3, ![1, 2048, 64]⟩
abbrev S2048x1024 : Shape := ⟨2, ![2048, 1024]⟩
abbrev S2048x192 : Shape := ⟨2, ![2048, 192]⟩
abbrev S2048x64 : Shape := ⟨2, ![2048, 64]⟩
abbrev S1x512x64 : Shape := ⟨3, ![1, 512, 64]⟩
abbrev S1x4096x64 : Shape := ⟨3, ![1, 4096, 64]⟩
abbrev S512x1 : Shape := ⟨2, ![512, 1]⟩
abbrev S512x64 : Shape := ⟨2, ![512, 64]⟩
abbrev S512x512 : Shape := ⟨2, ![512, 512]⟩
abbrev S512 : Shape := ⟨1, ![512]⟩

abbrev nBuf : Space → Nat
  | .hbm => 9
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S192x1024, .f32⟩
  | .hbm, ⟨5, _⟩ => ⟨S8x4096x64, .bf16⟩
  | .hbm, ⟨6, _⟩ => ⟨S8x4096x64, .bf16⟩
  | .hbm, ⟨7, _⟩ => ⟨S8x4096x64, .bf16⟩
  | .hbm, ⟨8, _⟩ => ⟨S8x4096x64, .f32⟩
  | .local _ .vmem, ⟨0, _⟩ => ⟨S1x2048x1024, .f32⟩
  | .local _ .vmem, ⟨1, _⟩ => ⟨S1x2048x1024, .f32⟩
  | .local _ .vmem, ⟨2, _⟩ => ⟨S192x1024, .f32⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x4096x64, .bf16⟩
  | .local _ .vmem, ⟨12, _⟩ => ⟨S1x4096x64, .bf16⟩
  | .local _ .vmem, ⟨13, _⟩ => ⟨S1x4096x64, .bf16⟩
  | .local _ .vmem, ⟨14, _⟩ => ⟨S1x4096x64, .bf16⟩
  | .local _ .vmem, ⟨15, _⟩ => ⟨S1x512x64, .f32⟩
  | .local _ .vmem, ⟨16, _⟩ => ⟨S1x512x64, .f32⟩
  | .local _ .vmem, ⟨17, _⟩ => ⟨S512x1, .f32⟩
  | .local _ .vmem, ⟨18, _⟩ => ⟨S512x1, .f32⟩
  | .local _ .vmem, ⟨19, _⟩ => ⟨S512x64, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S192x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S64x1024_S64x1024_S64x1024_S192x1024_d0 : Shape.Concatenates [S64x1024, S64x1024, S64x1024] S192x1024 0
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S192x1024_S192x1024_0_0 : ∀ a, (![0, 0] : Fin 2 → Nat) a + S192x1024.size a ≤ S192x1024.size a
  h_S192x1024 : 0 < S192x1024.numel
  shapeCasts_S192x1024_S192x1024 : S192x1024.ShapeCasts S192x1024
  slices_S2048x192_o0_0_S2048x64 : S2048x192.Slices ![0, 0] S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  slices_S2048x192_o0_64_S2048x64 : S2048x192.Slices ![0, 64] S2048x64
  slices_S2048x192_o0_128_S2048x64 : S2048x192.Slices ![0, 128] S2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x512x64_0_0_0 : ∀ a, (![0, 0, 0] : Fin 3 → Nat) a + S1x512x64.size a ≤ S1x4096x64.size a
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  inb_S1x4096x64_S1x512x64_0_512_0 : ∀ a, (![0, 512, 0] : Fin 3 → Nat) a + S1x512x64.size a ≤ S1x4096x64.size a
  inb_S1x4096x64_S1x512x64_0_1024_0 : ∀ a, (![0, 1024, 0] : Fin 3 → Nat) a + S1x512x64.size a ≤ S1x4096x64.size a
  inb_S1x4096x64_S1x512x64_0_1536_0 : ∀ a, (![0, 1536, 0] : Fin 3 → Nat) a + S1x512x64.size a ≤ S1x4096x64.size a
  inb_S1x4096x64_S1x512x64_0_2048_0 : ∀ a, (![0, 2048, 0] : Fin 3 → Nat) a + S1x512x64.size a ≤ S1x4096x64.size a
  inb_S1x4096x64_S1x512x64_0_2560_0 : ∀ a, (![0, 2560, 0] : Fin 3 → Nat) a + S1x512x64.size a ≤ S1x4096x64.size a
  inb_S1x4096x64_S1x512x64_0_3072_0 : ∀ a, (![0, 3072, 0] : Fin 3 → Nat) a + S1x512x64.size a ≤ S1x4096x64.size a
  inb_S1x4096x64_S1x512x64_0_3584_0 : ∀ a, (![0, 3584, 0] : Fin 3 → Nat) a + S1x512x64.size a ≤ S1x4096x64.size a
  shapeCasts_S512x64_S1x512x64 : S512x64.ShapeCasts S1x512x64
  dot_S2048x1024_S192x1024_S2048x192_1_1_0_0_n_n_wf : DotDims.WF S2048x1024 S192x1024 S2048x192 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x1024.size a ≤ S192x1024.size a
  hwx0_1 : ∀ i : grid0.Coords, EltTy.bits .f32 = 32 ∨ (Rect.block (s := S192x1024) S192x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x4096x64.size a
  hwx0_2 : ∀ i : grid0.Coords, EltTy.bits .bf16 = 32 ∨ (Rect.block (s := S8x4096x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S8x4096x64.size a
  hwx0_3 : ∀ i : grid0.Coords, EltTy.bits .bf16 = 32 ∨ (Rect.block (s := S8x4096x64) S1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x4096x64.size a
  hwx0_4 : ∀ i : grid0.Coords, EltTy.bits .bf16 = 32 ∨ (Rect.block (s := S8x4096x64) S1x2048x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x4096x64.size a
  hwx1_0 : ∀ i : grid1.Coords, EltTy.bits .bf16 = 32 ∨ (Rect.block (s := S8x4096x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x64.size a ≤ S8x4096x64.size a
  hwx1_1 : ∀ i : grid1.Coords, EltTy.bits .bf16 = 32 ∨ (Rect.block (s := S8x4096x64) S1x4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S8x4096x64.size a
  hwx1_2 : ∀ i : grid1.Coords, EltTy.bits .bf16 = 32 ∨ (Rect.block (s := S8x4096x64) S1x4096x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S8x4096x64.size a
  hwx1_3 : ∀ i : grid1.Coords, EltTy.bits .f32 = 32 ∨ (Rect.block (s := S8x4096x64) S1x512x64.size (cc1_transform_3 i) (hinb1_3 i)).WholeWords (EltTy.packing .f32)

variable [Facts₀]

def dot_S2048x1024_S192x1024_S2048x192_1_1_0_0_n_n : DotDims S2048x1024 S192x1024 S2048x192 where
  lhsContracting := [1]
  rhsContracting := [1]
  lhsNonContracting := [0]
  rhsNonContracting := [0]
  lhsBatch := []
  rhsBatch := []
  wf := dot_S2048x1024_S192x1024_S2048x192_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S192x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x2048x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_1) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S64x1024 : Shape := ⟨2, ![64, 1024]⟩
abbrev S8x4096x64 : Shape := ⟨3, ![8, 4096, 64]⟩
abbrev S8x4096x4096 : Shape := ⟨3, ![8, 4096, 4096]⟩
abbrev S_ : Shape := ⟨0, ![]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S8x4096x64, .f32⟩
  | .hbm, ⟨5, _⟩ => ⟨S8x4096x64, .f32⟩
  | .hbm, ⟨6, _⟩ => ⟨S8x4096x64, .f32⟩
  | .hbm, ⟨7, _⟩ => ⟨S8x4096x4096, .f32⟩
  | .hbm, ⟨8, _⟩ => ⟨S_, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S_, .i1⟩
  | .hbm, ⟨13, _⟩ => ⟨S4096x4096, .i1⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .i1⟩
  | .hbm, ⟨21, _⟩ => ⟨S4096x4096, .i1⟩
  | .hbm, ⟨22, _⟩ => ⟨S4096x4096, .i1⟩
  | .hbm, ⟨23, _⟩ => ⟨S1x4096x4096, .i1⟩
  | .hbm, ⟨24, _⟩ => ⟨S_, .f32⟩
  | .hbm, ⟨25, _⟩ => ⟨S_, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8x4096, .f32⟩
  | .hbm, ⟨33, _⟩ => ⟨S8x4096, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x64, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S8x4096x4096_0_1_2 : S1x4096x4096.BroadcastsInDim S8x4096x4096 (![0, 1, 2] : Fin 3 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x1024_S64x1024_S8x4096x64_2_1_01_0_n_n_wf : DotDims.WF S8x4096x1024 S64x1024 S8x4096x64 [2] [1] [0, 1] [0] [] []
  dot_S8x4096x64_S8x4096x64_S8x4096x4096_2_2_1_1_0_0_wf : DotDims.WF S8x4096x64 S8x4096x64 S8x4096x4096 [2] [2] [1] [1] [0] [0]
  dot_S8x4096x4096_S8x4096x64_S8x4096x64_2_1_1_2_0_0_wf : DotDims.WF S8x4096x4096 S8x4096x64 S8x4096x64 [2] [1] [1] [2] [0] [0]

variable [Facts₀]

def dot_S8x4096x1024_S64x1024_S8x4096x64_2_1_01_0_n_n : DotDims S8x4096x1024 S64x1024 S8x4096x64 where
  lhsContracting := [2]
  rhsContracting := [1]
  lhsNonContracting := [0, 1]
  rhsNonContracting := [0]
  lhsBatch := []
  rhsBatch := []
  wf := dot_S8x4096x1024_S64x1024_S8x4096x64_2_1_01_0_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x64_S8x4096x64_2_1_1_2_0_0 : DotDims S8x4096x4096 S8x4096x64 S8x4096x64 where
  lhsContracting := [2]
  rhsContracting := [1]
  lhsNonContracting := [1]
  rhsNonContracting := [2]
  lhsBatch := [0]
  rhsBatch := [0]
  wf := dot_S8x4096x4096_S8x4096x64_S8x4096x64_2_1_1_2_0_0_wf

class Facts : Prop extends Facts₀ where

variable [Facts]
-- ==== Proof.K.Proj.lean ====
/-
  The projection region: at grid point (b, h) the body reads a 2048 × 1024 slab of the input (rows
  2048 h … 2048 h + 2047 of batch b) and the whole 192 × 1024 stacked weight, forms their product over the 1024
  features once, and stores its three 64-column bands into the key, query and value blocks (the query band
  scaled by 1/8). Nothing is kept between points. This module states what each of the three output blocks holds
  after the body as a function of the two input blocks, proves the body's triple, and gives the pipeline's proof
  data and body obligation at ANY contents `V` of the buffers when the region is entered.
-/
import proofs.«425320_j549755813913_3_alg».proof.Proof.Gen.Kernel.Launch
import proofs.«425320_j549755813913_3_alg».proof.Proof.Gen.Kernel.Skeleton
import proofs.«425320_j549755813913_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input slab's staging buffer holds the slab's block at every point. -/
theorem pbefore_0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)

/-- The stacked weight's staging buffer holds the whole weight at every point: it is fetched once, and its block
    index never moves. -/
theorem pbefore_1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)

/-! ## What the body leaves in the three output blocks -/

abbrev rSlab : Rect S1x2048x1024 := Rect.unit (s := S1x2048x1024) ![0, 0, 0] S1x2048x1024.size inb_S1x2048x1024_S1x2048x1024_0_0_0
abbrev rWt : Rect S192x1024 := Rect.unit (s := S192x1024) ![0, 0] S192x1024.size inb_S192x1024_S192x1024_0_0
abbrev rBand : Rect S1x2048x64 := Rect.unit (s := S1x2048x64) ![0, 0, 0] S1x2048x64.size inb_S1x2048x64_S1x2048x64_0_0_0

/-- The key block: columns 0 … 63 of the slab-by-weight product. -/
def keyBlk (x : Vec F S1x2048x1024 .f32) (w : Vec F S192x1024 .f32) : Vec F S1x2048x64 .bf16 :=
  View.canon [⟨rBand, k0_pay2 (View.ld x rSlab) (View.ld w rWt)⟩]
/-- The query block: columns 64 … 127 of the product, times 1/8. -/
def qryBlk (x : Vec F S1x2048x1024 .f32) (w : Vec F S192x1024 .f32) : Vec F S1x2048x64 .bf16 :=
  View.canon [⟨rBand, k0_pay3 (View.ld x rSlab) (View.ld w rWt)⟩]
/-- The value block: columns 128 … 191 of the product. -/
def valBlk (x : Vec F S1x2048x1024 .f32) (w : Vec F S192x1024 .f32) : Vec F S1x2048x64 .bf16 :=
  View.canon [⟨rBand, k0_pay4 (View.ld x rSlab) (View.ld w rWt)⟩]

/-- One store of the whole band covers the block. -/
theorem band_cover (p0 : Vec F S1x2048x64 .bf16) (y : S1x2048x64.Idx) :
    ∃ pc ∈ ([⟨rBand, p0⟩] : List (View.Piece (Elt F) S1x2048x64 .bf16)), y ∈ pc.1.set :=
  View.cover_of_tiled [⟨rBand, p0⟩] S1x2048x64.size (by rfl) y

/-! ## The body's triple -/

set_option maxHeartbeats 1000000 in
/-- On whole staging memrefs, the two inputs' at contents `x0`, `x1` and the three outputs' at anything, the body runs
    to the continuation holding the inputs' as they were and the outputs' at the three bands. -/
theorem sound_proj (c : Dev nD) (E : Set ℕ) (i : grid0.Coords)
    (arg2 : Memref sig .tc .vmem S1x2048x1024 .f32) (harg2 : arg2.IsWhole) (arg3 : Memref sig .tc .vmem S192x1024 .f32) (harg3 : arg3.IsWhole)
    (arg4 : Memref sig .tc .vmem S1x2048x64 .bf16) (harg4 : arg4.IsWhole) (arg5 : Memref sig .tc .vmem S1x2048x64 .bf16) (harg5 : arg5.IsWhole)
    (arg6 : Memref sig .tc .vmem S1x2048x64 .bf16) (harg6 : arg6.IsWhole)
    (x0 : Vec F S1x2048x1024 .f32) (x1 : Vec F S192x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (keyBlk x0 x1) ∗ owns (c : Thread nD τ) arg5 fullShare (qryBlk x0 x1)
            ∗ owns (c : Thread nD τ) arg6 fullShare (valBlk x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (band_cover _)
  isplitl [H3]
  · iexists _; isplitr
    swap; · iexact H3
    ipureintro
    exact View.read_writes_eq_canon _ _ _ (band_cover _)
  iexists _; isplitr
  swap; · iexact H4
  ipureintro
  exact View.read_writes_eq_canon _ _ _ (band_cover _)

/-! ## The pipeline's proof data -/

/-- The projection pipeline's proof data on core `c`: the arrays as the region finds them; after the body at point
    `t` each input's buffer still at its block and the three outputs' at the three bands of that point's blocks;
    nothing kept between points, nothing owed. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => keyBlk (pblk V c 0 t) (pblk V c 1 t)
    | ⟨3, _⟩ => qryBlk (pblk V c 0 t) (pblk V c 1 t)
    | ⟨4, _⟩ => valBlk (pblk V c 0 t) (pblk V c 1 t)
  Φ _ := Pipeline.ΦA spec0 c
  q _ := fullShare
  owed _ := 0

theorem pA_eq (c : Dev nD) (w : Fin cfg0.W) : (pdat V c).A w = V c (Pipeline.arrRef spec0 w) := by
  dsimp only [pdat]

theorem pafter_0 (c : Dev nD) (t : Fin cfg0.N) : (pdat V c).after 0 t = pblk V c 0 t := by dsimp only [pdat]
theorem pafter_1 (c : Dev nD) (t : Fin cfg0.N) : (pdat V c).after 1 t = pblk V c 1 t := by dsimp only [pdat]
theorem pafter_2 (c : Dev nD) (t : Fin cfg0.N) : (pdat V c).after 2 t = keyBlk (pblk V c 0 t) (pblk V c 1 t) := by dsimp only [pdat]
theorem pafter_3 (c : Dev nD) (t : Fin cfg0.N) : (pdat V c).after 3 t = qryBlk (pblk V c 0 t) (pblk V c 1 t) := by dsimp only [pdat]
theorem pafter_4 (c : Dev nD) (t : Fin cfg0.N) : (pdat V c).after 4 t = valBlk (pblk V c 0 t) (pblk V c 1 t) := by dsimp only [pdat]

theorem pbefore_0 (c : Dev nD) (t : Fin cfg0.N) (d) : (pdat V c).before 0 t d = pblk V c 0 t :=
  pbefore_0_of V (pdat V c) (pA_eq V c 0) (pafter_0 V c) t d
theorem pbefore_1 (c : Dev nD) (t : Fin cfg0.N) (d) : (pdat V c).before 1 t d = pblk V c 1 t :=
  pbefore_1_of V (pdat V c) (pA_eq V c 1) (pafter_1 V c) t d

/-! ## The body obligation -/

/-- What the body is called with at point `t`, the windows one by one, -/
def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d)))

/-- and what it returns. -/
def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t))

/-- The body at any point: the two inputs' memrefs hold their blocks, so `sound_proj` applies; the invariant and the
    core's dues pass through unread. -/
theorem sound_pbody (c : Dev nD) (t : Fin cfg0.N) :
    pPre V c t ⊢ wp frame (wpE (defs₀ (F := F)) Variants.none c none) Set.univ (bodyAt0 t) (fun _ => pPost V c t) := by
  unfold pPre pPost bodyAt0
  simp only [pbefore_0, pbefore_1]
  rw [show (pdat V c).Φ t.succ = (pdat V c).Φ t.castSucc from rfl,
    show (pdat V c).owesAt () t.succ = (pdat V c).owesAt () t.castSucc from rfl,
    pafter_0, pafter_1, pafter_2, pafter_3, pafter_4]
  iintro ⟨HΦ, Ho, ⟨%d0, H0⟩, ⟨%d1, H1⟩, ⟨%d2, H2⟩, ⟨%d3, H3⟩, ⟨%d4, H4⟩⟩
  iapply (sound_proj c Set.univ _ _ _ _ _ _ _ _ _ _ _ (pblk V c 0 t) (pblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem pbody_obligation (c : Dev nD) : BodyObligation (pdat (F := F) V c) (defs₀ (F := F)) Variants.none () Set.univ := fun t => by
  rw [bigSep_W0, bigSep_W0]
  exact sound_pbody V c t

end Cert.Kernel.Fr

end
-- ==== Proof.K.AttnBase.lean ====
/-
  The attention region, what its eight control cases share. At grid point (b, q) the body resets three scratch
  buffers (a running maximum, a running denominator, a running numerator), reads its 512 × 64 query block, and
  then for k = 0 … 7 in turn, IF q ≥ k, folds chunk k of the keys and values (rows 512 k … 512 k + 511 of batch b)
  into the three running quantities; last it stores numerator / denominator into the output block. Which chunks
  run depends on q alone, so there are eight cases, q = 0 … 7, case q running chunks 0 … q. Here: the windows'
  blocks, each input found at its block (the key and value windows are fetched only when the batch changes), the
  eight branch conditions decided over the grid, the scratch memrefs, and the region's invariant opened into the
  buffers it holds.
-/
import proofs.«425320_j549755813913_3_alg».proof.Proof.Gen.Kernel.Launch
import proofs.«425320_j549755813913_3_alg».proof.Proof.Gen.Kernel.Skeleton
import proofs.«425320_j549755813913_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point. -/
theorem abefore_0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

/-- The key window's staging buffer holds the batch's keys at every point, fetched there or not. -/
theorem abefore_1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

/-- The value window's staging buffer holds the batch's values at every point, fetched there or not. -/
theorem abefore_2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

end

/-! ## The branch conditions -/

/-- "The query-block coordinate is at least `n`", as the body computes it from the grid coordinates. -/
abbrev qGe (n : BitVec 32) (i : grid1.Coords) : Prop :=
  (Scalar.cmpi .ne (Scalar.extui (Scalar.cmpi .sge (BitVec.ofNat 32 (i 1).val) n)) 0#32) = 1#1

theorem hqGe0 : ∀ t : Fin cfg1.N, qGe 0#32 (grid1.coords t) :=
  (by decide +kernel : ∀ t : Fin grid1.N, qGe 0#32 (grid1.coords t))
theorem hqGe1 : ∀ t : Fin cfg1.N, qGe 1#32 (grid1.coords t) ↔ 1 ≤ t.val % 8 :=
  (by decide +kernel : ∀ t : Fin grid1.N, qGe 1#32 (grid1.coords t) ↔ 1 ≤ t.val % 8)
theorem hqGe2 : ∀ t : Fin cfg1.N, qGe 2#32 (grid1.coords t) ↔ 2 ≤ t.val % 8 :=
  (by decide +kernel : ∀ t : Fin grid1.N, qGe 2#32 (grid1.coords t) ↔ 2 ≤ t.val % 8)
theorem hqGe3 : ∀ t : Fin cfg1.N, qGe 3#32 (grid1.coords t) ↔ 3 ≤ t.val % 8 :=
  (by decide +kernel : ∀ t : Fin grid1.N, qGe 3#32 (grid1.coords t) ↔ 3 ≤ t.val % 8)
theorem hqGe4 : ∀ t : Fin cfg1.N, qGe 4#32 (grid1.coords t) ↔ 4 ≤ t.val % 8 :=
  (by decide +kernel : ∀ t : Fin grid1.N, qGe 4#32 (grid1.coords t) ↔ 4 ≤ t.val % 8)
theorem hqGe5 : ∀ t : Fin cfg1.N, qGe 5#32 (grid1.coords t) ↔ 5 ≤ t.val % 8 :=
  (by decide +kernel : ∀ t : Fin grid1.N, qGe 5#32 (grid1.coords t) ↔ 5 ≤ t.val % 8)
theorem hqGe6 : ∀ t : Fin cfg1.N, qGe 6#32 (grid1.coords t) ↔ 6 ≤ t.val % 8 :=
  (by decide +kernel : ∀ t : Fin grid1.N, qGe 6#32 (grid1.coords t) ↔ 6 ≤ t.val % 8)
theorem hqGe7 : ∀ t : Fin cfg1.N, qGe 7#32 (grid1.coords t) ↔ 7 ≤ t.val % 8 :=
  (by decide +kernel : ∀ t : Fin grid1.N, qGe 7#32 (grid1.coords t) ↔ 7 ≤ t.val % 8)

/-! ## The memrefs the body is called on -/

/-- One staging buffer of the output window, through which its contents are stated (the choice does not matter). -/
abbrev VOut : View sig .tc .vmem S1x512x64 .f32 := (Memref.whole cc1_stg3_0 : Memref sig .tc .vmem S1x512x64 .f32).view
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The three scratch operands: the running maximum, the running denominator, the running numerator. -/
abbrev scMax : Memref sig .tc .vmem S512x1 .f32 := Memref.whole cc1_scratch0
abbrev scDen : Memref sig .tc .vmem S512x1 .f32 := Memref.whole cc1_scratch1
abbrev scNum : Memref sig .tc .vmem S512x64 .f32 := Memref.whole cc1_scratch2

/-- The region's invariant — the scoped buffers no window of this region stages, and the generator register — with
    the three scratch operands as memrefs owned at some contents: what the body obligation hands a run and takes
    back (nothing is carried from one point to the next: every point resets all three). -/
theorem PhiAttn_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

/-! ## What a case's run delivers -/

/-- A run of the body on whole memrefs — the query, key and value windows' at contents `x0`, `x1`, `x2`, the output's
    and the three scratch operands' at anything —: the pieces its stores leave in the output block, WITH the proof
    that the body runs to the continuation holding the inputs' as they were, the output's buffer with those pieces
    written, and the scratch operands' at some contents. -/
abbrev AttnRunSpec (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (x0 : Vec F S1x512x64 .bf16) (x1 : Vec F S1x4096x64 .bf16) (x2 : Vec F S1x4096x64 .bf16) : Type :=
  { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d)
                ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K }

end Cert.Kernel.Fr

end
-- ==== Proof.K.AttnRun0.lean ====
/-
  The attention body in the case q = 0: chunks 0 … 0 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 0, on whole memrefs: see `AttnRunSpec`. Each branch is decided by the case's
    hypotheses. -/
noncomputable def attnRun0 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : ¬qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.AttnRun1.lean ====
/-
  The attention body in the case q = 1: chunks 0 … 1 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 1, on whole memrefs: see `AttnRunSpec`. Each branch is decided by the case's
    hypotheses. -/
noncomputable def attnRun1 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.AttnRun2.lean ====
/-
  The attention body in the case q = 2: chunks 0 … 2 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 2, on whole memrefs: see `AttnRunSpec`. Each branch is decided by the case's
    hypotheses. -/
noncomputable def attnRun2 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.AttnRun3.lean ====
/-
  The attention body in the case q = 3: chunks 0 … 3 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 3, on whole memrefs: see `AttnRunSpec`. Each branch is decided by the case's
    hypotheses. -/
noncomputable def attnRun3 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.AttnRun4.lean ====
/-
  The attention body in the case q = 4: chunks 0 … 4 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 4, on whole memrefs: see `AttnRunSpec`. Each branch is decided by the case's
    hypotheses. -/
noncomputable def attnRun4 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.AttnRun5.lean ====
/-
  The attention body in the case q = 5: chunks 0 … 5 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 5, on whole memrefs: see `AttnRunSpec`. Each branch is decided by the case's
    hypotheses. -/
noncomputable def attnRun5 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.AttnRun6.lean ====
/-
  The attention body in the case q = 6: chunks 0 … 6 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 6, on whole memrefs: see `AttnRunSpec`. Each branch is decided by the case's
    hypotheses. -/
noncomputable def attnRun6 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.AttnRun7.lean ====
/-
  The attention body in the case q = 7: chunks 0 … 7 are folded in, the later ones skipped. The run finds the
  pieces the body's stores leave in the output block; the three scratch buffers end at some contents.
-/
import proofs.«425320_j549755813913_3_alg».proof.Proof.K.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The body at a point with q = 7, on whole memrefs: see `AttnRunSpec`. Each branch is decided by the case's
    hypotheses. -/
noncomputable def attnRun7 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.Kernel.Fr

end
-- ==== Proof.K.Attn.lean ====
/-
  The attention region's half at ANY contents `V` of the buffers when the region is entered: what the output block
  holds after the body at each point — the pieces found by the run of the point's case, read back —, the
  pipeline's proof data (the three input windows left in place, the output at that block, nothing kept between
  points), and the body obligation, by cases on the query-block coordinate q = t mod 8.
-/
import proofs.«425320_j549755813913_3_alg».proof.Proof.K.AttnRun0
import proofs.«425320_j549755813913_3_alg».proof.Proof.K.AttnRun1
import proofs.«425320_j549755813913_3_alg».proof.Proof.K.AttnRun2
import proofs.«425320_j549755813913_3_alg».proof.Proof.K.AttnRun3
import proofs.«425320_j549755813913_3_alg».proof.Proof.K.AttnRun4
import proofs.«425320_j549755813913_3_alg».proof.Proof.K.AttnRun5
import proofs.«425320_j549755813913_3_alg».proof.Proof.K.AttnRun6
import proofs.«425320_j549755813913_3_alg».proof.Proof.K.AttnRun7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What a run leaves in the output block -/

/-- The output block after a run: its found pieces read back. -/
def runOut {c : Dev nD} {i : grid1.Coords}
    {arg2 : Memref sig .tc .vmem S1x512x64 .bf16} {harg2 : arg2.IsWhole} {arg3 : Memref sig .tc .vmem S1x4096x64 .bf16} {harg3 : arg3.IsWhole}
    {arg4 : Memref sig .tc .vmem S1x4096x64 .bf16} {harg4 : arg4.IsWhole} {arg5 : Memref sig .tc .vmem S1x512x64 .f32} {harg5 : arg5.IsWhole}
    {arg6 : Memref sig .tc .vmem S512x1 .f32} {harg6 : arg6.IsWhole} {arg7 : Memref sig .tc .vmem S512x1 .f32} {harg7 : arg7.IsWhole}
    {arg8 : Memref sig .tc .vmem S512x64 .f32} {harg8 : arg8.IsWhole}
    {x0 : Vec F S1x512x64 .bf16} {x1 : Vec F S1x4096x64 .bf16} {x2 : Vec F S1x4096x64 .bf16}
    (R : AttnRunSpec c i arg2 harg2 arg3 harg3 arg4 harg4 arg5 harg5 arg6 harg6 arg7 harg7 arg8 harg8 x0 x1 x2) : Vec F S1x512x64 .f32 :=
  VOut.read (Elt F) (VOut.writes (Elt F) VOut.junk R.1)

/-! Each case's one store of the whole output block covers it. -/
theorem attnCover0 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : ¬qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun0 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun0 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover1 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun1 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun1 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover2 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun2 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun2 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover3 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun3 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun3 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover4 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun4 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun4 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover5 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun5 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun5 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover6 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun6 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun6 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover7 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : qGe 7#32 i)
    (x0 : Vec F S1x512x64 .bf16) (x1 : Vec F S1x4096x64 .bf16) (x2 : Vec F S1x4096x64 .bf16) (y : S1x512x64.Idx) :
    ∃ pc ∈ (attnRun7 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun7 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- The output block after the body at point `t`: the run of the case q = t mod 8, at the point's memrefs and blocks. -/
def aOut (c : Dev nD) (t : Fin cfg1.N) : Vec F S1x512x64 .f32 :=
  if h1 : 1 ≤ t.val % 8 then
    if h2 : 2 ≤ t.val % 8 then
      if h3 : 3 ≤ t.val % 8 then
        if h4 : 4 ≤ t.val % 8 then
          if h5 : 5 ≤ t.val % 8 then
            if h6 : 6 ≤ t.val % 8 then
              if h7 : 7 ≤ t.val % 8 then
                runOut (attnRun7 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) ((hqGe7 t).mpr h7) (ablk V c 0 t) (ablk V c 1 t) (ablk V c 2 t))
              else runOut (attnRun6 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) (fun h => h7 (by have := (hqGe7 t).mp h; omega)) (ablk V c 0 t) (ablk V c 1 t) (ablk V c 2 t))
            else runOut (attnRun5 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) (fun h => h6 (by have := (hqGe6 t).mp h; omega)) (fun h => h6 (by have := (hqGe7 t).mp h; omega)) (ablk V c 0 t) (ablk V c 1 t) (ablk V c 2 t))
          else runOut (attnRun4 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) (fun h => h5 (by have := (hqGe5 t).mp h; omega)) (fun h => h5 (by have := (hqGe6 t).mp h; omega)) (fun h => h5 (by have := (hqGe7 t).mp h; omega)) (ablk V c 0 t) (ablk V c 1 t) (ablk V c 2 t))
        else runOut (attnRun3 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) (fun h => h4 (by have := (hqGe4 t).mp h; omega)) (fun h => h4 (by have := (hqGe5 t).mp h; omega)) (fun h => h4 (by have := (hqGe6 t).mp h; omega)) (fun h => h4 (by have := (hqGe7 t).mp h; omega)) (ablk V c 0 t) (ablk V c 1 t) (ablk V c 2 t))
      else runOut (attnRun2 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) (fun h => h3 (by have := (hqGe3 t).mp h; omega)) (fun h => h3 (by have := (hqGe4 t).mp h; omega)) (fun h => h3 (by have := (hqGe5 t).mp h; omega)) (fun h => h3 (by have := (hqGe6 t).mp h; omega)) (fun h => h3 (by have := (hqGe7 t).mp h; omega)) (ablk V c 0 t) (ablk V c 1 t) (ablk V c 2 t))
    else runOut (attnRun1 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) (fun h => h2 (by have := (hqGe2 t).mp h; omega)) (fun h => h2 (by have := (hqGe3 t).mp h; omega)) (fun h => h2 (by have := (hqGe4 t).mp h; omega)) (fun h => h2 (by have := (hqGe5 t).mp h; omega)) (fun h => h2 (by have := (hqGe6 t).mp h; omega)) (fun h => h2 (by have := (hqGe7 t).mp h; omega)) (ablk V c 0 t) (ablk V c 1 t) (ablk V c 2 t))
  else runOut (attnRun0 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) (fun h => h1 (by have := (hqGe1 t).mp h; omega)) (fun h => h1 (by have := (hqGe2 t).mp h; omega)) (fun h => h1 (by have := (hqGe3 t).mp h; omega)) (fun h => h1 (by have := (hqGe4 t).mp h; omega)) (fun h => h1 (by have := (hqGe5 t).mp h; omega)) (fun h => h1 (by have := (hqGe6 t).mp h; omega)) (fun h => h1 (by have := (hqGe7 t).mp h; omega)) (ablk V c 0 t) (ablk V c 1 t) (ablk V c 2 t))

theorem aOut_0 (c : Dev nD) (t : Fin cfg1.N) (h1 : ¬1 ≤ t.val % 8) :
    aOut V c t = runOut (attnRun0 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) (fun h => h1 (by have := (hqGe1 t).mp h; omega)) (fun h => h1 (by have := (hqGe2 t).mp h; omega)) (fun h => h1 (by have := (hqGe3 t).mp h; omega)) (fun h => h1 (by have := (hqGe4 t).mp h; omega)) (fun h => h1 (by have := (hqGe5 t).mp h; omega)) (fun h => h1 (by have := (hqGe6 t).mp h; omega)) (fun h => h1 (by have := (hqGe7 t).mp h; omega)) (ablk V c 0 t) (ablk V c 1 t) (ablk V c 2 t)) := by
  unfold aOut; rw [dif_neg h1]
theorem aOut_1 (c : Dev nD) (t : Fin cfg1.N) (h1 : 1 ≤ t.val % 8) (h2 : ¬2 ≤ t.val % 8) :
    aOut V c t = runOut (attnRun1 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) (fun h => h2 (by have := (hqGe2 t).mp h; omega)) (fun h => h2 (by have := (hqGe3 t).mp h; omega)) (fun h => h2 (by have := (hqGe4 t).mp h; omega)) (fun h => h2 (by have := (hqGe5 t).mp h; omega)) (fun h => h2 (by have := (hqGe6 t).mp h; omega)) (fun h => h2 (by have := (hqGe7 t).mp h; omega)) (ablk V c 0 t) (ablk V c 1 t) (ablk V c 2 t)) := by
  unfold aOut; rw [dif_pos h1, dif_neg h2]
theorem aOut_2 (c : Dev nD) (t : Fin cfg1.N) (h1 : 1 ≤ t.val % 8) (h2 : 2 ≤ t.val % 8) (h3 : ¬3 ≤ t.val % 8) :
    aOut V c t = runOut (attnRun2 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) (fun h => h3 (by have := (hqGe3 t).mp h; omega)) (fun h => h3 (by have := (hqGe4 t).mp h; omega)) (fun h => h3 (by have := (hqGe5 t).mp h; omega)) (fun h => h3 (by have := (hqGe6 t).mp h; omega)) (fun h => h3 (by have := (hqGe7 t).mp h; omega)) (ablk V c 0 t) (ablk V c 1 t) (ablk V c 2 t)) := by
  unfold aOut; rw [dif_pos h1, dif_pos h2, dif_neg h3]
theorem aOut_3 (c : Dev nD) (t : Fin cfg1.N) (h1 : 1 ≤ t.val % 8) (h2 : 2 ≤ t.val % 8) (h3 : 3 ≤ t.val % 8) (h4 : ¬4 ≤ t.val % 8) :
    aOut V c t = runOut (attnRun3 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) (fun h => h4 (by have := (hqGe4 t).mp h; omega)) (fun h => h4 (by have := (hqGe5 t).mp h; omega)) (fun h => h4 (by have := (hqGe6 t).mp h; omega)) (fun h => h4 (by have := (hqGe7 t).mp h; omega)) (ablk V c 0 t) (ablk V c 1 t) (ablk V c 2 t)) := by
  unfold aOut; rw [dif_pos h1, dif_pos h2, dif_pos h3, dif_neg h4]
theorem aOut_4 (c : Dev nD) (t : Fin cfg1.N) (h1 : 1 ≤ t.val % 8) (h2 : 2 ≤ t.val % 8) (h3 : 3 ≤ t.val % 8) (h4 : 4 ≤ t.val % 8) (h5 : ¬5 ≤ t.val % 8) :
    aOut V c t = runOut (attnRun4 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) (fun h => h5 (by have := (hqGe5 t).mp h; omega)) (fun h => h5 (by have := (hqGe6 t).mp h; omega)) (fun h => h5 (by have := (hqGe7 t).mp h; omega)) (ablk V c 0 t) (ablk V c 1 t) (ablk V c 2 t)) := by
  unfold aOut; rw [dif_pos h1, dif_pos h2, dif_pos h3, dif_pos h4, dif_neg h5]
theorem aOut_5 (c : Dev nD) (t : Fin cfg1.N) (h1 : 1 ≤ t.val % 8) (h2 : 2 ≤ t.val % 8) (h3 : 3 ≤ t.val % 8) (h4 : 4 ≤ t.val % 8) (h5 : 5 ≤ t.val % 8) (h6 : ¬6 ≤ t.val % 8) :
    aOut V c t = runOut (attnRun5 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) (fun h => h6 (by have := (hqGe6 t).mp h; omega)) (fun h => h6 (by have := (hqGe7 t).mp h; omega)) (ablk V c 0 t) (ablk V c 1 t) (ablk V c 2 t)) := by
  unfold aOut; rw [dif_pos h1, dif_pos h2, dif_pos h3, dif_pos h4, dif_pos h5, dif_neg h6]
theorem aOut_6 (c : Dev nD) (t : Fin cfg1.N) (h1 : 1 ≤ t.val % 8) (h2 : 2 ≤ t.val % 8) (h3 : 3 ≤ t.val % 8) (h4 : 4 ≤ t.val % 8) (h5 : 5 ≤ t.val % 8) (h6 : 6 ≤ t.val % 8) (h7 : ¬7 ≤ t.val % 8) :
    aOut V c t = runOut (attnRun6 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) (fun h => h7 (by have := (hqGe7 t).mp h; omega)) (ablk V c 0 t) (ablk V c 1 t) (ablk V c 2 t)) := by
  unfold aOut; rw [dif_pos h1, dif_pos h2, dif_pos h3, dif_pos h4, dif_pos h5, dif_pos h6, dif_neg h7]
theorem aOut_7 (c : Dev nD) (t : Fin cfg1.N) (h1 : 1 ≤ t.val % 8) (h2 : 2 ≤ t.val % 8) (h3 : 3 ≤ t.val % 8) (h4 : 4 ≤ t.val % 8) (h5 : 5 ≤ t.val % 8) (h6 : 6 ≤ t.val % 8) (h7 : 7 ≤ t.val % 8) :
    aOut V c t = runOut (attnRun7 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) ((hqGe7 t).mpr h7) (ablk V c 0 t) (ablk V c 1 t) (ablk V c 2 t)) := by
  unfold aOut; rw [dif_pos h1, dif_pos h2, dif_pos h3, dif_pos h4, dif_pos h5, dif_pos h6, dif_pos h7]

/-! ## The pipeline's proof data -/

/-- The attention pipeline's proof data on core `c`: the arrays as the region finds them; after the body at point `t`
    the three inputs' buffers still at their blocks and the output's at `aOut`; nothing kept between points, nothing owed. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => aOut V c t
  Φ _ := Pipeline.ΦA spec1 c
  q _ := fullShare
  owed _ := 0

theorem aA_eq (c : Dev nD) (w : Fin cfg1.W) : (adat V c).A w = V c (Pipeline.arrRef spec1 w) := by
  dsimp only [adat]

theorem aafter_0 (c : Dev nD) (t : Fin cfg1.N) : (adat V c).after 0 t = ablk V c 0 t := by dsimp only [adat]
theorem aafter_1 (c : Dev nD) (t : Fin cfg1.N) : (adat V c).after 1 t = ablk V c 1 t := by dsimp only [adat]
theorem aafter_2 (c : Dev nD) (t : Fin cfg1.N) : (adat V c).after 2 t = ablk V c 2 t := by dsimp only [adat]
theorem aafter_3 (c : Dev nD) (t : Fin cfg1.N) : (adat V c).after 3 t = aOut V c t := by dsimp only [adat]

theorem abefore_0 (c : Dev nD) (t : Fin cfg1.N) (d) : (adat V c).before 0 t d = ablk V c 0 t :=
  abefore_0_of V (adat V c) (aA_eq V c 0) (aafter_0 V c) t d
theorem abefore_1 (c : Dev nD) (t : Fin cfg1.N) (d) : (adat V c).before 1 t d = ablk V c 1 t :=
  abefore_1_of V (adat V c) (aA_eq V c 1) (aafter_1 V c) t d
theorem abefore_2 (c : Dev nD) (t : Fin cfg1.N) (d) : (adat V c).before 2 t d = ablk V c 2 t :=
  abefore_2_of V (adat V c) (aA_eq V c 2) (aafter_2 V c) t d

/-! ## The body obligation -/

set_option maxHeartbeats 1000000 in
/-- Any run at the point's memrefs and blocks discharges the body at the point: the invariant lends the three scratch
    operands and takes them back at whatever they hold, the three inputs stay, the output ends at the run's block. -/
theorem leaf (c : Dev nD) (t : Fin cfg1.N)
    (R : AttnRunSpec c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (ablk V c 0 t) (ablk V c 1 t) (ablk V c 2 t))
    (hcov : ∀ y : S1x512x64.Idx, ∃ pc ∈ R.1, y ∈ pc.1.set) (O : sProp 𝕄) :
    iprop(Pipeline.ΦA spec1 c ∗ O
        ∗ owns (c : Thread nD τ) (ms1_0 t) fullShare (ablk V c 0 t) ∗ owns (c : Thread nD τ) (ms1_1 t) fullShare (ablk V c 1 t)
        ∗ owns (c : Thread nD τ) (ms1_2 t) fullShare (ablk V c 2 t) ∗ (∃ d, owns (c : Thread nD τ) (ms1_3 t) fullShare d))
      ⊢ wp frame (wpE (defs₀ (F := F)) Variants.none c none) Set.univ (bodyAt1 t) (fun _ =>
        iprop(Pipeline.ΦA spec1 c ∗ O
          ∗ owns (c : Thread nD τ) (ms1_0 t) fullShare (ablk V c 0 t) ∗ owns (c : Thread nD τ) (ms1_1 t) fullShare (ablk V c 1 t)
          ∗ owns (c : Thread nD τ) (ms1_2 t) fullShare (ablk V c 2 t) ∗ owns (c : Thread nD τ) (ms1_3 t) fullShare (runOut R))) := by
  unfold bodyAt1 runOut
  rw [PhiAttn_eq]
  iintro ⟨⟨⟨R1, R2, R3, R4, R5, R6, R7, R8, R9, HS0, HS1, HS2⟩, Hg⟩, Ho, H0, H1, H2, H3⟩
  iapply (R.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, ⟨%e3, H3⟩, HS0, HS1, HS2⟩
  isplitl [R1 R2 R3 R4 R5 R6 R7 R8 R9 HS0 HS1 HS2 Hg]
  · isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ hcov

/-- What the body is called with at point `t`, the windows one by one, -/
def aPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d)))

/-- and what it returns. -/
def aPost (c : Dev nD) (t : Fin cfg1.N) : sProp 𝕄 :=
  iprop((adat V c).Φ t.succ ∗ (adat V c).owesAt () t.succ
    ∗ owns (c : Thread nD τ) (st1_0 t) fullShare ((adat V c).after 0 t)
    ∗ owns (c : Thread nD τ) (st1_1 t) fullShare ((adat V c).after 1 t)
    ∗ owns (c : Thread nD τ) (st1_2 t) fullShare ((adat V c).after 2 t)
    ∗ owns (c : Thread nD τ) (st1_3 t) fullShare ((adat V c).after 3 t))

set_option maxHeartbeats 1000000 in
/-- The body at any point: the inputs' memrefs hold their blocks; the point's case is q = t mod 8, and that case's run
    discharges it. -/
theorem sound_abody (c : Dev nD) (t : Fin cfg1.N) :
    aPre V c t ⊢ wp frame (wpE (defs₀ (F := F)) Variants.none c none) Set.univ (bodyAt1 t) (fun _ => aPost V c t) := by
  unfold aPre aPost
  simp only [abefore_0, abefore_1, abefore_2]
  rw [show (adat V c).Φ t.succ = (adat V c).Φ t.castSucc from rfl,
    show (adat V c).owesAt () t.succ = (adat V c).owesAt () t.castSucc from rfl,
    aafter_0, aafter_1, aafter_2, aafter_3,
    show (adat V c).Φ t.castSucc = Pipeline.ΦA spec1 c from rfl]
  refine (show _ ⊢ iprop(Pipeline.ΦA spec1 c ∗ (adat V c).owesAt () t.castSucc
        ∗ owns (c : Thread nD τ) (ms1_0 t) fullShare (ablk V c 0 t) ∗ owns (c : Thread nD τ) (ms1_1 t) fullShare (ablk V c 1 t)
        ∗ owns (c : Thread nD τ) (ms1_2 t) fullShare (ablk V c 2 t) ∗ (∃ d, owns (c : Thread nD τ) (ms1_3 t) fullShare d)) from by
      iintro ⟨HΦ, Ho, ⟨%d0, H0⟩, ⟨%d1, H1⟩, ⟨%d2, H2⟩, ⟨%d3, H3⟩⟩
      isplitl [HΦ]; · iexact HΦ
      isplitl [Ho]; · iexact Ho
      isplitl [H0]; · iexact H0
      isplitl [H1]; · iexact H1
      isplitl [H2]; · iexact H2
      iexists _; iexact H3).trans ?_
  by_cases h1 : 1 ≤ t.val % 8
  · by_cases h2 : 2 ≤ t.val % 8
    · by_cases h3 : 3 ≤ t.val % 8
      · by_cases h4 : 4 ≤ t.val % 8
        · by_cases h5 : 5 ≤ t.val % 8
          · by_cases h6 : 6 ≤ t.val % 8
            · by_cases h7 : 7 ≤ t.val % 8
              · rw [aOut_7 V c t h1 h2 h3 h4 h5 h6 h7]
                exact leaf V c t _ (attnCover7 _ _ _ _ _ _ _ _ _ _ _ _ _ _ _ _ _ _ _ _ _ _ _ _ _ _ _) _
              · rw [aOut_6 V c t h1 h2 h3 h4 h5 h6 h7]
                exact leaf V c t _ (attnCover6 _ _ _ _ _ _ _ _ _ _ _ _ _ _ _ _ _ _ _ _ _ _ _ _ _ _ _) _
            · rw [aOut_5 V c t h1 h2 h3 h4 h5 h6]
              exact leaf V c t _ (attnCover5 _ _ _ _ _ _ _ _ _ _ _ _ _ _ _ _ _ _ _ _ _ _ _ _ _ _ _) _
          · rw [aOut_4 V c t h1 h2 h3 h4 h5]
            exact leaf V c t _ (attnCover4 _ _ _ _ _ _ _ _ _ _ _ _ _ _ _ _ _ _ _ _ _ _ _ _ _ _ _) _
        · rw [aOut_3 V c t h1 h2 h3 h4]
          exact leaf V c t _ (attnCover3 _ _ _ _ _ _ _ _ _ _ _ _ _ _ _ _ _ _ _ _ _ _ _ _ _ _ _) _
      · rw [aOut_2 V c t h1 h2 h3]
        exact leaf V c t _ (attnCover2 _ _ _ _ _ _ _ _ _ _ _ _ _ _ _ _ _ _ _ _ _ _ _ _ _ _ _) _
    · rw [aOut_1 V c t h1 h2]
      exact leaf V c t _ (attnCover1 _ _ _ _ _ _ _ _ _ _ _ _ _ _ _ _ _ _ _ _ _ _ _ _ _ _ _) _
  · rw [aOut_0 V c t h1]
    exact leaf V c t _ (attnCover0 _ _ _ _ _ _ _ _ _ _ _ _ _ _ _ _ _ _ _ _ _ _ _ _ _ _ _) _

/-- The library's body obligation, at every point. -/
theorem abody_obligation (c : Dev nD) : BodyObligation (adat (F := F) V c) (defs₀ (F := F)) Variants.none () Set.univ := fun t => by
  rw [bigSep_W1, bigSep_W1]
  exact sound_abody V c t

end Cert.Kernel.Fr

end
-- ==== Proof.K.Main.lean ====
/-
  The whole program: the weights are stacked, the projection region writes the key, query and value arrays, the
  attention region reads them and writes the result. Here the contents of every unscoped buffer are followed
  through those three items — at launch, after the stacking, after each region (a region's own arrays at what its
  write-backs leave, every other buffer as it was) — the two pipelines' proof data are taken at their regions'
  entry contents, each region is stated as a segment of the program between those contents, and the launch
  theorem for a program of several regions gives the run: every weakly fair execution ends, faulting nowhere,
  with every unscoped buffer at the last contents. Read at the arguments that is the frame; read at the result
  buffer it is what the attention pipeline's write-backs leave there.
-/
import proofs.«425320_j549755813913_3_alg».proof.Proof.K.Proj
import proofs.«425320_j549755813913_3_alg».proof.Proof.K.Attn
import proofs.«425320_j549755813913_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the stacking of the three weights. -/
abbrev B1 : Dev nD → Valuation τ sig (Elt F) := fun c => StableHlo.after hostOps0 (B0 m ρ c)
/-- The same read at the TensorCore's references: what the projection region is entered with. -/
abbrev E1 : (c : Dev nD) → (b : Ref sig .tc) → Buf (Elt F) ((c : Thread nD τ).loc b) := fun c b => B1 m ρ c b
/-- After the projection region: its arrays at what the pipeline leaves, every other buffer as entered. -/
def B2 (c : Dev nD) : Valuation τ sig (Elt F) :=
  Pipeline.withArrays spec0 c (B1 m ρ c) fun w => (pdat (E1 m ρ) c).arrAt w cfg0.N
theorem B2_arr (c : Dev nD) (w : Fin cfg0.W) :
    B2 m ρ c (Proc.devRef .tc (Pipeline.arrRef spec0 w)) = (pdat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- What the attention region is entered with. -/
abbrev E2 : (c : Dev nD) → (b : Ref sig .tc) → Buf (Elt F) ((c : Thread nD τ).loc b) := fun c b => B2 m ρ c b
theorem hF0 (c : Dev nD) (w : Fin cfg0.W) : (pdat (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the attention region: its arrays at what the pipeline leaves, every other buffer as entered. -/
def B3 (c : Dev nD) : Valuation τ sig (Elt F) :=
  Pipeline.withArrays spec1 c (B2 m ρ c) fun w => (adat (E2 m ρ) c).arrAt w cfg1.N
theorem B3_arr (c : Dev nD) (w : Fin cfg1.W) :
    B3 m ρ c (Proc.devRef .tc (Pipeline.arrRef spec1 w)) = (adat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (adat (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched, and the result is the attention pipeline's -/

/-- The stacking writes only the stacked weight. -/
theorem B1_of (c : Dev nD) (b : Ref sig .tc) (hb : b ∉ hostOps0_W) : B1 m ρ c (Proc.devRef .tc b) = m ((c : Thread nD τ).loc b) :=
  StableHlo.after_of_writes_sub hostOps0 _ hostOps0_writes hb

/-- The input is the projection's first window, which only reads it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((pdat (E1 m ρ) c).arrAt_in 0 rfl _).trans (pA_eq (E1 m ρ) c 0))
    _ = m ((c : Thread nD τ).loc main_arg0) := B1_of m ρ c main_arg0 (by decide)
/-- The three weights are no region's array. -/
theorem B3_main_arg1 (c : Dev nD) : B3 m ρ c (Proc.devRef .tc main_arg1) = m ((c : Thread nD τ).loc main_arg1) :=
  (B3_of_ne m ρ c main_arg1 (by decide)).trans ((B2_of_ne m ρ c main_arg1 (by decide)).trans (B1_of m ρ c main_arg1 (by decide)))
theorem B3_main_arg2 (c : Dev nD) : B3 m ρ c (Proc.devRef .tc main_arg2) = m ((c : Thread nD τ).loc main_arg2) :=
  (B3_of_ne m ρ c main_arg2 (by decide)).trans ((B2_of_ne m ρ c main_arg2 (by decide)).trans (B1_of m ρ c main_arg2 (by decide)))
theorem B3_main_arg3 (c : Dev nD) : B3 m ρ c (Proc.devRef .tc main_arg3) = m ((c : Thread nD τ).loc main_arg3) :=
  (B3_of_ne m ρ c main_arg3 (by decide)).trans ((B2_of_ne m ρ c main_arg3 (by decide)).trans (B1_of m ρ c main_arg3 (by decide)))
/-- The result buffer is the attention pipeline's output array. -/
theorem B3_main_v2 (c : Dev nD) : B3 m ρ c (Proc.devRef .tc main_v2) = (adat (E2 m ρ) c).arrAt 3 cfg1.N :=
  B3_arr m ρ c 3

/-! ## The proof-data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => pdat (E1 m ρ) c
  | ⟨1, _⟩ => fun c => adat (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rider (c : Dev nD) : sProp 𝕄 := iprop((∃ r, prngReg c r) ∗ ∃ W, owes (c : Thread nD τ) (0 : CellTallies nD τ sig Unit) W)
/-- The last thread state without the dues: every unscoped buffer at the last contents, the register at some state. -/
abbrev Tend (c : Dev nD) : sProp 𝕄 := iprop(StableHlo.held (c : Thread nD τ) (Pipeline.ucRefs τ sig) (B3 m ρ c) ∗ ∃ r, prngReg c r)

/-- The stacking as a segment over the unscoped references from the launch contents. -/
abbrev stackSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) Rider

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- applying a library lemma stated over the pinned configuration unifies with the printed one only when unification may
-- unfold plain definitions in a metavariable's type
set_option backward.isDefEq.respectTransparency.types false in
/-- THE PROJECTION REGION between the contents after the stacking and the contents after it: its arrays split out of the unscoped buffers and put back at what the pipeline leaves; the generator register into the invariant and out; nothing owed; no semaphore of the kernel's own. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (pbody_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ Rider c)
  post c := iprop(StableHlo.held (c : Thread nD τ) (Pipeline.ucRefs τ sig) (B2 m ρ c) ∗ Rider c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- THE ATTENTION REGION between the contents after the projection and the last contents, the same way. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (abody_obligation (E2 m ρ) c).loose
  hwaits := Pipeline.hwaits_of_owed_zero _ _ _ _ L lv 1 fun _ _ => rfl
  pre c := iprop(StableHlo.held (c : Thread nD τ) (Pipeline.ucRefs τ sig) (B2 m ρ c) ∗ Rider c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (stackSeg m ρ), .region (projSeg m ρ), .region (attnSeg m ρ) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: from any memory with zero counters every weakly fair execution of the program terminates, nothing
    faulting, and every final state has each unscoped buffer at the last contents `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rider c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME at any float family: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

/-- THE RUN WITH THE RESULT NAMED: the result buffer ends at what the attention pipeline's write-backs leave in its
    output array, the arguments as launched. -/
theorem run_result : θ_run defs (onTc (τ := τ) (main (F := F))) ⟨m, fun _ => 0, ρ⟩ (fun r => ∀ c : Dev nD,
      r.2.mem ((c.tc : Thread nD τ).loc main_v2) = (adat (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (B3_main_v2 m ρ c),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

end Cert.Kernel.Fr

end
-- ==== Proof.KI.Proj.lean ====
/-
  The projection region: at grid point (b, h) the body reads a 2048 × 1024 slab of the input (rows
  2048 h … 2048 h + 2047 of batch b) and the whole 192 × 1024 stacked weight, forms their product over the 1024
  features once, and stores its three 64-column bands into the key, query and value blocks (the query band
  scaled by 1/8). Nothing is kept between points. This module states what each of the three output blocks holds
  after the body as a function of the two input blocks, proves the body's triple, and gives the pipeline's proof
  data and body obligation at ANY contents `V` of the buffers when the region is entered.
-/
import proofs.«425320_j549755813913_3_alg».proof.Proof.Gen.KernelIdeal.Launch
import proofs.«425320_j549755813913_3_alg».proof.Proof.Gen.KernelIdeal.Skeleton
import proofs.«425320_j549755813913_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def pblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input slab's staging buffer holds the slab's block at every point. -/
theorem pbefore_0_of {c : Dev nD} (dat : Dat τ (Elt F) Unit ℕ (UR sig nD τ) ℕ cfg0 c) (hA : dat.A 0 = V c (Pipeline.arrRef spec0 0))
    (hafter : ∀ t, dat.after 0 t = pblk V c 0 t) (t : Fin cfg0.N) (d) : dat.before 0 t d = pblk V c 0 t :=
  (dat.before_in_eq_fetched 0 rfl (fun _ => rfl) (fun _ _ _ => rfl) (fun t => by rw [hafter]; unfold Dat.blockOf pblk; rw [hA]; try rfl) t d).trans
    (by unfold Dat.fetched Dat.blockOf pblk; rw [hA]; try rfl)

/-- The stacked weight's staging buffer holds the whole weight at every point: it is fetched once, and its block
    index never moves. -/
theorem pbefore_1_of {c : Dev nD} (dat : Dat τ (Elt F) Unit ℕ (UR sig nD τ) ℕ cfg0 c) (hA : dat.A 1 = V c (Pipeline.arrRef spec0 1))
    (hafter : ∀ t, dat.after 1 t = pblk V c 1 t) (t : Fin cfg0.N) (d) : dat.before 1 t d = pblk V c 1 t :=
  (dat.before_in_eq_fetched 1 rfl (fun _ => rfl) (fun _ _ _ => rfl) (fun t => by rw [hafter]; unfold Dat.blockOf pblk; rw [hA]; try rfl) t d).trans
    (by unfold Dat.fetched Dat.blockOf pblk; rw [hA]; try rfl)

/-! ## What the body leaves in the three output blocks -/

abbrev rSlab : Rect S1x2048x1024 := Rect.unit (s := S1x2048x1024) ![0, 0, 0] S1x2048x1024.size inb_S1x2048x1024_S1x2048x1024_0_0_0
abbrev rWt : Rect S192x1024 := Rect.unit (s := S192x1024) ![0, 0] S192x1024.size inb_S192x1024_S192x1024_0_0
abbrev rBand : Rect S1x2048x64 := Rect.unit (s := S1x2048x64) ![0, 0, 0] S1x2048x64.size inb_S1x2048x64_S1x2048x64_0_0_0

/-- The key block: columns 0 … 63 of the slab-by-weight product. -/
def keyBlk (x : Vec F S1x2048x1024 .f32) (w : Vec F S192x1024 .f32) : Vec F S1x2048x64 .bf16 :=
  View.canon [⟨rBand, k0_pay2 (View.ld x rSlab) (View.ld w rWt)⟩]
/-- The query block: columns 64 … 127 of the product, times 1/8. -/
def qryBlk (x : Vec F S1x2048x1024 .f32) (w : Vec F S192x1024 .f32) : Vec F S1x2048x64 .bf16 :=
  View.canon [⟨rBand, k0_pay3 (View.ld x rSlab) (View.ld w rWt)⟩]
/-- The value block: columns 128 … 191 of the product. -/
def valBlk (x : Vec F S1x2048x1024 .f32) (w : Vec F S192x1024 .f32) : Vec F S1x2048x64 .bf16 :=
  View.canon [⟨rBand, k0_pay4 (View.ld x rSlab) (View.ld w rWt)⟩]

/-- One store of the whole band covers the block. -/
theorem band_cover (p0 : Vec F S1x2048x64 .bf16) (y : S1x2048x64.Idx) :
    ∃ pc ∈ ([⟨rBand, p0⟩] : List (View.Piece (Elt F) S1x2048x64 .bf16)), y ∈ pc.1.set :=
  View.cover_of_tiled [⟨rBand, p0⟩] S1x2048x64.size (by rfl) y

/-! ## The body's triple -/

set_option maxHeartbeats 1000000 in
/-- On whole staging memrefs, the two inputs' at contents `x0`, `x1` and the three outputs' at anything, the body runs
    to the continuation holding the inputs' as they were and the outputs' at the three bands. -/
theorem sound_proj (c : Dev nD) (E : Set ℕ) (i : grid0.Coords)
    (arg2 : Memref sig .tc .vmem S1x2048x1024 .f32) (harg2 : arg2.IsWhole) (arg3 : Memref sig .tc .vmem S192x1024 .f32) (harg3 : arg3.IsWhole)
    (arg4 : Memref sig .tc .vmem S1x2048x64 .bf16) (harg4 : arg4.IsWhole) (arg5 : Memref sig .tc .vmem S1x2048x64 .bf16) (harg5 : arg5.IsWhole)
    (arg6 : Memref sig .tc .vmem S1x2048x64 .bf16) (harg6 : arg6.IsWhole)
    (x0 : Vec F S1x2048x1024 .f32) (x1 : Vec F S192x1024 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare (keyBlk x0 x1) ∗ owns (c : Thread nD τ) arg5 fullShare (qryBlk x0 x1)
            ∗ owns (c : Thread nD τ) arg6 fullShare (valBlk x0 x1)) -∗ K ⟨⟩))
      ⊢ wp frame (wpE (defs₀ (F := F)) Variants.none c none) E (cc0__proj_kernel i arg2 harg2 arg3 harg3 arg4 harg4 arg5 harg5 arg6 harg6) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (band_cover _)
  isplitl [H3]
  · iexists _; isplitr
    swap; · iexact H3
    ipureintro
    exact View.read_writes_eq_canon _ _ _ (band_cover _)
  iexists _; isplitr
  swap; · iexact H4
  ipureintro
  exact View.read_writes_eq_canon _ _ _ (band_cover _)

/-! ## The pipeline's proof data -/

/-- The projection pipeline's proof data on core `c`: the arrays as the region finds them; after the body at point
    `t` each input's buffer still at its block and the three outputs' at the three bands of that point's blocks;
    nothing kept between points, nothing owed. -/
def pdat (c : Dev nD) : Dat τ (Elt F) Unit ℕ (UR sig nD τ) ℕ cfg0 c where
  A w := V c (Pipeline.arrRef spec0 w)
  after w t := match w with
    | ⟨0, _⟩ => pblk V c 0 t
    | ⟨1, _⟩ => pblk V c 1 t
    | ⟨2, _⟩ => keyBlk (pblk V c 0 t) (pblk V c 1 t)
    | ⟨3, _⟩ => qryBlk (pblk V c 0 t) (pblk V c 1 t)
    | ⟨4, _⟩ => valBlk (pblk V c 0 t) (pblk V c 1 t)
  Φ _ := Pipeline.ΦA spec0 c
  q _ := fullShare
  owed _ := 0

theorem pA_eq (c : Dev nD) (w : Fin cfg0.W) : (pdat V c).A w = V c (Pipeline.arrRef spec0 w) := by
  dsimp only [pdat]

theorem pafter_0 (c : Dev nD) (t : Fin cfg0.N) : (pdat V c).after 0 t = pblk V c 0 t := by dsimp only [pdat]
theorem pafter_1 (c : Dev nD) (t : Fin cfg0.N) : (pdat V c).after 1 t = pblk V c 1 t := by dsimp only [pdat]
theorem pafter_2 (c : Dev nD) (t : Fin cfg0.N) : (pdat V c).after 2 t = keyBlk (pblk V c 0 t) (pblk V c 1 t) := by dsimp only [pdat]
theorem pafter_3 (c : Dev nD) (t : Fin cfg0.N) : (pdat V c).after 3 t = qryBlk (pblk V c 0 t) (pblk V c 1 t) := by dsimp only [pdat]
theorem pafter_4 (c : Dev nD) (t : Fin cfg0.N) : (pdat V c).after 4 t = valBlk (pblk V c 0 t) (pblk V c 1 t) := by dsimp only [pdat]

theorem pbefore_0 (c : Dev nD) (t : Fin cfg0.N) (d) : (pdat V c).before 0 t d = pblk V c 0 t :=
  pbefore_0_of V (pdat V c) (pA_eq V c 0) (pafter_0 V c) t d
theorem pbefore_1 (c : Dev nD) (t : Fin cfg0.N) (d) : (pdat V c).before 1 t d = pblk V c 1 t :=
  pbefore_1_of V (pdat V c) (pA_eq V c 1) (pafter_1 V c) t d

/-! ## The body obligation -/

/-- What the body is called with at point `t`, the windows one by one, -/
def pPre (c : Dev nD) (t : Fin cfg0.N) : sProp 𝕄 :=
  iprop((pdat V c).Φ t.castSucc ∗ (pdat V c).owesAt () t.castSucc
    ∗ (∃ d, owns (c : Thread nD τ) (st0_0 t) fullShare ((pdat V c).before 0 t d))
    ∗ (∃ d, owns (c : Thread nD τ) (st0_1 t) fullShare ((pdat V c).before 1 t d))
    ∗ (∃ d, owns (c : Thread nD τ) (st0_2 t) fullShare ((pdat V c).before 2 t d))
    ∗ (∃ d, owns (c : Thread nD τ) (st0_3 t) fullShare ((pdat V c).before 3 t d))
    ∗ (∃ d, owns (c : Thread nD τ) (st0_4 t) fullShare ((pdat V c).before 4 t d)))

/-- and what it returns. -/
def pPost (c : Dev nD) (t : Fin cfg0.N) : sProp 𝕄 :=
  iprop((pdat V c).Φ t.succ ∗ (pdat V c).owesAt () t.succ
    ∗ owns (c : Thread nD τ) (st0_0 t) fullShare ((pdat V c).after 0 t)
    ∗ owns (c : Thread nD τ) (st0_1 t) fullShare ((pdat V c).after 1 t)
    ∗ owns (c : Thread nD τ) (st0_2 t) fullShare ((pdat V c).after 2 t)
    ∗ owns (c : Thread nD τ) (st0_3 t) fullShare ((pdat V c).after 3 t)
    ∗ owns (c : Thread nD τ) (st0_4 t) fullShare ((pdat V c).after 4 t))

/-- The body at any point: the two inputs' memrefs hold their blocks, so `sound_proj` applies; the invariant and the
    core's dues pass through unread. -/
theorem sound_pbody (c : Dev nD) (t : Fin cfg0.N) :
    pPre V c t ⊢ wp frame (wpE (defs₀ (F := F)) Variants.none c none) Set.univ (bodyAt0 t) (fun _ => pPost V c t) := by
  unfold pPre pPost bodyAt0
  simp only [pbefore_0, pbefore_1]
  rw [show (pdat V c).Φ t.succ = (pdat V c).Φ t.castSucc from rfl,
    show (pdat V c).owesAt () t.succ = (pdat V c).owesAt () t.castSucc from rfl,
    pafter_0, pafter_1, pafter_2, pafter_3, pafter_4]
  iintro ⟨HΦ, Ho, ⟨%d0, H0⟩, ⟨%d1, H1⟩, ⟨%d2, H2⟩, ⟨%d3, H3⟩, ⟨%d4, H4⟩⟩
  iapply (sound_proj c Set.univ _ _ _ _ _ _ _ _ _ _ _ (pblk V c 0 t) (pblk V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem pbody_obligation (c : Dev nD) : BodyObligation (pdat (F := F) V c) (defs₀ (F := F)) Variants.none () Set.univ := fun t => by
  rw [bigSep_W0, bigSep_W0]
  exact sound_pbody V c t

end Cert.KernelIdeal.Fr

end
-- ==== Proof.KI.AttnBase.lean ====
/-
  The attention region, what its eight control cases share. At grid point (b, q) the body resets three scratch
  buffers (a running maximum, a running denominator, a running numerator), reads its 512 × 64 query block, and
  then for k = 0 … 7 in turn, IF q ≥ k, folds chunk k of the keys and values (rows 512 k … 512 k + 511 of batch b)
  into the three running quantities; last it stores numerator / denominator into the output block. Which chunks
  run depends on q alone, so there are eight cases, q = 0 … 7, case q running chunks 0 … q. Here: the windows'
  blocks, each input found at its block (the key and value windows are fetched only when the batch changes), the
  eight branch conditions decided over the grid, the scratch memrefs, and the region's invariant opened into the
  buffers it holds.
-/
import proofs.«425320_j549755813913_3_alg».proof.Proof.Gen.KernelIdeal.Launch
import proofs.«425320_j549755813913_3_alg».proof.Proof.Gen.KernelIdeal.Skeleton
import proofs.«425320_j549755813913_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point. -/
theorem abefore_0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

/-- The key window's staging buffer holds the batch's keys at every point, fetched there or not. -/
theorem abefore_1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

/-- The value window's staging buffer holds the batch's values at every point, fetched there or not. -/
theorem abefore_2_of {c : Dev nD} (dat : Dat τ (Elt F) Unit ℕ (UR sig nD τ) ℕ cfg1 c) (hA : dat.A 2 = V c (Pipeline.arrRef spec1 2))
    (hafter : ∀ t, dat.after 2 t = ablk V c 2 t) (t : Fin cfg1.N) (d) : dat.before 2 t d = ablk V c 2 t :=
  (dat.before_in_eq_fetched 2 rfl (fun _ => rfl) (fun _ _ _ => rfl) (fun t => by rw [hafter]; unfold Dat.blockOf ablk; rw [hA]; try rfl) t d).trans
    (by unfold Dat.fetched Dat.blockOf ablk; rw [hA]; try rfl)

end

/-! ## The branch conditions -/

/-- "The query-block coordinate is at least `n`", as the body computes it from the grid coordinates. -/
abbrev qGe (n : BitVec 32) (i : grid1.Coords) : Prop :=
  (Scalar.cmpi .ne (Scalar.extui (Scalar.cmpi .sge (BitVec.ofNat 32 (i 1).val) n)) 0#32) = 1#1

theorem hqGe0 : ∀ t : Fin cfg1.N, qGe 0#32 (grid1.coords t) :=
  (by decide +kernel : ∀ t : Fin grid1.N, qGe 0#32 (grid1.coords t))
theorem hqGe1 : ∀ t : Fin cfg1.N, qGe 1#32 (grid1.coords t) ↔ 1 ≤ t.val % 8 :=
  (by decide +kernel : ∀ t : Fin grid1.N, qGe 1#32 (grid1.coords t) ↔ 1 ≤ t.val % 8)
theorem hqGe2 : ∀ t : Fin cfg1.N, qGe 2#32 (grid1.coords t) ↔ 2 ≤ t.val % 8 :=
  (by decide +kernel : ∀ t : Fin grid1.N, qGe 2#32 (grid1.coords t) ↔ 2 ≤ t.val % 8)
theorem hqGe3 : ∀ t : Fin cfg1.N, qGe 3#32 (grid1.coords t) ↔ 3 ≤ t.val % 8 :=
  (by decide +kernel : ∀ t : Fin grid1.N, qGe 3#32 (grid1.coords t) ↔ 3 ≤ t.val % 8)
theorem hqGe4 : ∀ t : Fin cfg1.N, qGe 4#32 (grid1.coords t) ↔ 4 ≤ t.val % 8 :=
  (by decide +kernel : ∀ t : Fin grid1.N, qGe 4#32 (grid1.coords t) ↔ 4 ≤ t.val % 8)
theorem hqGe5 : ∀ t : Fin cfg1.N, qGe 5#32 (grid1.coords t) ↔ 5 ≤ t.val % 8 :=
  (by decide +kernel : ∀ t : Fin grid1.N, qGe 5#32 (grid1.coords t) ↔ 5 ≤ t.val % 8)
theorem hqGe6 : ∀ t : Fin cfg1.N, qGe 6#32 (grid1.coords t) ↔ 6 ≤ t.val % 8 :=
  (by decide +kernel : ∀ t : Fin grid1.N, qGe 6#32 (grid1.coords t) ↔ 6 ≤ t.val % 8)
theorem hqGe7 : ∀ t : Fin cfg1.N, qGe 7#32 (grid1.coords t) ↔ 7 ≤ t.val % 8 :=
  (by decide +kernel : ∀ t : Fin grid1.N, qGe 7#32 (grid1.coords t) ↔ 7 ≤ t.val % 8)

/-! ## The memrefs the body is called on -/

/-- One staging buffer of the output window, through which its contents are stated (the choice does not matter). -/
abbrev VOut : View sig .tc .vmem S1x512x64 .f32 := (Memref.whole cc1_stg3_0 : Memref sig .tc .vmem S1x512x64 .f32).view
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .f32 := win1_3.stage (cfg1.slots t 3)
abbrev hs1_3 (t : Fin cfg1.N) : (ms1_3 t).IsWhole := hstage1_3 ((cfg1.slots t 3).cast nbuf1_3)
/-- The three scratch operands: the running maximum, the running denominator, the running numerator. -/
abbrev scMax : Memref sig .tc .vmem S512x1 .f32 := Memref.whole cc1_scratch0
abbrev scDen : Memref sig .tc .vmem S512x1 .f32 := Memref.whole cc1_scratch1
abbrev scNum : Memref sig .tc .vmem S512x64 .f32 := Memref.whole cc1_scratch2

/-- The region's invariant — the scoped buffers no window of this region stages, and the generator register — with
    the three scratch operands as memrefs owned at some contents: what the body obligation hands a run and takes
    back (nothing is carried from one point to the next: every point resets all three). -/
theorem PhiAttn_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scMax fullShare d) ∗ (∃ d, owns (c : Thread nD τ) scDen fullShare d) ∗ (∃ d, owns (c : Thread nD τ) scNum fullShare d)) ∗ (∃ r, prngReg c r)) := by
  unfold Pipeline.ΦA; rw [scopedRest1_eq]; simp only [scMax, scDen, scNum, owns_whole]; try rfl

/-! ## What a case's run delivers -/

/-- A run of the body on whole memrefs — the query, key and value windows' at contents `x0`, `x1`, `x2`, the output's
    and the three scratch operands' at anything —: the pieces its stores leave in the output block, WITH the proof
    that the body runs to the continuation holding the inputs' as they were, the output's buffer with those pieces
    written, and the scratch operands' at some contents. -/
abbrev AttnRunSpec (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (x0 : Vec F S1x512x64 .bf16) (x1 : Vec F S1x4096x64 .bf16) (x2 : Vec F S1x4096x64 .bf16) : Type :=
  { L3 : List (View.Piece (Elt F) S1x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ d, owns (c : Thread nD τ) arg6 fullShare d) ∗ (∃ d, owns (c : Thread nD τ) arg7 fullShare d)
                ∗ (∃ d, owns (c : Thread nD τ) arg8 fullShare d)) -∗ K ⟨⟩))
          ⊢ wp frame (wpE (defs₀ (F := F)) Variants.none c none) E (cc1__attn_kernel i arg2 harg2 arg3 harg3 arg4 harg4 arg5 harg5 arg6 harg6 arg7 harg7 arg8 harg8) K }

end Cert.KernelIdeal.Fr

end
-- ==== Proof.KI.AttnRun0.lean ====
/-
  The attention body in the case q = 0: chunks 0 … 0 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 0, on whole memrefs: see `AttnRunSpec`. Each branch is decided by the case's
    hypotheses. -/
noncomputable def attnRun0 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : ¬qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.AttnRun1.lean ====
/-
  The attention body in the case q = 1: chunks 0 … 1 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 1, on whole memrefs: see `AttnRunSpec`. Each branch is decided by the case's
    hypotheses. -/
noncomputable def attnRun1 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.AttnRun2.lean ====
/-
  The attention body in the case q = 2: chunks 0 … 2 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 2, on whole memrefs: see `AttnRunSpec`. Each branch is decided by the case's
    hypotheses. -/
noncomputable def attnRun2 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.AttnRun3.lean ====
/-
  The attention body in the case q = 3: chunks 0 … 3 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 3, on whole memrefs: see `AttnRunSpec`. Each branch is decided by the case's
    hypotheses. -/
noncomputable def attnRun3 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.AttnRun4.lean ====
/-
  The attention body in the case q = 4: chunks 0 … 4 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 4, on whole memrefs: see `AttnRunSpec`. Each branch is decided by the case's
    hypotheses. -/
noncomputable def attnRun4 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.AttnRun5.lean ====
/-
  The attention body in the case q = 5: chunks 0 … 5 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 5, on whole memrefs: see `AttnRunSpec`. Each branch is decided by the case's
    hypotheses. -/
noncomputable def attnRun5 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : ¬qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.AttnRun6.lean ====
/-
  The attention body in the case q = 6: chunks 0 … 6 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 6, on whole memrefs: see `AttnRunSpec`. Each branch is decided by the case's
    hypotheses. -/
noncomputable def attnRun6 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : ¬qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.AttnRun7.lean ====
/-
  The attention body in the case q = 7: chunks 0 … 7 are folded in, the later ones skipped. The run finds the
  pieces the body's stores leave in the output block; the three scratch buffers end at some contents.
-/
import proofs.«425320_j549755813913_3_alg».proof.Proof.KI.AttnBase
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue walks it past the default budget)
set_option maxHeartbeats 4000000 in
/-- The body at a point with q = 7, on whole memrefs: see `AttnRunSpec`. Each branch is decided by the case's
    hypotheses. -/
noncomputable def attnRun7 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : qGe 7#32 i)
    (x0 : Vec F S1x512x64 .bf16) (x1 : Vec F S1x4096x64 .bf16) (x2 : Vec F S1x4096x64 .bf16) :
    AttnRunSpec c i arg2 harg2 arg3 harg3 arg4 harg4 arg5 harg5 arg6 harg6 arg7 harg7 arg8 harg8 x0 x1 x2 := by
  refine ⟨?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2
    sl_exec (disch := first | exact hc0 | exact hc1 | exact hc2 | exact hc3 | exact hc4 | exact hc5 | exact hc6 | exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H6]
    · iexists _; iexists _; isplitr
      swap; · iexact H6
      ipureintro; rfl
    isplitl [H7]
    · iexists _; iexists _; isplitr
      swap; · iexact H7
      ipureintro; rfl
    iexists _; iexists _; isplitr
    swap; · iexact H8
    ipureintro; rfl

end Cert.KernelIdeal.Fr

end
-- ==== Proof.KI.Attn.lean ====
/-
  The attention region's half at ANY contents `V` of the buffers when the region is entered: what the output block
  holds after the body at each point — the pieces found by the run of the point's case, read back —, the
  pipeline's proof data (the three input windows left in place, the output at that block, nothing kept between
  points), and the body obligation, by cases on the query-block coordinate q = t mod 8.
-/
import proofs.«425320_j549755813913_3_alg».proof.Proof.KI.AttnRun0
import proofs.«425320_j549755813913_3_alg».proof.Proof.KI.AttnRun1
import proofs.«425320_j549755813913_3_alg».proof.Proof.KI.AttnRun2
import proofs.«425320_j549755813913_3_alg».proof.Proof.KI.AttnRun3
import proofs.«425320_j549755813913_3_alg».proof.Proof.KI.AttnRun4
import proofs.«425320_j549755813913_3_alg».proof.Proof.KI.AttnRun5
import proofs.«425320_j549755813913_3_alg».proof.Proof.KI.AttnRun6
import proofs.«425320_j549755813913_3_alg».proof.Proof.KI.AttnRun7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What a run leaves in the output block -/

/-- The output block after a run: its found pieces read back. -/
def runOut {c : Dev nD} {i : grid1.Coords}
    {arg2 : Memref sig .tc .vmem S1x512x64 .bf16} {harg2 : arg2.IsWhole} {arg3 : Memref sig .tc .vmem S1x4096x64 .bf16} {harg3 : arg3.IsWhole}
    {arg4 : Memref sig .tc .vmem S1x4096x64 .bf16} {harg4 : arg4.IsWhole} {arg5 : Memref sig .tc .vmem S1x512x64 .f32} {harg5 : arg5.IsWhole}
    {arg6 : Memref sig .tc .vmem S512x1 .f32} {harg6 : arg6.IsWhole} {arg7 : Memref sig .tc .vmem S512x1 .f32} {harg7 : arg7.IsWhole}
    {arg8 : Memref sig .tc .vmem S512x64 .f32} {harg8 : arg8.IsWhole}
    {x0 : Vec F S1x512x64 .bf16} {x1 : Vec F S1x4096x64 .bf16} {x2 : Vec F S1x4096x64 .bf16}
    (R : AttnRunSpec c i arg2 harg2 arg3 harg3 arg4 harg4 arg5 harg5 arg6 harg6 arg7 harg7 arg8 harg8 x0 x1 x2) : Vec F S1x512x64 .f32 :=
  VOut.read (Elt F) (VOut.writes (Elt F) VOut.junk R.1)

/-! Each case's one store of the whole output block covers it. -/
theorem attnCover0 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : ¬qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun0 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun0 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover1 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun1 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun1 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover2 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun2 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun2 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover3 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun3 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun3 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover4 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun4 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun4 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover5 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : ¬qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun5 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun5 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover6 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : ¬qGe 7#32 i)
    (x0 : Vec F S1x512x64 .bf16) (x1 : Vec F S1x4096x64 .bf16) (x2 : Vec F S1x4096x64 .bf16) (y : S1x512x64.Idx) :
    ∃ pc ∈ (attnRun6 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun6 c i arg2 harg2 arg3 harg3 arg4 harg4 arg5 harg5 arg6 harg6 arg7 harg7 arg8 harg8 hc0 hc1 hc2 hc3 hc4 hc5 hc6 hc7 x0 x1 x2).1 S1x512x64.size (by sl_kernel_rfl) y
theorem attnCover7 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : qGe 7#32 i)
    (x0 : Vec F S1x512x64 .bf16) (x1 : Vec F S1x4096x64 .bf16) (x2 : Vec F S1x4096x64 .bf16) (y : S1x512x64.Idx) :
    ∃ pc ∈ (attnRun7 c i arg2 harg2 arg3 harg3 arg4 harg4 arg5 harg5 arg6 harg6 arg7 harg7 arg8 harg8 hc0 hc1 hc2 hc3 hc4 hc5 hc6 hc7 x0 x1 x2).1, y ∈ pc.1.set :=
  View.cover_of_tiledL (attnRun7 c i arg2 harg2 arg3 harg3 arg4 harg4 arg5 harg5 arg6 harg6 arg7 harg7 arg8 harg8 hc0 hc1 hc2 hc3 hc4 hc5 hc6 hc7 x0 x1 x2).1 S1x512x64.size (by sl_kernel_rfl) y

/-- The output block after the body at point `t`: the run of the case q = t mod 8, at the point's memrefs and blocks. -/
def aOut (c : Dev nD) (t : Fin cfg1.N) : Vec F S1x512x64 .f32 :=
  if h1 : 1 ≤ t.val % 8 then
    if h2 : 2 ≤ t.val % 8 then
      if h3 : 3 ≤ t.val % 8 then
        if h4 : 4 ≤ t.val % 8 then
          if h5 : 5 ≤ t.val % 8 then
            if h6 : 6 ≤ t.val % 8 then
              if h7 : 7 ≤ t.val % 8 then
                runOut (attnRun7 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) ((hqGe7 t).mpr h7) (ablk V c 0 t) (ablk V c 1 t) (ablk V c 2 t))
              else runOut (attnRun6 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) (fun h => h7 (by have := (hqGe7 t).mp h; omega)) (ablk V c 0 t) (ablk V c 1 t) (ablk V c 2 t))
            else runOut (attnRun5 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) (fun h => h6 (by have := (hqGe6 t).mp h; omega)) (fun h => h6 (by have := (hqGe7 t).mp h; omega)) (ablk V c 0 t) (ablk V c 1 t) (ablk V c 2 t))
          else runOut (attnRun4 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) (fun h => h5 (by have := (hqGe5 t).mp h; omega)) (fun h => h5 (by have := (hqGe6 t).mp h; omega)) (fun h => h5 (by have := (hqGe7 t).mp h; omega)) (ablk V c 0 t) (ablk V c 1 t) (ablk V c 2 t))
        else runOut (attnRun3 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) (fun h => h4 (by have := (hqGe4 t).mp h; omega)) (fun h => h4 (by have := (hqGe5 t).mp h; omega)) (fun h => h4 (by have := (hqGe6 t).mp h; omega)) (fun h => h4 (by have := (hqGe7 t).mp h; omega)) (ablk V c 0 t) (ablk V c 1 t) (ablk V c 2 t))
      else runOut (attnRun2 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) (fun h => h3 (by have := (hqGe3 t).mp h; omega)) (fun h => h3 (by have := (hqGe4 t).mp h; omega)) (fun h => h3 (by have := (hqGe5 t).mp h; omega)) (fun h => h3 (by have := (hqGe6 t).mp h; omega)) (fun h => h3 (by have := (hqGe7 t).mp h; omega)) (ablk V c 0 t) (ablk V c 1 t) (ablk V c 2 t))
    else runOut (attnRun1 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) (fun h => h2 (by have := (hqGe2 t).mp h; omega)) (fun h => h2 (by have := (hqGe3 t).mp h; omega)) (fun h => h2 (by have := (hqGe4 t).mp h; omega)) (fun h => h2 (by have := (hqGe5 t).mp h; omega)) (fun h => h2 (by have := (hqGe6 t).mp h; omega)) (fun h => h2 (by have := (hqGe7 t).mp h; omega)) (ablk V c 0 t) (ablk V c 1 t) (ablk V c 2 t))
  else runOut (attnRun0 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) (fun h => h1 (by have := (hqGe1 t).mp h; omega)) (fun h => h1 (by have := (hqGe2 t).mp h; omega)) (fun h => h1 (by have := (hqGe3 t).mp h; omega)) (fun h => h1 (by have := (hqGe4 t).mp h; omega)) (fun h => h1 (by have := (hqGe5 t).mp h; omega)) (fun h => h1 (by have := (hqGe6 t).mp h; omega)) (fun h => h1 (by have := (hqGe7 t).mp h; omega)) (ablk V c 0 t) (ablk V c 1 t) (ablk V c 2 t))

theorem aOut_0 (c : Dev nD) (t : Fin cfg1.N) (h1 : ¬1 ≤ t.val % 8) :
    aOut V c t = runOut (attnRun0 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) (fun h => h1 (by have := (hqGe1 t).mp h; omega)) (fun h => h1 (by have := (hqGe2 t).mp h; omega)) (fun h => h1 (by have := (hqGe3 t).mp h; omega)) (fun h => h1 (by have := (hqGe4 t).mp h; omega)) (fun h => h1 (by have := (hqGe5 t).mp h; omega)) (fun h => h1 (by have := (hqGe6 t).mp h; omega)) (fun h => h1 (by have := (hqGe7 t).mp h; omega)) (ablk V c 0 t) (ablk V c 1 t) (ablk V c 2 t)) := by
  unfold aOut; rw [dif_neg h1]
theorem aOut_1 (c : Dev nD) (t : Fin cfg1.N) (h1 : 1 ≤ t.val % 8) (h2 : ¬2 ≤ t.val % 8) :
    aOut V c t = runOut (attnRun1 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) (fun h => h2 (by have := (hqGe2 t).mp h; omega)) (fun h => h2 (by have := (hqGe3 t).mp h; omega)) (fun h => h2 (by have := (hqGe4 t).mp h; omega)) (fun h => h2 (by have := (hqGe5 t).mp h; omega)) (fun h => h2 (by have := (hqGe6 t).mp h; omega)) (fun h => h2 (by have := (hqGe7 t).mp h; omega)) (ablk V c 0 t) (ablk V c 1 t) (ablk V c 2 t)) := by
  unfold aOut; rw [dif_pos h1, dif_neg h2]
theorem aOut_2 (c : Dev nD) (t : Fin cfg1.N) (h1 : 1 ≤ t.val % 8) (h2 : 2 ≤ t.val % 8) (h3 : ¬3 ≤ t.val % 8) :
    aOut V c t = runOut (attnRun2 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) (fun h => h3 (by have := (hqGe3 t).mp h; omega)) (fun h => h3 (by have := (hqGe4 t).mp h; omega)) (fun h => h3 (by have := (hqGe5 t).mp h; omega)) (fun h => h3 (by have := (hqGe6 t).mp h; omega)) (fun h => h3 (by have := (hqGe7 t).mp h; omega)) (ablk V c 0 t) (ablk V c 1 t) (ablk V c 2 t)) := by
  unfold aOut; rw [dif_pos h1, dif_pos h2, dif_neg h3]
theorem aOut_3 (c : Dev nD) (t : Fin cfg1.N) (h1 : 1 ≤ t.val % 8) (h2 : 2 ≤ t.val % 8) (h3 : 3 ≤ t.val % 8) (h4 : ¬4 ≤ t.val % 8) :
    aOut V c t = runOut (attnRun3 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) (fun h => h4 (by have := (hqGe4 t).mp h; omega)) (fun h => h4 (by have := (hqGe5 t).mp h; omega)) (fun h => h4 (by have := (hqGe6 t).mp h; omega)) (fun h => h4 (by have := (hqGe7 t).mp h; omega)) (ablk V c 0 t) (ablk V c 1 t) (ablk V c 2 t)) := by
  unfold aOut; rw [dif_pos h1, dif_pos h2, dif_pos h3, dif_neg h4]
theorem aOut_4 (c : Dev nD) (t : Fin cfg1.N) (h1 : 1 ≤ t.val % 8) (h2 : 2 ≤ t.val % 8) (h3 : 3 ≤ t.val % 8) (h4 : 4 ≤ t.val % 8) (h5 : ¬5 ≤ t.val % 8) :
    aOut V c t = runOut (attnRun4 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) (fun h => h5 (by have := (hqGe5 t).mp h; omega)) (fun h => h5 (by have := (hqGe6 t).mp h; omega)) (fun h => h5 (by have := (hqGe7 t).mp h; omega)) (ablk V c 0 t) (ablk V c 1 t) (ablk V c 2 t)) := by
  unfold aOut; rw [dif_pos h1, dif_pos h2, dif_pos h3, dif_pos h4, dif_neg h5]
theorem aOut_5 (c : Dev nD) (t : Fin cfg1.N) (h1 : 1 ≤ t.val % 8) (h2 : 2 ≤ t.val % 8) (h3 : 3 ≤ t.val % 8) (h4 : 4 ≤ t.val % 8) (h5 : 5 ≤ t.val % 8) (h6 : ¬6 ≤ t.val % 8) :
    aOut V c t = runOut (attnRun5 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) (fun h => h6 (by have := (hqGe6 t).mp h; omega)) (fun h => h6 (by have := (hqGe7 t).mp h; omega)) (ablk V c 0 t) (ablk V c 1 t) (ablk V c 2 t)) := by
  unfold aOut; rw [dif_pos h1, dif_pos h2, dif_pos h3, dif_pos h4, dif_pos h5, dif_neg h6]
theorem aOut_6 (c : Dev nD) (t : Fin cfg1.N) (h1 : 1 ≤ t.val % 8) (h2 : 2 ≤ t.val % 8) (h3 : 3 ≤ t.val % 8) (h4 : 4 ≤ t.val % 8) (h5 : 5 ≤ t.val % 8) (h6 : 6 ≤ t.val % 8) (h7 : ¬7 ≤ t.val % 8) :
    aOut V c t = runOut (attnRun6 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) (fun h => h7 (by have := (hqGe7 t).mp h; omega)) (ablk V c 0 t) (ablk V c 1 t) (ablk V c 2 t)) := by
  unfold aOut; rw [dif_pos h1, dif_pos h2, dif_pos h3, dif_pos h4, dif_pos h5, dif_pos h6, dif_neg h7]
theorem aOut_7 (c : Dev nD) (t : Fin cfg1.N) (h1 : 1 ≤ t.val % 8) (h2 : 2 ≤ t.val % 8) (h3 : 3 ≤ t.val % 8) (h4 : 4 ≤ t.val % 8) (h5 : 5 ≤ t.val % 8) (h6 : 6 ≤ t.val % 8) (h7 : 7 ≤ t.val % 8) :
    aOut V c t = runOut (attnRun7 c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (hqGe0 t) ((hqGe1 t).mpr h1) ((hqGe2 t).mpr h2) ((hqGe3 t).mpr h3) ((hqGe4 t).mpr h4) ((hqGe5 t).mpr h5) ((hqGe6 t).mpr h6) ((hqGe7 t).mpr h7) (ablk V c 0 t) (ablk V c 1 t) (ablk V c 2 t)) := by
  unfold aOut; rw [dif_pos h1, dif_pos h2, dif_pos h3, dif_pos h4, dif_pos h5, dif_pos h6, dif_pos h7]

/-! ## The pipeline's proof data -/

/-- The attention pipeline's proof data on core `c`: the arrays as the region finds them; after the body at point `t`
    the three inputs' buffers still at their blocks and the output's at `aOut`; nothing kept between points, nothing owed. -/
def adat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => ablk V c 2 t
    | ⟨3, _⟩ => aOut V c t
  Φ _ := Pipeline.ΦA spec1 c
  q _ := fullShare
  owed _ := 0

theorem aA_eq (c : Dev nD) (w : Fin cfg1.W) : (adat V c).A w = V c (Pipeline.arrRef spec1 w) := by
  dsimp only [adat]

theorem aafter_0 (c : Dev nD) (t : Fin cfg1.N) : (adat V c).after 0 t = ablk V c 0 t := by dsimp only [adat]
theorem aafter_1 (c : Dev nD) (t : Fin cfg1.N) : (adat V c).after 1 t = ablk V c 1 t := by dsimp only [adat]
theorem aafter_2 (c : Dev nD) (t : Fin cfg1.N) : (adat V c).after 2 t = ablk V c 2 t := by dsimp only [adat]
theorem aafter_3 (c : Dev nD) (t : Fin cfg1.N) : (adat V c).after 3 t = aOut V c t := by dsimp only [adat]

theorem abefore_0 (c : Dev nD) (t : Fin cfg1.N) (d) : (adat V c).before 0 t d = ablk V c 0 t :=
  abefore_0_of V (adat V c) (aA_eq V c 0) (aafter_0 V c) t d
theorem abefore_1 (c : Dev nD) (t : Fin cfg1.N) (d) : (adat V c).before 1 t d = ablk V c 1 t :=
  abefore_1_of V (adat V c) (aA_eq V c 1) (aafter_1 V c) t d
theorem abefore_2 (c : Dev nD) (t : Fin cfg1.N) (d) : (adat V c).before 2 t d = ablk V c 2 t :=
  abefore_2_of V (adat V c) (aA_eq V c 2) (aafter_2 V c) t d

/-! ## The body obligation -/

set_option maxHeartbeats 1000000 in
/-- Any run at the point's memrefs and blocks discharges the body at the point: the invariant lends the three scratch
    operands and takes them back at whatever they hold, the three inputs stay, the output ends at the run's block. -/
theorem leaf (c : Dev nD) (t : Fin cfg1.N)
    (R : AttnRunSpec c (grid1.coords t) (ms1_0 t) (hs1_0 t) (ms1_1 t) (hs1_1 t) (ms1_2 t) (hs1_2 t) (ms1_3 t) (hs1_3 t) scMax (Memref.isWhole_whole _) scDen (Memref.isWhole_whole _) scNum (Memref.isWhole_whole _) (ablk V c 0 t) (ablk V c 1 t) (ablk V c 2 t))
    (hcov : ∀ y : S1x512x64.Idx, ∃ pc ∈ R.1, y ∈ pc.1.set) (O : sProp 𝕄) :
    iprop(Pipeline.ΦA spec1 c ∗ O
        ∗ owns (c : Thread nD τ) (ms1_0 t) fullShare (ablk V c 0 t) ∗ owns (c : Thread nD τ) (ms1_1 t) fullShare (ablk V c 1 t)
        ∗ owns (c : Thread nD τ) (ms1_2 t) fullShare (ablk V c 2 t) ∗ (∃ d, owns (c : Thread nD τ) (ms1_3 t) fullShare d))
      ⊢ wp frame (wpE (defs₀ (F := F)) Variants.none c none) Set.univ (bodyAt1 t) (fun _ =>
        iprop(Pipeline.ΦA spec1 c ∗ O
          ∗ owns (c : Thread nD τ) (ms1_0 t) fullShare (ablk V c 0 t) ∗ owns (c : Thread nD τ) (ms1_1 t) fullShare (ablk V c 1 t)
          ∗ owns (c : Thread nD τ) (ms1_2 t) fullShare (ablk V c 2 t) ∗ owns (c : Thread nD τ) (ms1_3 t) fullShare (runOut R))) := by
  unfold bodyAt1 runOut
  rw [PhiAttn_eq]
  iintro ⟨⟨⟨R1, R2, R3, R4, R5, R6, R7, R8, R9, HS0, HS1, HS2⟩, Hg⟩, Ho, H0, H1, H2, H3⟩
  iapply (R.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, ⟨%e3, H3⟩, HS0, HS1, HS2⟩
  isplitl [R1 R2 R3 R4 R5 R6 R7 R8 R9 HS0 HS1 HS2 Hg]
  · isplitr [Hg]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ hcov

/-- What the body is called with at point `t`, the windows one by one, -/
def aPre (c : Dev nD) (t : Fin cfg1.N) : sProp 𝕄 :=
  iprop((adat V c).Φ t.castSucc ∗ (adat V c).owesAt () t.castSucc
    ∗ (∃ d, owns (c : Thread nD τ) (st1_0 t) fullShare ((adat V c).before 0 t d))
    ∗ (∃ d, owns (c : Thread nD τ) (st1_1 t) fullShare ((adat V c).before 1 t d))
    ∗ (∃ d, owns (c : Thread nD τ) (st1_2 t) fullShare ((adat V c).before 2 t d))
    ∗ (∃ d, owns (c : Thread nD τ) (st1_3 t) fullShare ((adat V c).before 3 t d)))

/-- and what it returns. -/
def aPost (c : Dev nD) (t : Fin cfg1.N) : sProp 𝕄 :=
  iprop((adat V c).Φ t.succ ∗ (adat V c).owesAt () t.succ
    ∗ owns (c : Thread nD τ) (st1_0 t) fullShare ((adat V c).after 0 t)
    ∗ owns (c : Thread nD τ) (st1_1 t) fullShare ((adat V c).after 1 t)
    ∗ owns (c : Thread nD τ) (st1_2 t) fullShare ((adat V c).after 2 t)
    ∗ owns (c : Thread nD τ) (st1_3 t) fullShare ((adat V c).after 3 t))

set_option maxHeartbeats 1000000 in
/-- The body at any point: the inputs' memrefs hold their blocks; the point's case is q = t mod 8, and that case's run
    discharges it. -/
theorem sound_abody (c : Dev nD) (t : Fin cfg1.N) :
    aPre V c t ⊢ wp frame (wpE (defs₀ (F := F)) Variants.none c none) Set.univ (bodyAt1 t) (fun _ => aPost V c t) := by
  unfold aPre aPost
  simp only [abefore_0, abefore_1, abefore_2]
  rw [show (adat V c).Φ t.succ = (adat V c).Φ t.castSucc from rfl,
    show (adat V c).owesAt () t.succ = (adat V c).owesAt () t.castSucc from rfl,
    aafter_0, aafter_1, aafter_2, aafter_3,
    show (adat V c).Φ t.castSucc = Pipeline.ΦA spec1 c from rfl]
  refine (show _ ⊢ iprop(Pipeline.ΦA spec1 c ∗ (adat V c).owesAt () t.castSucc
        ∗ owns (c : Thread nD τ) (ms1_0 t) fullShare (ablk V c 0 t) ∗ owns (c : Thread nD τ) (ms1_1 t) fullShare (ablk V c 1 t)
        ∗ owns (c : Thread nD τ) (ms1_2 t) fullShare (ablk V c 2 t) ∗ (∃ d, owns (c : Thread nD τ) (ms1_3 t) fullShare d)) from by
      iintro ⟨HΦ, Ho, ⟨%d0, H0⟩, ⟨%d1, H1⟩, ⟨%d2, H2⟩, ⟨%d3, H3⟩⟩
      isplitl [HΦ]; · iexact HΦ
      isplitl [Ho]; · iexact Ho
      isplitl [H0]; · iexact H0
      isplitl [H1]; · iexact H1
      isplitl [H2]; · iexact H2
      iexists _; iexact H3).trans ?_
  by_cases h1 : 1 ≤ t.val % 8
  · by_cases h2 : 2 ≤ t.val % 8
    · by_cases h3 : 3 ≤ t.val % 8
      · by_cases h4 : 4 ≤ t.val % 8
        · by_cases h5 : 5 ≤ t.val % 8
          · by_cases h6 : 6 ≤ t.val % 8
            · by_cases h7 : 7 ≤ t.val % 8
              · rw [aOut_7 V c t h1 h2 h3 h4 h5 h6 h7]
                exact leaf V c t _ (attnCover7 _ _ _ _ _ _ _ _ _ _ _ _ _ _ _ _ _ _ _ _ _ _ _ _ _ _ _) _
              · rw [aOut_6 V c t h1 h2 h3 h4 h5 h6 h7]
                exact leaf V c t _ (attnCover6 _ _ _ _ _ _ _ _ _ _ _ _ _ _ _ _ _ _ _ _ _ _ _ _ _ _ _) _
            · rw [aOut_5 V c t h1 h2 h3 h4 h5 h6]
              exact leaf V c t _ (attnCover5 _ _ _ _ _ _ _ _ _ _ _ _ _ _ _ _ _ _ _ _ _ _ _ _ _ _ _) _
          · rw [aOut_4 V c t h1 h2 h3 h4 h5]
            exact leaf V c t _ (attnCover4 _ _ _ _ _ _ _ _ _ _ _ _ _ _ _ _ _ _ _ _ _ _ _ _ _ _ _) _
        · rw [aOut_3 V c t h1 h2 h3 h4]
          exact leaf V c t _ (attnCover3 _ _ _ _ _ _ _ _ _ _ _ _ _ _ _ _ _ _ _ _ _ _ _ _ _ _ _) _
      · rw [aOut_2 V c t h1 h2 h3]
        exact leaf V c t _ (attnCover2 _ _ _ _ _ _ _ _ _ _ _ _ _ _ _ _ _ _ _ _ _ _ _ _ _ _ _) _
    · rw [aOut_1 V c t h1 h2]
      exact leaf V c t _ (attnCover1 _ _ _ _ _ _ _ _ _ _ _ _ _ _ _ _ _ _ _ _ _ _ _ _ _ _ _) _
  · rw [aOut_0 V c t h1]
    exact leaf V c t _ (attnCover0 _ _ _ _ _ _ _ _ _ _ _ _ _ _ _ _ _ _ _ _ _ _ _ _ _ _ _) _

/-- The library's body obligation, at every point. -/
theorem abody_obligation (c : Dev nD) : BodyObligation (adat (F := F) V c) (defs₀ (F := F)) Variants.none () Set.univ := fun t => by
  rw [bigSep_W1, bigSep_W1]
  exact sound_abody V c t

end Cert.KernelIdeal.Fr

end
-- ==== Proof.KI.Main.lean ====
/-
  The whole program: the weights are stacked, the projection region writes the key, query and value arrays, the
  attention region reads them and writes the result. Here the contents of every unscoped buffer are followed
  through those three items — at launch, after the stacking, after each region (a region's own arrays at what its
  write-backs leave, every other buffer as it was) — the two pipelines' proof data are taken at their regions'
  entry contents, each region is stated as a segment of the program between those contents, and the launch
  theorem for a program of several regions gives the run: every weakly fair execution ends, faulting nowhere,
  with every unscoped buffer at the last contents. Read at the arguments that is the frame; read at the result
  buffer it is what the attention pipeline's write-backs leave there.
-/
import proofs.«425320_j549755813913_3_alg».proof.Proof.KI.Proj
import proofs.«425320_j549755813913_3_alg».proof.Proof.KI.Attn
import proofs.«425320_j549755813913_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)
/-- After the stacking of the three weights. -/
abbrev B1 : Dev nD → Valuation τ sig (Elt F) := fun c => StableHlo.after hostOps0 (B0 m ρ c)
/-- The same read at the TensorCore's references: what the projection region is entered with. -/
abbrev E1 : (c : Dev nD) → (b : Ref sig .tc) → Buf (Elt F) ((c : Thread nD τ).loc b) := fun c b => B1 m ρ c b
/-- After the projection region: its arrays at what the pipeline leaves, every other buffer as entered. -/
def B2 (c : Dev nD) : Valuation τ sig (Elt F) :=
  Pipeline.withArrays spec0 c (B1 m ρ c) fun w => (pdat (E1 m ρ) c).arrAt w cfg0.N
theorem B2_arr (c : Dev nD) (w : Fin cfg0.W) :
    B2 m ρ c (Proc.devRef .tc (Pipeline.arrRef spec0 w)) = (pdat (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- What the attention region is entered with. -/
abbrev E2 : (c : Dev nD) → (b : Ref sig .tc) → Buf (Elt F) ((c : Thread nD τ).loc b) := fun c b => B2 m ρ c b
theorem hF0 (c : Dev nD) (w : Fin cfg0.W) : (pdat (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the attention region: its arrays at what the pipeline leaves, every other buffer as entered. -/
def B3 (c : Dev nD) : Valuation τ sig (Elt F) :=
  Pipeline.withArrays spec1 c (B2 m ρ c) fun w => (adat (E2 m ρ) c).arrAt w cfg1.N
theorem B3_arr (c : Dev nD) (w : Fin cfg1.W) :
    B3 m ρ c (Proc.devRef .tc (Pipeline.arrRef spec1 w)) = (adat (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (adat (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-! ## The arguments end as launched, and the result is the attention pipeline's -/

/-- The stacking writes only the stacked weight. -/
theorem B1_of (c : Dev nD) (b : Ref sig .tc) (hb : b ∉ hostOps0_W) : B1 m ρ c (Proc.devRef .tc b) = m ((c : Thread nD τ).loc b) :=
  StableHlo.after_of_writes_sub hostOps0 _ hostOps0_writes hb

/-- The input is the projection's first window, which only reads it. -/
theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((pdat (E1 m ρ) c).arrAt_in 0 rfl _).trans (pA_eq (E1 m ρ) c 0))
    _ = m ((c : Thread nD τ).loc main_arg0) := B1_of m ρ c main_arg0 (by decide)
/-- The three weights are no region's array. -/
theorem B3_main_arg1 (c : Dev nD) : B3 m ρ c (Proc.devRef .tc main_arg1) = m ((c : Thread nD τ).loc main_arg1) :=
  (B3_of_ne m ρ c main_arg1 (by decide)).trans ((B2_of_ne m ρ c main_arg1 (by decide)).trans (B1_of m ρ c main_arg1 (by decide)))
theorem B3_main_arg2 (c : Dev nD) : B3 m ρ c (Proc.devRef .tc main_arg2) = m ((c : Thread nD τ).loc main_arg2) :=
  (B3_of_ne m ρ c main_arg2 (by decide)).trans ((B2_of_ne m ρ c main_arg2 (by decide)).trans (B1_of m ρ c main_arg2 (by decide)))
theorem B3_main_arg3 (c : Dev nD) : B3 m ρ c (Proc.devRef .tc main_arg3) = m ((c : Thread nD τ).loc main_arg3) :=
  (B3_of_ne m ρ c main_arg3 (by decide)).trans ((B2_of_ne m ρ c main_arg3 (by decide)).trans (B1_of m ρ c main_arg3 (by decide)))
/-- The result buffer is the attention pipeline's output array. -/
theorem B3_main_v2 (c : Dev nD) : B3 m ρ c (Proc.devRef .tc main_v2) = (adat (E2 m ρ) c).arrAt 3 cfg1.N :=
  B3_arr m ρ c 3

/-! ## The proof-data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => pdat (E1 m ρ) c
  | ⟨1, _⟩ => fun c => adat (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev Rider (c : Dev nD) : sProp 𝕄 := iprop((∃ r, prngReg c r) ∗ ∃ W, owes (c : Thread nD τ) (0 : CellTallies nD τ sig Unit) W)
/-- The last thread state without the dues: every unscoped buffer at the last contents, the register at some state. -/
abbrev Tend (c : Dev nD) : sProp 𝕄 := iprop(StableHlo.held (c : Thread nD τ) (Pipeline.ucRefs τ sig) (B3 m ρ c) ∗ ∃ r, prngReg c r)

/-- The stacking as a segment over the unscoped references from the launch contents. -/
abbrev stackSeg : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (B0 m ρ) Rider

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- applying a library lemma stated over the pinned configuration unifies with the printed one only when unification may
-- unfold plain definitions in a metavariable's type
set_option backward.isDefEq.respectTransparency.types false in
/-- THE PROJECTION REGION between the contents after the stacking and the contents after it: its arrays split out of the unscoped buffers and put back at what the pipeline leaves; the generator register into the invariant and out; nothing owed; no semaphore of the kernel's own. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (pbody_obligation (E1 m ρ) c).loose
  hwaits := Pipeline.hwaits_of_owed_zero _ _ _ _ L lv 0 fun _ _ => rfl
  pre c := iprop(StableHlo.held (c : Thread nD τ) (Pipeline.ucRefs τ sig) (B1 m ρ c) ∗ Rider c)
  post c := iprop(StableHlo.held (c : Thread nD τ) (Pipeline.ucRefs τ sig) (B2 m ρ c) ∗ Rider c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- THE ATTENTION REGION between the contents after the projection and the last contents, the same way. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (abody_obligation (E2 m ρ) c).loose
  hwaits := Pipeline.hwaits_of_owed_zero _ _ _ _ L lv 1 fun _ _ => rfl
  pre c := iprop(StableHlo.held (c : Thread nD τ) (Pipeline.ucRefs τ sig) (B2 m ρ c) ∗ Rider c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (stackSeg m ρ), .region (projSeg m ρ), .region (attnSeg m ρ) ]

theorem main_run (c : Dev nD) : main (F := F) c = Pipeline.Seg.run (segs m ρ) := (main_chain c).trans (by chain_rfl)

-- the launch theorem's implicit arguments are found by unifying its conclusion with this one, which takes unfolding plain
-- definitions in a metavariable's type
set_option backward.isDefEq.respectTransparency.types false in
/-- THE RUN: from any memory with zero counters every weakly fair execution of the program terminates, nothing
    faulting, and every final state has each unscoped buffer at the last contents `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rider c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h c => h c)

/-- THE FRAME at any float family: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

/-- THE RUN WITH THE RESULT NAMED: the result buffer ends at what the attention pipeline's write-backs leave in its
    output array, the arguments as launched. -/
theorem run_result : θ_run defs (onTc (τ := τ) (main (F := F))) ⟨m, fun _ => 0, ρ⟩ (fun r => ∀ c : Dev nD,
      r.2.mem ((c.tc : Thread nD τ).loc main_v2) = (adat (E2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v2 (by decide))).trans (B3_main_v2 m ρ c),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c)⟩) (run_all m ρ)

end Cert.KernelIdeal.Fr

end
-- ==== Proof.RefRead.lean ====
/-
  The reference program's run and its stages read at an index, gathered for the modules that
  compare the reference's result with the kernel's.
-/
import proofs.«425320_j549755813913_3_alg».proof.Proof.Gen.ReferenceIdeal.Run
import proofs.«425320_j549755813913_3_alg».proof.Proof.Gen.ReferenceIdeal.Read
-- ==== Proof.Softmax.lean ====
/-
  Causal softmax attention for ONE query row and ONE output column, two ways, on the extended reals.

  The row is row `r` of query block `j` (absolute position `512 j + r`); the 4096 key positions come in 8
  chunks of 512. `plain` is the textbook form: mask the later positions to `⊥`, subtract the row maximum,
  exponentiate, normalise by the sum, and take the weighted sum of the values. `online` is the running form:
  chunk by chunk keep a running maximum `m`, a running denominator `l` and a running numerator `a`, rescaling
  the old `l` and `a` by `exp (m_old - m_new)` whenever the maximum moves, and divide once at the end — stopping
  after chunk `j`, the last one the causal mask lets the row see.

  `online_eq_plain`: for FINITE scores and values the two agree. Position 0 is never masked, so the maximum
  is finite from the first chunk on; every masked position contributes `exp ⊥ = 0`; the rescalings telescope
  (`exp (x - m) * exp (m - m') = exp (x - m')` on the reals); the denominator is at least `exp 0 = 1`, so
  dividing the sum once is dividing each term.
-/
import Idealize.ShloMosaic.PureOps.Ideal
import Mathlib.Data.Finset.Fold
import Mathlib.Algebra.BigOperators.Fin
import Mathlib.Algebra.Order.BigOperators.Group.Finset

noncomputable section

namespace Cert.Proof.Attn

open Idealize.ShloMosaic

/-- A score seen through the causal mask: the row at position `512 j + r` sees key position `512 k + c` iff that
    position is not later than its own. -/
def masked (j : ℕ) (r : Fin 512) (k : ℕ) (c : Fin 512) (s : EReal) : EReal :=
  if 512 * k + c.val ≤ 512 * j + r.val then s else ⊥

/-- One chunk of the running form, on the state (running maximum, running denominator, running numerator):
    `sm` the chunk's masked scores, `vv` the chunk's values. -/
def step (sm vv : Fin 512 → EReal) (st : EReal × EReal × EReal) : EReal × EReal × EReal :=
  (max st.1 ((Finset.univ : Finset (Fin 512)).fold max ⊥ sm),
   Ideal.exp (st.1 - max st.1 ((Finset.univ : Finset (Fin 512)).fold max ⊥ sm)) * st.2.1
     + ∑ c : Fin 512, Ideal.exp (sm c - max st.1 ((Finset.univ : Finset (Fin 512)).fold max ⊥ sm)),
   Ideal.exp (st.1 - max st.1 ((Finset.univ : Finset (Fin 512)).fold max ⊥ sm)) * st.2.2
     + ∑ c : Fin 512, Ideal.exp (sm c - max st.1 ((Finset.univ : Finset (Fin 512)).fold max ⊥ sm)) * vv c)

/-- The state after the first `n` chunks (chunk `k`'s scores `S k`, values `V k`), from `(⊥, 0, 0)`. -/
def run (j : ℕ) (r : Fin 512) (S V : ℕ → Fin 512 → EReal) : ℕ → EReal × EReal × EReal
  | 0 => (⊥, 0, 0)
  | n + 1 => step (fun c => masked j r n c (S n c)) (V n) (run j r S V n)

/-- The running form's result: numerator over denominator after chunks `0 … j`. -/
def online (j : ℕ) (r : Fin 512) (S V : ℕ → Fin 512 → EReal) : EReal :=
  Ideal.div (run j r S V (j + 1)).2.2 (run j r S V (j + 1)).2.1

/-- The textbook form over all 4096 positions: `ML` the masked scores, `Vc` the values. -/
def plain (ML Vc : Fin 4096 → EReal) : EReal :=
  ∑ s : Fin 4096,
    Ideal.div (Ideal.exp (ML s - max ⊥ ((Finset.univ : Finset (Fin 4096)).fold max ⊥ ML)))
        (0 + ∑ s' : Fin 4096, Ideal.exp (ML s' - max ⊥ ((Finset.univ : Finset (Fin 4096)).fold max ⊥ ML)))
      * Vc s

namespace Softmax

/-! ### Sums of coerced reals -/

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-! ### The weights on the reals

`P` is the row's own position. Key position `s` weighs `exp (x s - M)` against the level `M` if the row sees it
(`s ≤ P`) and `0` if not. `den` and `num` are the denominator and numerator over the first `N` positions. -/

/-- The weight of key position `s` against the level `M`. -/
def wt (P : ℕ) (x : ℕ → ℝ) (M : ℝ) (s : ℕ) : ℝ :=
  if s ≤ P then Real.exp (x s - M) else 0

/-- The sum of the weights of the first `N` positions. -/
def den (P : ℕ) (x : ℕ → ℝ) (N : ℕ) (M : ℝ) : ℝ :=
  ∑ s ∈ Finset.range N, wt P x M s

/-- The weighted sum of the values of the first `N` positions. -/
def num (P : ℕ) (x v : ℕ → ℝ) (N : ℕ) (M : ℝ) : ℝ :=
  ∑ s ∈ Finset.range N, wt P x M s * v s

theorem wt_nonneg (P : ℕ) (x : ℕ → ℝ) (M : ℝ) (s : ℕ) : 0 ≤ wt P x M s := by
  unfold wt
  split_ifs
  · exact (Real.exp_pos _).le
  · exact le_rfl

/-- Moving the level from `M` to `M'` multiplies every weight by `exp (M - M')`: the telescoping step. -/
theorem wt_shift (P : ℕ) (x : ℕ → ℝ) (M M' : ℝ) (s : ℕ) :
    Real.exp (M - M') * wt P x M s = wt P x M' s := by
  unfold wt
  split_ifs
  · rw [← Real.exp_add]
    congr 1
    ring
  · exact mul_zero _

theorem den_shift (P : ℕ) (x : ℕ → ℝ) (N : ℕ) (M M' : ℝ) :
    Real.exp (M - M') * den P x N M = den P x N M' := by
  unfold den
  rw [Finset.mul_sum]
  exact Finset.sum_congr rfl (fun s _ => wt_shift P x M M' s)

theorem num_shift (P : ℕ) (x v : ℕ → ℝ) (N : ℕ) (M M' : ℝ) :
    Real.exp (M - M') * num P x v N M = num P x v N M' := by
  unfold num
  rw [Finset.mul_sum]
  refine Finset.sum_congr rfl (fun s _ => ?_)
  rw [← mul_assoc, wt_shift]

/-- One more chunk of 512 positions adds that chunk's weights. -/
theorem den_chunk (P : ℕ) (x : ℕ → ℝ) (n : ℕ) (M : ℝ) :
    den P x (512 * (n + 1)) M = den P x (512 * n) M + ∑ c : Fin 512, wt P x M (512 * n + c.val) := by
  unfold den
  rw [Nat.mul_succ, Finset.sum_range_add, Fin.sum_univ_eq_sum_range (fun s => wt P x M (512 * n + s)) 512]

theorem num_chunk (P : ℕ) (x v : ℕ → ℝ) (n : ℕ) (M : ℝ) :
    num P x v (512 * (n + 1)) M
      = num P x v (512 * n) M + ∑ c : Fin 512, wt P x M (512 * n + c.val) * v (512 * n + c.val) := by
  unfold num
  rw [Nat.mul_succ, Finset.sum_range_add,
    Fin.sum_univ_eq_sum_range (fun s => wt P x M (512 * n + s) * v (512 * n + s)) 512]

/-- Position 0 is visible to every row, so the denominator is positive as soon as it has a term. -/
theorem den_pos (P : ℕ) (x : ℕ → ℝ) {N : ℕ} (hN : 0 < N) (M : ℝ) : 0 < den P x N M := by
  unfold den
  refine Finset.sum_pos' (fun s _ => wt_nonneg P x M s) ⟨0, Finset.mem_range.mpr hN, ?_⟩
  unfold wt
  rw [if_pos (Nat.zero_le _)]
  exact Real.exp_pos _

/-- Positions past the row's own weigh nothing, so the sums stop growing there. -/
theorem den_trunc (P : ℕ) (x : ℕ → ℝ) {N K : ℕ} (hN : P < N) (hNK : N ≤ K) (M : ℝ) :
    den P x K M = den P x N M := by
  unfold den
  symm
  refine Finset.sum_subset (Finset.range_subset_range.mpr hNK) (fun s _ hs => ?_)
  unfold wt
  rw [if_neg]
  rw [Finset.mem_range] at hs
  omega

theorem num_trunc (P : ℕ) (x v : ℕ → ℝ) {N K : ℕ} (hN : P < N) (hNK : N ≤ K) (M : ℝ) :
    num P x v K M = num P x v N M := by
  unfold num
  symm
  refine Finset.sum_subset (Finset.range_subset_range.mpr hNK) (fun s _ hs => ?_)
  unfold wt
  rw [if_neg, zero_mul]
  rw [Finset.mem_range] at hs
  omega

/-- The ratio of numerator to denominator does not depend on the level. -/
theorem ratio_shift (P : ℕ) (x v : ℕ → ℝ) (N : ℕ) (M M' : ℝ) :
    num P x v N M / den P x N M = num P x v N M' / den P x N M' := by
  rw [← num_shift P x v N M M', ← den_shift P x N M M', mul_div_mul_left _ _ (Real.exp_pos _).ne']

/-! ### The same on the extended reals -/

/-- The exponential of a masked score minus a finite level is the coerced weight: a masked score is `⊥`,
    `⊥ - M = ⊥` and `exp ⊥ = 0`. -/
theorem exp_masked (P : ℕ) (x : ℕ → ℝ) (M : ℝ) (s : ℕ) :
    Ideal.exp ((if s ≤ P then ((x s : ℝ) : EReal) else ⊥) - (M : EReal)) = ((wt P x M s : ℝ) : EReal) := by
  unfold wt
  split_ifs
  · rw [← EReal.coe_sub, Ideal.exp_coe]
  · rw [EReal.bot_sub, Ideal.exp_bot, EReal.coe_zero]

/-- A maximum of an old level and finitely many scores, none of them `⊤`, and the old level or one score not
    `⊥`, is a real number. -/
theorem exists_coe_max {n : ℕ} (m : EReal) (sm : Fin n → EReal) (hm : m ≠ ⊤) (hsm : ∀ c, sm c ≠ ⊤)
    (hb : m ≠ ⊥ ∨ ∃ c, sm c ≠ ⊥) :
    ∃ M' : ℝ, max m ((Finset.univ : Finset (Fin n)).fold max ⊥ sm) = (M' : EReal) := by
  have h1 : max m ((Finset.univ : Finset (Fin n)).fold max ⊥ sm) ≠ ⊤ := by
    apply ne_of_lt
    refine max_lt (lt_top_iff_ne_top.mpr hm) ?_
    rw [Finset.fold_max_lt]
    exact ⟨bot_lt_top, fun c _ => lt_top_iff_ne_top.mpr (hsm c)⟩
  have h2 : max m ((Finset.univ : Finset (Fin n)).fold max ⊥ sm) ≠ ⊥ := by
    apply ne_of_gt
    rcases hb with hb | ⟨c, hc⟩
    · exact lt_of_lt_of_le (bot_lt_iff_ne_bot.mpr hb) (le_max_left _ _)
    · refine lt_of_lt_of_le (bot_lt_iff_ne_bot.mpr hc) (le_trans ?_ (le_max_right _ _))
      rw [Finset.le_fold_max]
      exact Or.inr ⟨c, Finset.mem_univ c, le_rfl⟩
  exact ⟨_, (EReal.coe_toReal h1 h2).symm⟩

/-- One chunk from a finite level `M`: if the new level is the real `M'`, the chunk's exponentials are the coerced
    reals `e c` and its values the coerced reals `w c`, the new denominator and numerator are the old ones rescaled by
    `exp (M - M')` plus the chunk's sums, all coerced reals. -/
theorem step_coe (sm vv : Fin 512 → EReal) (e w : Fin 512 → ℝ) (M M' L A : ℝ)
    (hmax : max (M : EReal) ((Finset.univ : Finset (Fin 512)).fold max ⊥ sm) = (M' : EReal))
    (he : ∀ c, Ideal.exp (sm c - (M' : EReal)) = ((e c : ℝ) : EReal))
    (hv : ∀ c, vv c = ((w c : ℝ) : EReal)) :
    step sm vv ((M : EReal), (L : EReal), (A : EReal))
      = ((M' : EReal), ((Real.exp (M - M') * L + ∑ c, e c : ℝ) : EReal),
          ((Real.exp (M - M') * A + ∑ c, e c * w c : ℝ) : EReal)) := by
  unfold step
  dsimp only
  rw [hmax]
  simp only [he, hv]
  rw [← EReal.coe_sub, Ideal.exp_coe]
  simp only [← EReal.coe_mul, coe_sum, ← EReal.coe_add]

/-- The first chunk, from the empty state `(⊥, 0, 0)`: `exp (⊥ - M') = 0` kills the old terms. -/
theorem step_bot (sm vv : Fin 512 → EReal) (e w : Fin 512 → ℝ) (M' : ℝ)
    (hmax : max (⊥ : EReal) ((Finset.univ : Finset (Fin 512)).fold max ⊥ sm) = (M' : EReal))
    (he : ∀ c, Ideal.exp (sm c - (M' : EReal)) = ((e c : ℝ) : EReal))
    (hv : ∀ c, vv c = ((w c : ℝ) : EReal)) :
    step sm vv ((⊥ : EReal), (0 : EReal), (0 : EReal))
      = ((M' : EReal), ((∑ c, e c : ℝ) : EReal), ((∑ c, e c * w c : ℝ) : EReal)) := by
  unfold step
  dsimp only
  rw [hmax]
  simp only [he, hv]
  rw [EReal.bot_sub, Ideal.exp_bot]
  simp only [← EReal.coe_mul, coe_sum, zero_mul, zero_add]

/-- A masked score is never `⊤`. -/
theorem masked_ne_top (j : ℕ) (r : Fin 512) (k : ℕ) (c : Fin 512) (y : ℝ) :
    masked j r k c ((y : ℝ) : EReal) ≠ ⊤ := by
  unfold masked
  split_ifs
  · exact EReal.coe_ne_top _
  · exact bot_ne_top

/-- After `n + 1` chunks the running state is a finite level `M` with the denominator and numerator of the first
    `512 (n + 1)` positions against that level. -/
theorem run_succ (j : ℕ) (r : Fin 512) (x v : ℕ → ℝ) (n : ℕ) :
    ∃ M : ℝ,
      run j r (fun k c => ((x (512 * k + c.val) : ℝ) : EReal)) (fun k c => ((v (512 * k + c.val) : ℝ) : EReal)) (n + 1)
        = ((M : EReal), ((den (512 * j + r.val) x (512 * (n + 1)) M : ℝ) : EReal),
            ((num (512 * j + r.val) x v (512 * (n + 1)) M : ℝ) : EReal)) := by
  induction n with
  | zero =>
    obtain ⟨M', hM'⟩ := exists_coe_max (⊥ : EReal)
      (fun c : Fin 512 => masked j r 0 c ((x (512 * 0 + c.val) : ℝ) : EReal)) bot_ne_top
      (fun c => masked_ne_top j r 0 c _)
      (Or.inr ⟨⟨0, by norm_num⟩, by
        unfold masked
        rw [if_pos (by simp)]
        exact EReal.coe_ne_bot _⟩)
    refine ⟨M', ?_⟩
    rw [run, run,
      step_bot _ _ (fun c => wt (512 * j + r.val) x M' (512 * 0 + c.val)) (fun c => v (512 * 0 + c.val)) M' hM'
        (fun c => exp_masked (512 * j + r.val) x M' (512 * 0 + c.val)) (fun c => rfl),
      den_chunk, num_chunk]
    simp [den, num]
  | succ n ih =>
    obtain ⟨M, hM⟩ := ih
    obtain ⟨M', hM'⟩ := exists_coe_max (M : EReal)
      (fun c : Fin 512 => masked j r (n + 1) c ((x (512 * (n + 1) + c.val) : ℝ) : EReal)) (EReal.coe_ne_top _)
      (fun c => masked_ne_top j r (n + 1) c _) (Or.inl (EReal.coe_ne_bot _))
    refine ⟨M', ?_⟩
    rw [run, hM,
      step_coe _ _ (fun c => wt (512 * j + r.val) x M' (512 * (n + 1) + c.val))
        (fun c => v (512 * (n + 1) + c.val)) M M' _ _ hM'
        (fun c => exp_masked (512 * j + r.val) x M' (512 * (n + 1) + c.val)) (fun c => rfl),
      den_shift, num_shift, ← den_chunk, ← num_chunk]

/-- The textbook form is the ratio of numerator to denominator over all 4096 positions, against its own (finite)
    maximum as the level. -/
theorem plain_eq (P : ℕ) (x v : ℕ → ℝ) :
    ∃ M : ℝ,
      plain (fun s => if s.val ≤ P then ((x s.val : ℝ) : EReal) else ⊥) (fun s => ((v s.val : ℝ) : EReal))
        = ((num P x v 4096 M / den P x 4096 M : ℝ) : EReal) := by
  obtain ⟨M, hM⟩ := exists_coe_max (⊥ : EReal)
    (fun s : Fin 4096 => if s.val ≤ P then ((x s.val : ℝ) : EReal) else ⊥) bot_ne_top
    (fun s => by
      split_ifs
      · exact EReal.coe_ne_top _
      · exact bot_ne_top)
    (Or.inr ⟨⟨0, by norm_num⟩, by
      rw [if_pos (Nat.zero_le _)]
      exact EReal.coe_ne_bot _⟩)
  refine ⟨M, ?_⟩
  have hZ : (∑ s : Fin 4096, wt P x M s.val) = den P x 4096 M :=
    Fin.sum_univ_eq_sum_range (fun s => wt P x M s) 4096
  have hZ0 : den P x 4096 M ≠ 0 := (den_pos P x (by norm_num) M).ne'
  unfold plain
  rw [hM]
  simp only [exp_masked, coe_sum, zero_add, hZ, Ideal.div_coe hZ0, ← EReal.coe_mul]
  congr 1
  rw [Fin.sum_univ_eq_sum_range (fun s => wt P x M s * (1 / den P x 4096 M) * v s) 4096]
  unfold num
  rw [Finset.sum_div]
  refine Finset.sum_congr rfl (fun s _ => ?_)
  ring

end Softmax

/-- For finite scores `x` and values `v` (indexed by absolute key position) the running form over chunks `0 … j`
    is the textbook form over all positions. -/
theorem online_eq_plain (j : Fin 8) (r : Fin 512) (x v : ℕ → ℝ) :
    online j.val r (fun k c => ((x (512 * k + c.val) : ℝ) : EReal)) (fun k c => ((v (512 * k + c.val) : ℝ) : EReal))
      = plain (fun s => if s.val ≤ 512 * j.val + r.val then ((x s.val : ℝ) : EReal) else ⊥)
          (fun s => ((v s.val : ℝ) : EReal)) := by
  obtain ⟨M, hM⟩ := Softmax.run_succ j.val r x v j.val
  obtain ⟨Mp, hP⟩ := Softmax.plain_eq (512 * j.val + r.val) x v
  have hN : 512 * j.val + r.val < 512 * (j.val + 1) := by
    have := r.isLt
    omega
  have hK : 512 * (j.val + 1) ≤ 4096 := by
    have := j.isLt
    omega
  have hD : Softmax.den (512 * j.val + r.val) x (512 * (j.val + 1)) M ≠ 0 :=
    (Softmax.den_pos _ x (by omega) M).ne'
  rw [hP]
  unfold online
  rw [hM]
  dsimp only
  rw [Ideal.div_coe hD, ← EReal.coe_mul, mul_one_div,
    Softmax.den_trunc _ x hN hK Mp, Softmax.num_trunc _ x v hN hK Mp,
    Softmax.ratio_shift _ x v _ M Mp]

end Cert.Proof.Attn

end
-- ==== Proof.AttnDefs.lean ====
/-
  The real-valued quantities both programs compute, for finite inputs: `x` the input (8 batches of 4096 positions
  of 1024 features) and a 64 × 1024 weight `w`.

  * `projR x w b t e` — feature `e` of position `t` of batch `b` projected by `w`: the sum over the 1024 features of
    `x[b, t, ·] · w[e, ·]`.
  * `scoreR x wq wk b t s` — the scaled score of query position `t` against key position `s`: the sum over the 64
    projected features of (query feature) · (key feature), divided by 8 (the square root of 64).
  * `valR x wv b d s` — column `d` of the projected value at position `s`.
  Positions are natural numbers here (the causal mask compares them as numbers); outside 0 … 4095 the value is 0
  and is never used.
-/
import Idealize.ShloMosaic.Lib.ValueIdx

noncomputable section

namespace Cert.Proof.Attn

open Idealize.ShloMosaic Idealize.ShloMosaic.ValueIdx

/-- One projected feature: `∑ c, x[b, t, c] · w[e, c]`. -/
def projR (x : (⟨3, ![8, 4096, 1024]⟩ : Shape).Idx → ℝ) (w : (⟨2, ![64, 1024]⟩ : Shape).Idx → ℝ)
    (b : Fin 8) (t : Fin 4096) (e : Fin 64) : ℝ :=
  ∑ c : Fin 1024, x (ix3 b t c) * w (ix2 e c)

/-- The scaled score of query position `t` against key position `s` in batch `b`. -/
def scoreR (x : (⟨3, ![8, 4096, 1024]⟩ : Shape).Idx → ℝ) (wq wk : (⟨2, ![64, 1024]⟩ : Shape).Idx → ℝ)
    (b : Fin 8) (t s : ℕ) : ℝ :=
  if h : t < 4096 ∧ s < 4096 then (∑ e : Fin 64, projR x wq b ⟨t, h.1⟩ e * projR x wk b ⟨s, h.2⟩ e) / 8 else 0

/-- Column `d` of the projected value at position `s` of batch `b`. -/
def valR (x : (⟨3, ![8, 4096, 1024]⟩ : Shape).Idx → ℝ) (wv : (⟨2, ![64, 1024]⟩ : Shape).Idx → ℝ)
    (b : Fin 8) (d : Fin 64) (s : ℕ) : ℝ :=
  if h : s < 4096 then projR x wv b ⟨s, h⟩ d else 0

end Cert.Proof.Attn

end
-- ==== Proof.RefAttn.lean ====
/-
  The reference program's result, read at one index: for finite inputs, entry (b, 512 j + r, d) of the
  reference's result array is the textbook causal softmax attention of that row — the scaled scores of row
  `512 j + r` against every key position, masked where the key position is later, normalised, and summed against
  column `d` of the projected values.
-/
import proofs.«425320_j549755813913_3_alg».proof.Proof.RefRead
import proofs.«425320_j549755813913_3_alg».proof.Proof.Softmax
import proofs.«425320_j549755813913_3_alg».proof.Proof.AttnDefs
import Idealize.ShloMosaic.Lib.ValueIdx
import Idealize.ShloMosaic.Lib.Pipeline.Value
import Idealize.ShloMosaic.PureOps.Ideal.Laws
import Idealize.ShloMosaic.Lib.StableHlo.Predicate

noncomputable section

namespace Cert.Proof.Attn

open Idealize.ShloMosaic Idealize.ShloMosaic.ValueIdx Cert.ReferenceIdeal

namespace RefAttn

/-! ### The constants -/

theorem ofBits_neg_inf : Ideal.ofBits .f32 0xFF800000#32 = (⊥ : EReal) := by
  simp [Ideal.ofBits, Ideal.ieee]

theorem ofBits_64 : Ideal.ofBits .f32 0x42800000#32 = ((64 : ℝ) : EReal) := by
  simp [Ideal.ofBits, Ideal.ieee]
  norm_num
  rw [← EReal.coe_mul]
  norm_num

theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-! ### The causal mask -/

/-- A select between the bits 1 and 0 is 1 exactly when its condition is. -/
theorem select_one_zero_iff (c : BitVec 1) : Scalar.select c 1#1 0#1 = 1#1 ↔ c = 1#1 := by
  unfold Scalar.select
  split_ifs with h
  · exact ⟨fun _ => h, fun _ => rfl⟩
  · exact ⟨fun h' => absurd h' (by decide), fun h' => absurd h' h⟩

/-- The mask bit at (b, t, s) is set exactly when key position `s` is not later than query position `t`. -/
theorem mask_iff {F : FTy → Type} [FloatOps F] (b : Fin 8) (t s : Fin 4096) :
    Read.val_main_call1_v1 (F := F) (ix3 b t s) = 1#1 ↔ s.val ≤ t.val := by
  rw [Read.val_main_call1_v1_apply, Read.val_main_v9_apply, Read.val_main_v8_apply, Read.val_main_v7_apply,
    Read.val_main_c_apply, Read.val_main_call0_v5_apply, Read.val_main_call0_c_0_apply,
    Read.val_main_call0_v4_apply, Read.val_main_call0_v2_apply, Read.val_main_call0_v0_apply,
    Read.val_main_call0_v1_apply, Read.val_main_call0_c_apply, Read.val_main_call0_v3_apply]
  show Scalar.select (IntOp.cmpi .sge (IntOp.addi (BitVec.ofNat 32 t.val) 0#32) (BitVec.ofNat 32 s.val)) 1#1 0#1 = 1#1 ↔ _
  have ht : (BitVec.ofNat 32 t.val).toNat = t.val := by
    rw [BitVec.toNat_ofNat]
    exact Nat.mod_eq_of_lt (by have := t.isLt; omega)
  have hs : (BitVec.ofNat 32 s.val).toNat = s.val := by
    rw [BitVec.toNat_ofNat]
    exact Nat.mod_eq_of_lt (by have := s.isLt; omega)
  rw [select_one_zero_iff, IntOp.addi, BitVec.add_zero,
    StableHlo.Predicate.sge_iff_toNat (by rw [ht]; have := t.isLt; omega) (by rw [hs]; have := s.isLt; omega), ht, hs]

/-! ### Projections, scores, values -/

/-- A projection of coerced reals is the coerced real projection. -/
theorem proj_coe (x : S8x4096x1024.Idx → ℝ) (w : S64x1024.Idx → ℝ) (b : Fin 8) (t : Fin 4096) (e : Fin 64) :
    Read.val_main_v0 (F := Ideal) (fun i => ((x i : ℝ) : EReal)) (fun i => ((w i : ℝ) : EReal)) (ix3 b t e)
      = ((projR x w b t e : ℝ) : EReal) := by
  rw [Read.val_main_v0_apply]
  unfold projR
  rw [← Softmax.coe_sum]
  refine Finset.sum_congr rfl (fun c _ => ?_)
  have hl : Read.lidx_main_v0 (ix3 b t e) c = ix3 b t c := by
    funext a
    match a with
    | ⟨0, _⟩ => rfl
    | ⟨1, _⟩ => rfl
    | ⟨2, _⟩ => rfl
  have hr : Read.ridx_main_v0 (ix3 b t e) c = ix2 e c := by
    funext a
    match a with
    | ⟨0, _⟩ => rfl
    | ⟨1, _⟩ => rfl
  rw [hl, hr, EReal.coe_mul]

theorem proj_coe1 (x : S8x4096x1024.Idx → ℝ) (w : S64x1024.Idx → ℝ) (b : Fin 8) (t : Fin 4096) (e : Fin 64) :
    Read.val_main_v1 (F := Ideal) (fun i => ((x i : ℝ) : EReal)) (fun i => ((w i : ℝ) : EReal)) (ix3 b t e)
      = ((projR x w b t e : ℝ) : EReal) :=
  proj_coe x w b t e

theorem proj_coe2 (x : S8x4096x1024.Idx → ℝ) (w : S64x1024.Idx → ℝ) (b : Fin 8) (t : Fin 4096) (e : Fin 64) :
    Read.val_main_v2 (F := Ideal) (fun i => ((x i : ℝ) : EReal)) (fun i => ((w i : ℝ) : EReal)) (ix3 b t e)
      = ((projR x w b t e : ℝ) : EReal) :=
  proj_coe x w b t e

/-- The divisor: the square root of 64, everywhere. -/
theorem sqrt_bcast (i : S8x4096x4096.Idx) : Read.val_main_v5 (F := Ideal) i = ((8 : ℝ) : EReal) := by
  rw [Read.val_main_v5_apply, Read.val_main_v4_apply, Read.val_main_cst_apply, Ideal.hostUnary_sqrt_def,
    Ideal.ofBits_def, ofBits_64, sqrt_64]

/-- The score between two positions inside the array. -/
theorem scoreR_eq (x : S8x4096x1024.Idx → ℝ) (wq wk : S64x1024.Idx → ℝ) (b : Fin 8) (t s : Fin 4096) :
    scoreR x wq wk b t.val s.val = (∑ e : Fin 64, projR x wq b t e * projR x wk b s e) / 8 := by
  unfold scoreR
  rw [dif_pos ⟨t.isLt, s.isLt⟩]

/-- The scaled score of coerced reals is the coerced real score. -/
theorem score_coe (x : S8x4096x1024.Idx → ℝ) (wk wq : S64x1024.Idx → ℝ) (b : Fin 8) (t s : Fin 4096) :
    Read.val_main_v6 (F := Ideal) (fun i => ((x i : ℝ) : EReal)) (fun i => ((wk i : ℝ) : EReal))
        (fun i => ((wq i : ℝ) : EReal)) (ix3 b t s)
      = ((scoreR x wq wk b t.val s.val : ℝ) : EReal) := by
  rw [Read.val_main_v6_apply, Ideal.hostDivf_def, sqrt_bcast, Read.val_main_v3_apply]
  have hsum : (∑ e : Fin 64,
        Read.val_main_v1 (F := Ideal) (fun i => ((x i : ℝ) : EReal)) (fun i => ((wq i : ℝ) : EReal))
            (Read.lidx_main_v3 (ix3 b t s) e)
          * Read.val_main_v0 (F := Ideal) (fun i => ((x i : ℝ) : EReal)) (fun i => ((wk i : ℝ) : EReal))
            (Read.ridx_main_v3 (ix3 b t s) e))
      = ((∑ e : Fin 64, projR x wq b t e * projR x wk b s e : ℝ) : EReal) := by
    rw [← Softmax.coe_sum]
    refine Finset.sum_congr rfl (fun e _ => ?_)
    have hl : Read.lidx_main_v3 (ix3 b t s) e = ix3 b t e := by
      funext a
      match a with
      | ⟨0, _⟩ => rfl
      | ⟨1, _⟩ => rfl
      | ⟨2, _⟩ => rfl
    have hr : Read.ridx_main_v3 (ix3 b t s) e = ix3 b s e := by
      funext a
      match a with
      | ⟨0, _⟩ => rfl
      | ⟨1, _⟩ => rfl
      | ⟨2, _⟩ => rfl
    rw [hl, hr, proj_coe1, proj_coe, EReal.coe_mul]
  rw [scoreR_eq, hsum, Ideal.div_coe (by norm_num), ← EReal.coe_mul, mul_one_div]

/-- The masked score: the coerced real score where the row sees the key position, `⊥` where it does not. -/
theorem masked_score (x : S8x4096x1024.Idx → ℝ) (wk wq : S64x1024.Idx → ℝ) (b : Fin 8) (t s : Fin 4096) :
    Read.val_main_v10 (F := Ideal) (fun i => ((x i : ℝ) : EReal)) (fun i => ((wk i : ℝ) : EReal))
        (fun i => ((wq i : ℝ) : EReal)) (ix3 b t s)
      = if s.val ≤ t.val then ((scoreR x wq wk b t.val s.val : ℝ) : EReal) else ⊥ := by
  rw [Read.val_main_v10_apply]
  by_cases h : s.val ≤ t.val
  · rw [if_pos h, (mask_iff b t s).mpr h, select_one, score_coe]
  · rw [if_neg h, eq_zero_of_ne_one (fun h1 => h ((mask_iff b t s).mp h1)), select_zero,
      Read.val_main_call1_v2_apply, Read.val_main_call1_v0_apply, Read.val_main_cst_0_apply, Ideal.ofBits_def,
      ofBits_neg_inf]

/-- The value column of coerced reals is the coerced real value column. -/
theorem value_coe (x : S8x4096x1024.Idx → ℝ) (wv : S64x1024.Idx → ℝ) (b : Fin 8) (d : Fin 64) (s : Fin 4096) :
    Read.val_main_v2 (F := Ideal) (fun i => ((x i : ℝ) : EReal)) (fun i => ((wv i : ℝ) : EReal)) (ix3 b s d)
      = ((valR x wv b d s.val : ℝ) : EReal) := by
  rw [proj_coe2]
  unfold valR
  rw [dif_pos s.isLt]

/-! ### The softmax stages, for any inputs -/

section Stages

variable (X : (⟨S8x4096x1024, .f32⟩ : BufTy).Contents (Elt Ideal))
  (W1 W2 W3 : (⟨S64x1024, .f32⟩ : BufTy).Contents (Elt Ideal))

theorem reduces_d2 : S8x4096x4096.Reduces [2] S8x4096 := by decide

/-- The reduced index (b, t) with key position `k` put back on the last axis is (b, t, k). -/
theorem lift_d2 (b : Fin 8) (t : Fin 4096) (k : Fin (S8x4096x4096.size 2)) :
    reduces_d2.lift (ix2 b t) k = ix3 b t (⟨k.val, k.isLt⟩ : Fin 4096) := by
  funext c
  apply Fin.ext
  fin_cases c <;> rfl

/-- The row maximum is the fold of `max` from `⊥` over the row's masked scores. -/
theorem rowmax_eq (b : Fin 8) (t : Fin 4096) :
    Read.val_main_v11 (F := Ideal) X W1 W2 (ix2 b t)
      = (Finset.univ : Finset (Fin 4096)).fold max (⊥ : EReal)
          (fun k => Read.val_main_v10 (F := Ideal) X W1 W2 (ix3 b t k)) := by
  unfold Read.val_main_v11
  rw [Host.reduce_eq_fold_single FloatOps.maximumf _ _ Gen.reducesTo_S8x4096x4096_S8x4096_d2 reduces_d2 Gen.h_S_,
    Read.val_main_cst_1_apply, Ideal.ofBits_def, ofBits_neg_inf]
  have hf : (Read.val_main_v10 (F := Ideal) X W1 W2 ∘ reduces_d2.lift (ix2 b t))
      = fun k : Fin 4096 => Read.val_main_v10 (F := Ideal) X W1 W2 (ix3 b t k) :=
    funext fun k => congrArg (Read.val_main_v10 (F := Ideal) X W1 W2) (lift_d2 b t k)
  exact congrArg (fun f => Finset.fold max (⊥ : EReal) f (Finset.univ : Finset (Fin 4096))) hf

/-- The level subtracted in row (b, t): the maximum of `⊥` and the row maximum. -/
theorem level_eq (b : Fin 8) (t k : Fin 4096) :
    Read.val_main_v15 (F := Ideal) X W1 W2 (ix3 b t k)
      = max (⊥ : EReal) ((Finset.univ : Finset (Fin 4096)).fold max (⊥ : EReal)
          (fun k' => Read.val_main_v10 (F := Ideal) X W1 W2 (ix3 b t k'))) := by
  have hi : Read.idx_main_v14 (Read.idx_main_v15 (ix3 b t k)) = ix2 b t := by
    funext a
    match a with
    | ⟨0, _⟩ => rfl
    | ⟨1, _⟩ => rfl
  rw [Read.val_main_v15_apply, Read.val_main_v14_apply, Read.val_main_v13_apply, Read.val_main_v12_apply,
    Read.val_main_cst_2_apply, Ideal.maximumf_def, Ideal.ofBits_def, ofBits_neg_inf, hi, rowmax_eq]

/-- The exponential at (b, t, k). -/
theorem exp_eq (b : Fin 8) (t k : Fin 4096) :
    Read.val_main_v17 (F := Ideal) X W1 W2 (ix3 b t k)
      = Ideal.exp (Read.val_main_v10 (F := Ideal) X W1 W2 (ix3 b t k)
          - max (⊥ : EReal) ((Finset.univ : Finset (Fin 4096)).fold max (⊥ : EReal)
              (fun k' => Read.val_main_v10 (F := Ideal) X W1 W2 (ix3 b t k')))) := by
  rw [Read.val_main_v17_apply, Ideal.hostUnary_exp_def, Read.val_main_v16_apply, Ideal.subf_def, level_eq]

/-- The denominator at (b, t, k): zero plus the row's sum of exponentials. -/
theorem denom_eq (b : Fin 8) (t k : Fin 4096) :
    Read.val_main_v20 (F := Ideal) X W1 W2 (ix3 b t k)
      = 0 + ∑ k' : Fin 4096, Read.val_main_v17 (F := Ideal) X W1 W2 (ix3 b t k') := by
  have hi : Read.idx_main_v19 (Read.idx_main_v20 (ix3 b t k)) = ix2 b t := by
    funext a
    match a with
    | ⟨0, _⟩ => rfl
    | ⟨1, _⟩ => rfl
  rw [Read.val_main_v20_apply, Read.val_main_v19_apply, Read.val_main_v18_apply, Read.val_main_cst_3_apply,
    Ideal.ofBits_def, Ideal.ofBits_zero_f32, hi]
  refine congrArg (fun y : EReal => 0 + y) (Finset.sum_congr rfl (fun k' _ => ?_))
  have hk : Read.idx_main_v18 (ix2 b t) k' = ix3 b t k' := by
    funext a
    match a with
    | ⟨0, _⟩ => rfl
    | ⟨1, _⟩ => rfl
    | ⟨2, _⟩ => rfl
  rw [hk]

/-- The result at (b, t, d) is the textbook form of row (b, t)'s masked scores against value column `d`. -/
theorem result_eq (b : Fin 8) (t : Fin 4096) (d : Fin 64) :
    Read.val_main_v22 (F := Ideal) X W1 W2 W3 (ix3 b t d)
      = plain (fun k => Read.val_main_v10 (F := Ideal) X W1 W2 (ix3 b t k))
          (fun k => Read.val_main_v2 (F := Ideal) X W3 (ix3 b k d)) := by
  rw [Read.val_main_v22_apply]
  unfold plain
  refine Finset.sum_congr rfl (fun k _ => ?_)
  have hl : Read.lidx_main_v22 (ix3 b t d) k = ix3 b t k := by
    funext a
    match a with
    | ⟨0, _⟩ => rfl
    | ⟨1, _⟩ => rfl
    | ⟨2, _⟩ => rfl
  have hr : Read.ridx_main_v22 (ix3 b t d) k = ix3 b k d := by
    funext a
    match a with
    | ⟨0, _⟩ => rfl
    | ⟨1, _⟩ => rfl
    | ⟨2, _⟩ => rfl
  rw [hl, hr, Read.val_main_v21_apply, Ideal.hostDivf_def, denom_eq]
  simp only [exp_eq]

end Stages

end RefAttn

/-- The reference's result at entry (b, 512 j + r, d), for inputs that are coerced reals, is the textbook form
    `plain` of the row's masked scaled scores and the value column. -/
theorem ref_at (x : S8x4096x1024.Idx → ℝ) (wk wq wv : S64x1024.Idx → ℝ) (b : Fin 8) (j : Fin 8) (r : Fin 512) (d : Fin 64) :
    Cert.ReferenceIdeal.Read.val_main_v22 (F := Ideal) (fun i => ((x i : ℝ) : EReal)) (fun i => ((wk i : ℝ) : EReal))
        (fun i => ((wq i : ℝ) : EReal)) (fun i => ((wv i : ℝ) : EReal))
        (ix3 b (⟨512 * j.val + r.val, by omega⟩ : Fin 4096) d)
      = plain (fun s => if s.val ≤ 512 * j.val + r.val then ((scoreR x wq wk b (512 * j.val + r.val) s.val : ℝ) : EReal) else ⊥)
          (fun s => ((valR x wv b d s.val : ℝ) : EReal)) := by
  rw [RefAttn.result_eq]
  exact congrArg₂ plain (funext fun s => RefAttn.masked_score x wk wq b _ s)
    (funext fun s => RefAttn.value_coe x wv b d s)

end Cert.Proof.Attn

end
-- ==== Proof.Val0.lean ====
/-
  The projection region's three result arrays at one entry, at the ideal values, for finite inputs.

  When the region is entered the input array holds `x` and the stacked weight holds the key weight `wk`, the query
  weight `wq` and the value weight `wv` one above the other (rows 0 … 63, 64 … 127, 128 … 191). Grid point (b, h)
  reads rows 2048 h … 2048 h + 2047 of batch b, multiplies them by the stacked weight over the 1024 features, and
  writes columns 0 … 63, 64 … 127 (times 1/8) and 128 … 191 of the product to the same rows of the key, query and
  value arrays. Every row of every batch is written by exactly one point, so after the region entry (b, t, e) of the
  three arrays is the key, query (times 1/8) and value projection of position t of batch b.
-/
import proofs.«425320_j549755813913_3_alg».proof.Proof.KI.Proj
import proofs.«425320_j549755813913_3_alg».proof.Proof.AttnDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr Cert.Proof
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b)) (c : Dev nD)
variable (x : S8x4096x1024.Idx → ℝ) (wk wq wv : S64x1024.Idx → ℝ)

/-! ## The product at an index -/

/-- At output index `i` and contraction index `q` the product reads the left operand at row `i 0`. -/
theorem mm_lhs_0 (i : S2048x192.Idx) (q : dot_S2048x1024_S192x1024_S2048x192_1_1_0_0_n_n.contr.Idx) :
    (dot_S2048x1024_S192x1024_S2048x192_1_1_0_0_n_n.lhsIdx i q 0).val = (i 0).val := by
  unfold DotDims.lhsIdx
  rw [dif_neg (show ¬(0 : Fin S2048x1024.rank) ∈ dot_S2048x1024_S192x1024_S2048x192_1_1_0_0_n_n.lhsBatch by decide), dif_pos (show (0 : Fin S2048x1024.rank) ∈ dot_S2048x1024_S192x1024_S2048x192_1_1_0_0_n_n.lhsNonContracting by decide)]
  rfl
/-- At output index `i` and contraction index `q` the product reads the left operand at feature `q`. -/
theorem mm_lhs_1 (i : S2048x192.Idx) (q : dot_S2048x1024_S192x1024_S2048x192_1_1_0_0_n_n.contr.Idx) :
    (dot_S2048x1024_S192x1024_S2048x192_1_1_0_0_n_n.lhsIdx i q 1).val = (q ⟨0, by decide⟩).val :=
  dot_S2048x1024_S192x1024_S2048x192_1_1_0_0_n_n.lhsIdx_val_of_single rfl i q
/-- At output index `i` and contraction index `q` the product reads the right operand at row `i 1`. -/
theorem mm_rhs_0 (i : S2048x192.Idx) (q : dot_S2048x1024_S192x1024_S2048x192_1_1_0_0_n_n.contr.Idx) :
    (dot_S2048x1024_S192x1024_S2048x192_1_1_0_0_n_n.rhsIdx i q 0).val = (i 1).val := by
  unfold DotDims.rhsIdx
  rw [dif_neg (show ¬(0 : Fin S192x1024.rank) ∈ dot_S2048x1024_S192x1024_S2048x192_1_1_0_0_n_n.rhsBatch by decide), dif_pos (show (0 : Fin S192x1024.rank) ∈ dot_S2048x1024_S192x1024_S2048x192_1_1_0_0_n_n.rhsNonContracting by decide)]
  rfl
/-- At output index `i` and contraction index `q` the product reads the right operand at feature `q`. -/
theorem mm_rhs_1 (i : S2048x192.Idx) (q : dot_S2048x1024_S192x1024_S2048x192_1_1_0_0_n_n.contr.Idx) :
    (dot_S2048x1024_S192x1024_S2048x192_1_1_0_0_n_n.rhsIdx i q 1).val = (q ⟨0, by decide⟩).val :=
  dot_S2048x1024_S192x1024_S2048x192_1_1_0_0_n_n.rhsIdx_val_of_single rfl i q

/-- The slab-by-weight product at row `r`, column `j`: the sum over the 1024 features. -/
theorem pay1_at (x0 : Vec Ideal S1x2048x1024 .f32) (w0 : Vec Ideal S192x1024 .f32) (r : Fin 2048) (j : Fin 192) :
    k0_pay1 (F := Ideal) x0 w0 (ix2 r j) = ∑ k : Fin 1024, x0 (ix3 (0 : Fin 1) r k) * w0 (ix2 j k) := by
  unfold k0_pay1
  simp only [matmul]
  rw [Ideal.matmul_constant_zero_apply, ← Equiv.sum_comp (ValueIdx.contrEquiv1 dot_S2048x1024_S192x1024_S2048x192_1_1_0_0_n_n 1024 rfl rfl).symm]
  refine Finset.sum_congr rfl fun k _ => ?_
  have hk := ValueIdx.contrEquiv1_symm_val dot_S2048x1024_S192x1024_S2048x192_1_1_0_0_n_n 1024 rfl rfl k
  have el : dot_S2048x1024_S192x1024_S2048x192_1_1_0_0_n_n.lhsIdx (ix2 r j) ((ValueIdx.contrEquiv1 dot_S2048x1024_S192x1024_S2048x192_1_1_0_0_n_n 1024 rfl rfl).symm k) = ix2 r k := funext fun a => Fin.ext (by
    match a with
    | ⟨0, _⟩ => exact mm_lhs_0 _ _
    | ⟨1, _⟩ => exact (mm_lhs_1 _ _).trans hk)
  have er : dot_S2048x1024_S192x1024_S2048x192_1_1_0_0_n_n.rhsIdx (ix2 r j) ((ValueIdx.contrEquiv1 dot_S2048x1024_S192x1024_S2048x192_1_1_0_0_n_n 1024 rfl rfl).symm k) = ix2 j k := funext fun a => Fin.ext (by
    match a with
    | ⟨0, _⟩ => exact mm_rhs_0 _ _
    | ⟨1, _⟩ => exact (mm_rhs_1 _ _).trans hk)
  rw [el, er, truncf_apply, truncf_apply]
  have e0 : shapeCast S2048x1024 x0 shapeCasts_S1x2048x1024_S2048x1024 (ix2 r k) = x0 (ix3 (0 : Fin 1) r k) :=
    shapeCast_apply x0 shapeCasts_S1x2048x1024_S2048x1024 (ix2 r k) (ix3 (0 : Fin 1) r k) (by
      rw [Shape.rowMajor_val_three, Shape.rowMajor_val_two]
      show ((0 : Nat) * 2048 + r.val) * 1024 + k.val = r.val * 1024 + k.val
      omega)
  have e1 : shapeCast S192x1024 w0 shapeCasts_S192x1024_S192x1024 (ix2 j k) = w0 (ix2 j k) :=
    shapeCast_apply w0 shapeCasts_S192x1024_S192x1024 (ix2 j k) (ix2 j k) rfl
  rw [e0, e1]

/-! ## The three bands at an index -/

/-- The key band: columns 0 … 63 of the product. -/
theorem pay2_at (x0 : Vec Ideal S1x2048x1024 .f32) (w0 : Vec Ideal S192x1024 .f32) (r : Fin 2048) (e : Fin 64) :
    k0_pay2 (F := Ideal) x0 w0 (ix3 (0 : Fin 1) r e)
      = ∑ k : Fin 1024, x0 (ix3 (0 : Fin 1) r k) * w0 (ix2 (⟨0 + e.val, by omega⟩ : Fin 192) k) := by
  unfold k0_pay2
  refine (shapeCast_apply _ shapeCasts_S2048x64_S1x2048x64 (ix3 (0 : Fin 1) r e) (ix2 r e) (by
      rw [Shape.rowMajor_val_three, Shape.rowMajor_val_two]
      show r.val * 64 + e.val = ((0 : Nat) * 2048 + r.val) * 64 + e.val
      omega)).trans ?_
  refine (truncf_apply _ bitsLt_bf16_f32 (ix2 r e)).trans ?_
  refine (extractStridedSlice_apply _ _ slices_S2048x192_o0_0_S2048x64 (ix2 r e) (ix2 r (⟨0 + e.val, by omega⟩ : Fin 192)) (fun a => match a with
      | ⟨0, _⟩ => by show r.val = 0 + r.val; omega
      | ⟨1, _⟩ => by show 0 + e.val = 0 + e.val; rfl)).trans ?_
  exact pay1_at x0 w0 r _

/-- The bit pattern 0x3E000000 denotes one eighth. -/
theorem ofBits_eighth : Ideal.ofBits .f32 0x3E000000#32 = ((1 / 8 : ℝ) : EReal) := by
  simp [Ideal.ofBits, Ideal.ieee, -EReal.coe_mul]; norm_num

/-- The query band: columns 64 … 127 of the product, times one eighth. -/
theorem pay3_at (x0 : Vec Ideal S1x2048x1024 .f32) (w0 : Vec Ideal S192x1024 .f32) (r : Fin 2048) (e : Fin 64) :
    k0_pay3 (F := Ideal) x0 w0 (ix3 (0 : Fin 1) r e)
      = (∑ k : Fin 1024, x0 (ix3 (0 : Fin 1) r k) * w0 (ix2 (⟨64 + e.val, by omega⟩ : Fin 192) k)) * ((1 / 8 : ℝ) : EReal) := by
  unfold k0_pay3
  refine (shapeCast_apply _ shapeCasts_S2048x64_S1x2048x64 (ix3 (0 : Fin 1) r e) (ix2 r e) (by
      rw [Shape.rowMajor_val_three, Shape.rowMajor_val_two]
      show r.val * 64 + e.val = ((0 : Nat) * 2048 + r.val) * 64 + e.val
      omega)).trans ?_
  refine (truncf_apply _ bitsLt_bf16_f32 (ix2 r e)).trans ?_
  refine (mulf_apply _ _ (ix2 r e)).trans ?_
  refine congrArg₂ (· * ·) ?_ ?_
  · refine (extractStridedSlice_apply _ _ slices_S2048x192_o0_64_S2048x64 (ix2 r e) (ix2 r (⟨64 + e.val, by omega⟩ : Fin 192)) (fun a => match a with
        | ⟨0, _⟩ => by show r.val = 0 + r.val; omega
        | ⟨1, _⟩ => by show 64 + e.val = 64 + e.val; rfl)).trans ?_
    exact pay1_at x0 w0 r _
  · exact ofBits_eighth

/-- The value band: columns 128 … 191 of the product. -/
theorem pay4_at (x0 : Vec Ideal S1x2048x1024 .f32) (w0 : Vec Ideal S192x1024 .f32) (r : Fin 2048) (e : Fin 64) :
    k0_pay4 (F := Ideal) x0 w0 (ix3 (0 : Fin 1) r e)
      = ∑ k : Fin 1024, x0 (ix3 (0 : Fin 1) r k) * w0 (ix2 (⟨128 + e.val, by omega⟩ : Fin 192) k) := by
  unfold k0_pay4
  refine (shapeCast_apply _ shapeCasts_S2048x64_S1x2048x64 (ix3 (0 : Fin 1) r e) (ix2 r e) (by
      rw [Shape.rowMajor_val_three, Shape.rowMajor_val_two]
      show r.val * 64 + e.val = ((0 : Nat) * 2048 + r.val) * 64 + e.val
      omega)).trans ?_
  refine (truncf_apply _ bitsLt_bf16_f32 (ix2 r e)).trans ?_
  refine (extractStridedSlice_apply _ _ slices_S2048x192_o0_128_S2048x64 (ix2 r e) (ix2 r (⟨128 + e.val, by omega⟩ : Fin 192)) (fun a => match a with
      | ⟨0, _⟩ => by show r.val = 0 + r.val; omega
      | ⟨1, _⟩ => by show 128 + e.val = 128 + e.val; rfl)).trans ?_
  exact pay1_at x0 w0 r _

/-! ## The stacked weight at a row -/

/-- The three weights as the pieces of a concatenation. -/
abbrev pieces : List ((s : Shape) × (s.Idx → EReal)) :=
  [⟨S64x1024, fun i => ((wk i : ℝ) : EReal)⟩, ⟨S64x1024, fun i => ((wq i : ℝ) : EReal)⟩, ⟨S64x1024, fun i => ((wv i : ℝ) : EReal)⟩]

/-- The key weight, the query weight and the value weight one above the other. -/
abbrev stacked : S192x1024.Idx → EReal :=
  concatenate S192x1024 0 (pieces wk wq wv) concatenates_S64x1024_S64x1024_S64x1024_S192x1024_d0

/-- Rows 0 … 63 of the stacked weight are the key weight. -/
theorem stacked_key (e : Fin 64) (k : Fin 1024) :
    stacked wk wq wv (ix2 (⟨0 + e.val, by omega⟩ : Fin 192) k) = ((wk (ix2 e k) : ℝ) : EReal) := by
  refine concatenate_apply_piece (t := S192x1024) 0 (pieces wk wq wv) concatenates_S64x1024_S64x1024_S64x1024_S192x1024_d0
    (ix2 (⟨0 + e.val, by omega⟩ : Fin 192) k) 0 (by show (0 : Nat) < 3; omega) S64x1024 (fun i => ((wk i : ℝ) : EReal)) rfl rfl 0 rfl (ix2 e k)
    (fun b hb => match b with
      | ⟨0, _⟩ => absurd rfl hb
      | ⟨1, _⟩ => rfl) ?_
  show 0 + e.val = 0 + e.val
  rfl

/-- Rows 64 … 127 are the query weight. -/
theorem stacked_query (e : Fin 64) (k : Fin 1024) :
    stacked wk wq wv (ix2 (⟨64 + e.val, by omega⟩ : Fin 192) k) = ((wq (ix2 e k) : ℝ) : EReal) := by
  refine concatenate_apply_piece (t := S192x1024) 0 (pieces wk wq wv) concatenates_S64x1024_S64x1024_S64x1024_S192x1024_d0
    (ix2 (⟨64 + e.val, by omega⟩ : Fin 192) k) 1 (by show (1 : Nat) < 3; omega) S64x1024 (fun i => ((wq i : ℝ) : EReal)) rfl rfl 64 rfl (ix2 e k)
    (fun b hb => match b with
      | ⟨0, _⟩ => absurd rfl hb
      | ⟨1, _⟩ => rfl) ?_
  show 64 + e.val = 64 + e.val
  rfl

/-- Rows 128 … 191 are the value weight. -/
theorem stacked_value (e : Fin 64) (k : Fin 1024) :
    stacked wk wq wv (ix2 (⟨128 + e.val, by omega⟩ : Fin 192) k) = ((wv (ix2 e k) : ℝ) : EReal) := by
  refine concatenate_apply_piece (t := S192x1024) 0 (pieces wk wq wv) concatenates_S64x1024_S64x1024_S64x1024_S192x1024_d0
    (ix2 (⟨128 + e.val, by omega⟩ : Fin 192) k) 2 (by show (2 : Nat) < 3; omega) S64x1024 (fun i => ((wv i : ℝ) : EReal)) rfl rfl 128 rfl (ix2 e k)
    (fun b hb => match b with
      | ⟨0, _⟩ => absurd rfl hb
      | ⟨1, _⟩ => rfl) ?_
  show 128 + e.val = 128 + e.val
  rfl

/-! ## The grid's index maps, decided once -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` of the 8 × 2 grid is batch `t / 2`, half `t % 2`: the input slab and the three output blocks sit at
    block index (t / 2, t % 2, 0), the stacked weight at (0, 0). -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 2) = 0 ∧ win0_1.index t (1 : Fin 2) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = t.val % 2 ∧ win0_3.index t (2 : Fin 3) = 0
    ∧ win0_4.index t (0 : Fin 3) = t.val / 2 ∧ win0_4.index t (1 : Fin 3) = t.val % 2 ∧ win0_4.index t (2 : Fin 3) = 0 :=
  (by decide +kernel : ∀ t : Fin grid0.N, _)

/-- The input array and the stacked weight as the region finds them, at their literal types. -/
abbrev xarr : S8x4096x1024.Idx → EReal := V c main_arg0
abbrev warr : S192x1024.Idx → EReal := V c main_v0
/-- The two input blocks at point `t`, at their literal types. -/
abbrev xblk (t : Fin cfg0.N) : Vec Ideal S1x2048x1024 .f32 := pblk V c 0 t
abbrev wblk (t : Fin cfg0.N) : Vec Ideal S192x1024 .f32 := pblk V c 1 t

/-- The slab at point `t` is rows 2048 (t % 2) … of batch t / 2 of the input. -/
theorem xblk_apply (t : Fin cfg0.N) (r : Fin 2048) (k : Fin 1024) (i : S8x4096x1024.Idx)
    (h0 : (i 0).val = t.val / 2) (h1 : (i 1).val = 2048 * (t.val % 2) + r.val) (h2 : (i 2).val = k.val) :
    xblk V c t (ix3 (0 : Fin 1) r k) = xarr V c i := by
  obtain ⟨e0, e1, e2, -⟩ := idx_facts t
  show pblk V c 0 t (ix3 (0 : Fin 1) r k) = _
  unfold pblk
  rw [View.read_apply]
  show V c main_arg0 _ = V c main_arg0 _
  congr 1
  funext a
  apply Fin.ext
  match a with
  | ⟨0, _⟩ => show win0_0.index t (0 : Fin 3) * 1 + 1 * 0 = (i 0).val; rw [e0, h0]; omega
  | ⟨1, _⟩ => show win0_0.index t (1 : Fin 3) * 2048 + 1 * r.val = (i 1).val; rw [e1, h1]; omega
  | ⟨2, _⟩ => show win0_0.index t (2 : Fin 3) * 1024 + 1 * k.val = (i 2).val; rw [e2, h2]; omega

/-- The weight block at every point is the whole stacked weight. -/
theorem wblk_apply (t : Fin cfg0.N) (j : Fin 192) (k : Fin 1024) :
    wblk V c t (ix2 j k) = warr V c (ix2 j k) := by
  obtain ⟨-, -, -, e0, e1, -⟩ := idx_facts t
  show pblk V c 1 t (ix2 j k) = _
  unfold pblk
  rw [View.read_apply]
  show V c main_v0 _ = V c main_v0 _
  congr 1
  funext a
  apply Fin.ext
  match a with
  | ⟨0, _⟩ => show win0_1.index t (0 : Fin 2) * 192 + 1 * j.val = j.val; rw [e0]; omega
  | ⟨1, _⟩ => show win0_1.index t (1 : Fin 2) * 1024 + 1 * k.val = k.val; rw [e1]; omega

/-! ## One band of the product as a function of the whole arrays -/

/-- Entry (b, t, e) of the band at column offset `o`, scaled by `s`: the sum over the features of input row (b, t)
    times weight row `o + e`, times `s`. -/
abbrev bandG (X : S8x4096x1024.Idx → EReal) (W : S192x1024.Idx → EReal) (o : Nat) (ho : o + 64 ≤ 192) (s : EReal) :
    S8x4096x64.Idx → EReal :=
  fun i => (∑ k : Fin 1024, X (ix3 (i 0) (i 1) k) * W (ix2 (⟨o + (i 2).val, by have h2 : (i 2).val < 64 := (i 2).isLt; omega⟩ : Fin 192) k)) * s

/-- A block payload that is the band at offset `o` of the product of its two input blocks, scaled by `s`, is — when
    the slab is rows 2048 h … of batch `b` of `X` and the weight block is `W` — the band of `X` and `W` at the array
    index under the block index. -/
theorem band_block (P : Vec Ideal S1x2048x1024 .f32 → Vec Ideal S192x1024 .f32 → FVec Ideal S1x2048x64 .bf16)
    (o : Nat) (ho : o + 64 ≤ 192) (s : EReal)
    (hP : ∀ x0 w0 (r : Fin 2048) (e : Fin 64), P x0 w0 (ix3 (0 : Fin 1) r e)
      = (∑ k : Fin 1024, x0 (ix3 (0 : Fin 1) r k) * w0 (ix2 (⟨o + e.val, by omega⟩ : Fin 192) k)) * s)
    (X : S8x4096x1024.Idx → EReal) (W : S192x1024.Idx → EReal)
    (x0 : Vec Ideal S1x2048x1024 .f32) (w0 : Vec Ideal S192x1024 .f32) (p : Nat)
    (hx0 : ∀ (r : Fin 2048) (k : Fin 1024) (i : S8x4096x1024.Idx), (i 0).val = p / 2 → (i 1).val = 2048 * (p % 2) + r.val →
      (i 2).val = k.val → x0 (ix3 (0 : Fin 1) r k) = X i)
    (hw0 : ∀ (j : Fin 192) (k : Fin 1024), w0 (ix2 j k) = W (ix2 j k))
    (y : S1x2048x64.Idx) (i : S8x4096x64.Idx)
    (hi0 : (i 0).val = p / 2) (hi1 : (i 1).val = 2048 * (p % 2) + (y 1).val) (hi2 : (i 2).val = (y 2).val) :
    P x0 w0 y = bandG X W o ho s i := by
  have hy0 : (y 0).val < 1 := (y 0).isLt
  obtain ⟨r, e, rfl⟩ : ∃ (r : Fin 2048) (e : Fin 64), y = ix3 (0 : Fin 1) r e :=
    ⟨y 1, y 2, (eq_ix3 y).trans (congrArg (fun z => ix3 z (y 1) (y 2)) (Fin.ext (by show (y 0).val = 0; omega)))⟩
  rw [hP]
  show _ * s = _ * s
  refine congrArg (· * s) (Finset.sum_congr rfl fun k _ => ?_)
  rw [hx0 r k (ix3 (i 0) (i 1) k) hi0 hi1 rfl, hw0]
  refine congrArg (fun z => X (ix3 (i 0) (i 1) k) * W z) (funext fun a => Fin.ext ?_)
  match a with
  | ⟨0, _⟩ => show o + e.val = o + (i 2).val; rw [hi2]
  | ⟨1, _⟩ => rfl

/-! ## The key array -/

/-- The key block's payload in the common form of a band: offset, then scale. -/
theorem key_payload (x0 : Vec Ideal S1x2048x1024 .f32) (w0 : Vec Ideal S192x1024 .f32) (r : Fin 2048) (e : Fin 64) :
    k0_pay2 (F := Ideal) x0 w0 (ix3 (0 : Fin 1) r e)
      = (∑ k : Fin 1024, x0 (ix3 (0 : Fin 1) r k) * w0 (ix2 (⟨0 + e.val, by omega⟩ : Fin 192) k)) * 1 :=
  (pay2_at x0 w0 r e).trans (mul_one _).symm

/-- Point `t` writes back, into the key array, its block of the band at offset 0. -/
theorem flushed_key (t : Fin cfg0.N) :
    (pdat (F := Ideal) V c).flushed 2 t
      = ((cfg0.win 2).blk t).view.read (Elt Ideal) (bandG (xarr V c) (warr V c) 0 (by omega) 1) := by
  show (cfg0.win 2).cut (grid0.coords t) ((pdat (F := Ideal) V c).after 2 t) = _
  rw [pafter_2]
  unfold keyBlk
  rw [View.canon_unit_zero hz3]
  simp only [View.ld_unit_zero (S := S1x2048x1024) hz3, View.ld_unit_zero (S := S192x1024) hz2]
  obtain ⟨-, -, -, -, -, e0, e1, e2, -⟩ := idx_facts t
  funext y
  show k0_pay2 (F := Ideal) (xblk V c t) (wblk V c t) y
    = bandG (xarr V c) (warr V c) 0 (by omega) 1 (((cfg0.win 2).blk t).view.emb y)
  refine band_block (fun a b => k0_pay2 (F := Ideal) a b) 0 (by omega) 1 key_payload (xarr V c) (warr V c)
    (xblk V c t) (wblk V c t) t.val (fun r k i h0 h1 h2 => xblk_apply V c t r k i h0 h1 h2) (wblk_apply V c t) y _ ?_ ?_ ?_
  · show win0_2.index t (0 : Fin 3) * 1 + 1 * (y 0).val = t.val / 2
    have hy0 : (y 0).val < 1 := (y 0).isLt
    omega
  · show win0_2.index t (1 : Fin 3) * 2048 + 1 * (y 1).val = 2048 * (t.val % 2) + (y 1).val
    omega
  · show win0_2.index t (2 : Fin 3) * 64 + 1 * (y 2).val = (y 2).val
    omega

/-- An index of the key array is in point `t`'s block iff each coordinate is in the block's range on its axis. -/
theorem mem_key (t : Fin cfg0.N) (i : S8x4096x64.Idx) :
    i ∈ ((cfg0.win 2).blk t).view.set ↔ ∀ a : Fin 3, win0_2.index t a * S1x2048x64.size a ≤ (i a).val
      ∧ (i a).val < win0_2.index t a * S1x2048x64.size a + S1x2048x64.size a := by
  show i ∈ ((View.whole main_v1_0).slice (win0_2.rect t)).set ↔ _
  rw [View.set_slice_whole, Rect.mem_set_unit]
  exact Iff.rfl

/-- Row `t` of batch `b` of the key array is in the block of point 2 b + t / 2048. -/
theorem cover_key (i : S8x4096x64.Idx) :
    ∃ t : Fin cfg0.N, (cfg0.win 2).flush t = true ∧ i ∈ ((cfg0.win 2).blk t).view.set := by
  have hN : grid0.N = 16 := Gen.N_0
  have h0 : (i 0).val < 8 := (i 0).isLt
  have h1 : (i 1).val < 4096 := (i 1).isLt
  have h2 : (i 2).val < 64 := (i 2).isLt
  obtain ⟨t, ht⟩ : ∃ t : Fin cfg0.N, t.val = 2 * (i 0).val + (i 1).val / 2048 :=
    ⟨⟨2 * (i 0).val + (i 1).val / 2048, by show _ < grid0.N; omega⟩, rfl⟩
  obtain ⟨-, -, -, -, -, e0, e1, e2, -⟩ := idx_facts t
  refine ⟨t, flush0_2 t, ?_⟩
  rw [mem_key]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 64 ≤ (i 2).val ∧ (i 2).val < win0_2.index t (2 : Fin 3) * 64 + 64
    omega

/-- The key array after the region is the band at offset 0 of the input times the stacked weight. -/
theorem final_key : (pdat (F := Ideal) V c).arrAt 2 cfg0.N = bandG (xarr V c) (warr V c) 0 (by omega) 1 :=
  (pdat (F := Ideal) V c).arrAt_eq_of_cover 2 (bandG (xarr V c) (warr V c) 0 (by omega) 1)
    (fun t _ => flushed_key V c t) cover_key

/-! ## The query array -/

/-- The query block's payload in the common form of a band: offset, then scale. -/
theorem query_payload (x0 : Vec Ideal S1x2048x1024 .f32) (w0 : Vec Ideal S192x1024 .f32) (r : Fin 2048) (e : Fin 64) :
    k0_pay3 (F := Ideal) x0 w0 (ix3 (0 : Fin 1) r e)
      = (∑ k : Fin 1024, x0 (ix3 (0 : Fin 1) r k) * w0 (ix2 (⟨64 + e.val, by omega⟩ : Fin 192) k)) * ((1 / 8 : ℝ) : EReal) :=
  pay3_at x0 w0 r e

/-- Point `t` writes back, into the query array, its block of the band at offset 64, times one eighth. -/
theorem flushed_query (t : Fin cfg0.N) :
    (pdat (F := Ideal) V c).flushed 3 t
      = ((cfg0.win 3).blk t).view.read (Elt Ideal) (bandG (xarr V c) (warr V c) 64 (by omega) ((1 / 8 : ℝ) : EReal)) := by
  show (cfg0.win 3).cut (grid0.coords t) ((pdat (F := Ideal) V c).after 3 t) = _
  rw [pafter_3]
  unfold qryBlk
  rw [View.canon_unit_zero hz3]
  simp only [View.ld_unit_zero (S := S1x2048x1024) hz3, View.ld_unit_zero (S := S192x1024) hz2]
  obtain ⟨-, -, -, -, -, -, -, -, e0, e1, e2, -⟩ := idx_facts t
  funext y
  show k0_pay3 (F := Ideal) (xblk V c t) (wblk V c t) y
    = bandG (xarr V c) (warr V c) 64 (by omega) ((1 / 8 : ℝ) : EReal) (((cfg0.win 3).blk t).view.emb y)
  refine band_block (fun a b => k0_pay3 (F := Ideal) a b) 64 (by omega) ((1 / 8 : ℝ) : EReal) query_payload (xarr V c) (warr V c)
    (xblk V c t) (wblk V c t) t.val (fun r k i h0 h1 h2 => xblk_apply V c t r k i h0 h1 h2) (wblk_apply V c t) y _ ?_ ?_ ?_
  · show win0_3.index t (0 : Fin 3) * 1 + 1 * (y 0).val = t.val / 2
    have hy0 : (y 0).val < 1 := (y 0).isLt
    omega
  · show win0_3.index t (1 : Fin 3) * 2048 + 1 * (y 1).val = 2048 * (t.val % 2) + (y 1).val
    omega
  · show win0_3.index t (2 : Fin 3) * 64 + 1 * (y 2).val = (y 2).val
    omega

/-- An index of the query array is in point `t`'s block iff each coordinate is in the block's range on its axis. -/
theorem mem_query (t : Fin cfg0.N) (i : S8x4096x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v1_1).slice (win0_3.rect t)).set ↔ _
  rw [View.set_slice_whole, Rect.mem_set_unit]
  exact Iff.rfl

/-- Row `t` of batch `b` of the query array is in the block of point 2 b + t / 2048. -/
theorem cover_query (i : S8x4096x64.Idx) :
    ∃ t : Fin cfg0.N, (cfg0.win 3).flush t = true ∧ i ∈ ((cfg0.win 3).blk t).view.set := by
  have hN : grid0.N = 16 := Gen.N_0
  have h0 : (i 0).val < 8 := (i 0).isLt
  have h1 : (i 1).val < 4096 := (i 1).isLt
  have h2 : (i 2).val < 64 := (i 2).isLt
  obtain ⟨t, ht⟩ : ∃ t : Fin cfg0.N, t.val = 2 * (i 0).val + (i 1).val / 2048 :=
    ⟨⟨2 * (i 0).val + (i 1).val / 2048, by show _ < grid0.N; omega⟩, rfl⟩
  obtain ⟨-, -, -, -, -, -, -, -, e0, e1, e2, -⟩ := idx_facts t
  refine ⟨t, flush0_3 t, ?_⟩
  rw [mem_query]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 64 ≤ (i 2).val ∧ (i 2).val < win0_3.index t (2 : Fin 3) * 64 + 64
    omega

/-- The query array after the region is the band at offset 64 of the input times the stacked weight, times one eighth. -/
theorem final_query : (pdat (F := Ideal) V c).arrAt 3 cfg0.N = bandG (xarr V c) (warr V c) 64 (by omega) ((1 / 8 : ℝ) : EReal) :=
  (pdat (F := Ideal) V c).arrAt_eq_of_cover 3 (bandG (xarr V c) (warr V c) 64 (by omega) ((1 / 8 : ℝ) : EReal))
    (fun t _ => flushed_query V c t) cover_query

/-! ## The value array -/

/-- The value block's payload in the common form of a band: offset, then scale. -/
theorem value_payload (x0 : Vec Ideal S1x2048x1024 .f32) (w0 : Vec Ideal S192x1024 .f32) (r : Fin 2048) (e : Fin 64) :
    k0_pay4 (F := Ideal) x0 w0 (ix3 (0 : Fin 1) r e)
      = (∑ k : Fin 1024, x0 (ix3 (0 : Fin 1) r k) * w0 (ix2 (⟨128 + e.val, by omega⟩ : Fin 192) k)) * 1 :=
  (pay4_at x0 w0 r e).trans (mul_one _).symm

/-- Point `t` writes back, into the value array, its block of the band at offset 128. -/
theorem flushed_value (t : Fin cfg0.N) :
    (pdat (F := Ideal) V c).flushed 4 t
      = ((cfg0.win 4).blk t).view.read (Elt Ideal) (bandG (xarr V c) (warr V c) 128 (by omega) 1) := by
  show (cfg0.win 4).cut (grid0.coords t) ((pdat (F := Ideal) V c).after 4 t) = _
  rw [pafter_4]
  unfold valBlk
  rw [View.canon_unit_zero hz3]
  simp only [View.ld_unit_zero (S := S1x2048x1024) hz3, View.ld_unit_zero (S := S192x1024) hz2]
  obtain ⟨-, -, -, -, -, -, -, -, -, -, -, e0, e1, e2⟩ := idx_facts t
  funext y
  show k0_pay4 (F := Ideal) (xblk V c t) (wblk V c t) y
    = bandG (xarr V c) (warr V c) 128 (by omega) 1 (((cfg0.win 4).blk t).view.emb y)
  refine band_block (fun a b => k0_pay4 (F := Ideal) a b) 128 (by omega) 1 value_payload (xarr V c) (warr V c)
    (xblk V c t) (wblk V c t) t.val (fun r k i h0 h1 h2 => xblk_apply V c t r k i h0 h1 h2) (wblk_apply V c t) y _ ?_ ?_ ?_
  · show win0_4.index t (0 : Fin 3) * 1 + 1 * (y 0).val = t.val / 2
    have hy0 : (y 0).val < 1 := (y 0).isLt
    omega
  · show win0_4.index t (1 : Fin 3) * 2048 + 1 * (y 1).val = 2048 * (t.val % 2) + (y 1).val
    omega
  · show win0_4.index t (2 : Fin 3) * 64 + 1 * (y 2).val = (y 2).val
    omega

/-- An index of the value array is in point `t`'s block iff each coordinate is in the block's range on its axis. -/
theorem mem_value (t : Fin cfg0.N) (i : S8x4096x64.Idx) :
    i ∈ ((cfg0.win 4).blk t).view.set ↔ ∀ a : Fin 3, win0_4.index t a * S1x2048x64.size a ≤ (i a).val
      ∧ (i a).val < win0_4.index t a * S1x2048x64.size a + S1x2048x64.size a := by
  show i ∈ ((View.whole main_v1_2).slice (win0_4.rect t)).set ↔ _
  rw [View.set_slice_whole, Rect.mem_set_unit]
  exact Iff.rfl

/-- Row `t` of batch `b` of the value array is in the block of point 2 b + t / 2048. -/
theorem cover_value (i : S8x4096x64.Idx) :
    ∃ t : Fin cfg0.N, (cfg0.win 4).flush t = true ∧ i ∈ ((cfg0.win 4).blk t).view.set := by
  have hN : grid0.N = 16 := Gen.N_0
  have h0 : (i 0).val < 8 := (i 0).isLt
  have h1 : (i 1).val < 4096 := (i 1).isLt
  have h2 : (i 2).val < 64 := (i 2).isLt
  obtain ⟨t, ht⟩ : ∃ t : Fin cfg0.N, t.val = 2 * (i 0).val + (i 1).val / 2048 :=
    ⟨⟨2 * (i 0).val + (i 1).val / 2048, by show _ < grid0.N; omega⟩, rfl⟩
  obtain ⟨-, -, -, -, -, -, -, -, -, -, -, e0, e1, e2⟩ := idx_facts t
  refine ⟨t, flush0_4 t, ?_⟩
  rw [mem_value]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 2048 ≤ (i 1).val ∧ (i 1).val < win0_4.index t (1 : Fin 3) * 2048 + 2048
    omega
  | ⟨2, _⟩ =>
    show win0_4.index t (2 : Fin 3) * 64 ≤ (i 2).val ∧ (i 2).val < win0_4.index t (2 : Fin 3) * 64 + 64
    omega

/-- The value array after the region is the band at offset 128 of the input times the stacked weight. -/
theorem final_value : (pdat (F := Ideal) V c).arrAt 4 cfg0.N = bandG (xarr V c) (warr V c) 128 (by omega) 1 :=
  (pdat (F := Ideal) V c).arrAt_eq_of_cover 4 (bandG (xarr V c) (warr V c) 128 (by omega) 1)
    (fun t _ => flushed_value V c t) cover_value

/-! ## The three arrays at an entry -/

/-- A finite sum of reals, read in the extended reals, is the sum of the terms read there. -/
theorem ereal_coe_sum {ι : Type} (S : Finset ι) (f : ι → ℝ) :
    ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- The key array after the projection region. -/
theorem keys_at (hx : V c main_arg0 = fun i => ((x i : ℝ) : EReal))
    (hw : V c main_v0 = concatenate S192x1024 0 [⟨S64x1024, fun i => ((wk i : ℝ) : EReal)⟩, ⟨S64x1024, fun i => ((wq i : ℝ) : EReal)⟩, ⟨S64x1024, fun i => ((wv i : ℝ) : EReal)⟩] concatenates_S64x1024_S64x1024_S64x1024_S192x1024_d0)
    (b : Fin 8) (t : Fin 4096) (e : Fin 64) :
    (pdat (F := Ideal) V c).arrAt 2 cfg0.N (ix3 b t e) = ((Attn.projR x wk b t e : ℝ) : EReal) := by
  rw [final_key]
  have hx' : xarr V c = fun i => ((x i : ℝ) : EReal) := hx
  have hw' : warr V c = stacked wk wq wv := hw
  show (∑ k : Fin 1024, xarr V c (ix3 b t k) * warr V c (ix2 (⟨0 + e.val, by omega⟩ : Fin 192) k)) * 1 = _
  rw [hx', hw', mul_one]
  unfold Attn.projR
  rw [ereal_coe_sum]
  refine Finset.sum_congr rfl fun k _ => ?_
  rw [EReal.coe_mul]
  exact congrArg (fun z => ((x (ix3 b t k) : ℝ) : EReal) * z) (stacked_key wk wq wv e k)

/-- The query array after the projection region: the query projection times 1/8. -/
theorem queries_at (hx : V c main_arg0 = fun i => ((x i : ℝ) : EReal))
    (hw : V c main_v0 = concatenate S192x1024 0 [⟨S64x1024, fun i => ((wk i : ℝ) : EReal)⟩, ⟨S64x1024, fun i => ((wq i : ℝ) : EReal)⟩, ⟨S64x1024, fun i => ((wv i : ℝ) : EReal)⟩] concatenates_S64x1024_S64x1024_S64x1024_S192x1024_d0)
    (b : Fin 8) (t : Fin 4096) (e : Fin 64) :
    (pdat (F := Ideal) V c).arrAt 3 cfg0.N (ix3 b t e) = ((Attn.projR x wq b t e * (1 / 8) : ℝ) : EReal) := by
  rw [final_query]
  have hx' : xarr V c = fun i => ((x i : ℝ) : EReal) := hx
  have hw' : warr V c = stacked wk wq wv := hw
  show (∑ k : Fin 1024, xarr V c (ix3 b t k) * warr V c (ix2 (⟨64 + e.val, by omega⟩ : Fin 192) k)) * ((1 / 8 : ℝ) : EReal) = _
  rw [hx', hw', EReal.coe_mul]
  unfold Attn.projR
  rw [ereal_coe_sum]
  refine congrArg (· * ((1 / 8 : ℝ) : EReal)) (Finset.sum_congr rfl fun k _ => ?_)
  rw [EReal.coe_mul]
  exact congrArg (fun z => ((x (ix3 b t k) : ℝ) : EReal) * z) (stacked_query wk wq wv e k)

/-- The value array after the projection region. -/
theorem values_at (hx : V c main_arg0 = fun i => ((x i : ℝ) : EReal))
    (hw : V c main_v0 = concatenate S192x1024 0 [⟨S64x1024, fun i => ((wk i : ℝ) : EReal)⟩, ⟨S64x1024, fun i => ((wq i : ℝ) : EReal)⟩, ⟨S64x1024, fun i => ((wv i : ℝ) : EReal)⟩] concatenates_S64x1024_S64x1024_S64x1024_S192x1024_d0)
    (b : Fin 8) (t : Fin 4096) (e : Fin 64) :
    (pdat (F := Ideal) V c).arrAt 4 cfg0.N (ix3 b t e) = ((Attn.projR x wv b t e : ℝ) : EReal) := by
  rw [final_value]
  have hx' : xarr V c = fun i => ((x i : ℝ) : EReal) := hx
  have hw' : warr V c = stacked wk wq wv := hw
  show (∑ k : Fin 1024, xarr V c (ix3 b t k) * warr V c (ix2 (⟨128 + e.val, by omega⟩ : Fin 192) k)) * 1 = _
  rw [hx', hw', mul_one]
  unfold Attn.projR
  rw [ereal_coe_sum]
  refine Finset.sum_congr rfl fun k _ => ?_
  rw [EReal.coe_mul]
  exact congrArg (fun z => ((x (ix3 b t k) : ℝ) : EReal) * z) (stacked_value wk wq wv e k)

end Cert.KernelIdeal.Val

end
-- ==== Proof.ValStep.lean ====
/-
  One chunk of the attention body's running softmax, as functions of the chunk's column offset, and what they are
  at one row.

  The body folds key/value chunk k into three running quantities held per query row: the maximum `m`, the
  denominator `l` and, per output column, the numerator `acc`. With `q` the 512 × 64 query block, `kc`, `vc` the
  chunk's 512 keys and values, `qv` the query-block coordinate and `off = 512 k` the chunk's first key position:

    s[r, c]   = q[r, ·] · kc[c, ·]   if  off + c ≤ 512 qv + r,   else the masked value (⊥ at the ideal values)
    m'[r]     = max m[r] (max over c of s[r, c])
    a[r]      = exp (m[r] − m'[r])
    p[r, c]   = exp (s[r, c] − m'[r])
    l'[r]     = a[r] · l[r] + Σ_c p[r, c]
    acc'[r,d] = a[r] · acc[r, d] + Σ_c p[r, c] · vc[c, d]

  The eight chunks' printed payloads differ only in `off`: `sMask` … `accNew` below are those payloads with `off` a
  parameter, and the table after them says which printed payload is which instance. Read at row `r` (and column `d`)
  at the ideal values, the three new quantities are exactly `Attn.step` (Softmax.lean) of the row's masked scores,
  the chunk's value column, and the three old quantities.
-/
import proofs.«425320_j549755813913_3_alg».proof.Proof.Gen.KernelIdeal.Skeleton
import proofs.«425320_j549755813913_3_alg».proof.Proof.Softmax
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.KernelIdeal.Val

open Cert.KernelIdeal Cert.KernelIdeal.Gen Cert.Proof
open Idealize.ShloMosaic Idealize.ShloMosaic.ValueIdx Idealize.SL.Sem

section Generic

variable {F : FTy → Type} [FloatOps F] [Named F]

/-- The masked scores of one chunk. -/
def sMask (off : BitVec 32) (arg1 : BitVec 32) (v13 : FVec F S512x64 .bf16) (v45 : Vec F S1x512x64 .bf16) : FVec F S512x512 .f32 :=
  have v46 : FVec F S512x64 .bf16 := shapeCast S512x64 v45 shapeCasts_S1x512x64_S512x64
  have cst_31 : FVec F S512x512 .f32 := constant S512x512 .f32 0x00000000#32
  have v49 : FVec F S512x512 .f32 := matmul dot_S512x64_S512x64_S512x512_1_1_0_0_n_n none v13 v46 cst_31
  let v50 : BitVec 32 := Scalar.muli arg1 512#32
  have v51 : IVec S512x512 32 := iota .tc S512x512 32 [0] iota_S512x512_d0_w32
  have v52 : IVec S512x512 32 := broadcast S512x512 v50
  have v53 : IVec S512x512 32 := addi v52 v51
  have v54 : IVec S512x512 32 := iota .tc S512x512 32 [1] iota_S512x512_d1_w32
  have v55 : IVec S512x512 32 := broadcast S512x512 off
  have v56 : IVec S512x512 32 := addi v55 v54
  have v57 : IVec S512x512 1 := cmpi .sle v56 v53
  have cst_33 : F .f32 := Named.named κ "neg_big" 0xF149F2CA#32
  have v58 : FVec F S512x512 .f32 := broadcast S512x512 cst_33
  have v59 : FVec F S512x512 .f32 := select v57 v49 v58
  v59

/-- The new running maximum. -/
def mNew (off arg1 : BitVec 32) (v13 : FVec F S512x64 .bf16) (v45 : Vec F S1x512x64 .bf16) (v60 : Vec F S512x1 .f32) : FVec F S512x1 .f32 :=
  have v61 : FVec F S512 .f32 := multiReduction .maximumf [1] S512 (sMask off arg1 v13 v45) 0xFF800000#32 reduces_S512x512_S512 (.inl rfl) rfl
  have v62 : FVec F S512x1 .f32 := shapeCast S512x1 v61 shapeCasts_S512_S512x1
  have v63 : FVec F S512x1 .f32 := maximumf v60 v62
  v63

/-- The factor that rescales the old denominator and numerator. -/
def rescale (off arg1 : BitVec 32) (v13 : FVec F S512x64 .bf16) (v45 : Vec F S1x512x64 .bf16) (v60 : Vec F S512x1 .f32) : FVec F S512x1 .f32 :=
  have v64 : FVec F S512x1 .f32 := subf v60 (mNew off arg1 v13 v45 v60)
  have v65 : FVec F S512x1 .f32 := exp v64
  v65

/-- The chunk's unnormalised weights. -/
def pMat (off arg1 : BitVec 32) (v13 : FVec F S512x64 .bf16) (v45 : Vec F S1x512x64 .bf16) (v60 : Vec F S512x1 .f32) : FVec F S512x512 .f32 :=
  have v66 : FVec F S512x512 .f32 := broadcastTo S512x512 (mNew off arg1 v13 v45 v60) broadcasts_S512x1_S512x512
  have v67 : FVec F S512x512 .f32 := subf (sMask off arg1 v13 v45) v66
  have v68 : FVec F S512x512 .f32 := exp v67
  v68

/-- The new running denominator. -/
def lNew (off arg1 : BitVec 32) (v13 : FVec F S512x64 .bf16) (v45 : Vec F S1x512x64 .bf16) (v60 : Vec F S512x1 .f32) (v69 : Vec F S512x1 .f32) : FVec F S512x1 .f32 :=
  have v70 : FVec F S512x1 .f32 := mulf (rescale off arg1 v13 v45 v60) v69
  have v71 : FVec F S512 .f32 := multiReduction .add [1] S512 (pMat off arg1 v13 v45 v60) 0x00000000#32 reduces_S512x512_S512 (.inl rfl) rfl
  have v72 : FVec F S512x1 .f32 := shapeCast S512x1 v71 shapeCasts_S512_S512x1
  have v73 : FVec F S512x1 .f32 := addf v70 v72
  have v76 : FVec F S512x1 .f32 := shapeCast S512x1 v73 shapeCasts_S512x1_S512x1
  v76

/-- The new running numerator. -/
def accNew (off arg1 : BitVec 32) (v13 : FVec F S512x64 .bf16) (v45 : Vec F S1x512x64 .bf16) (v47 : Vec F S1x512x64 .bf16) (v60 : Vec F S512x1 .f32) (v77 : Vec F S512x64 .f32) : FVec F S512x64 .f32 :=
  have v48 : FVec F S512x64 .bf16 := shapeCast S512x64 v47 shapeCasts_S1x512x64_S512x64
  have v78 : FVec F S512x64 .f32 := broadcastTo S512x64 (rescale off arg1 v13 v45 v60) broadcasts_S512x1_S512x64
  have v79 : FVec F S512x64 .f32 := mulf v78 v77
  have v80 : FVec F S512x512 .bf16 := truncf .bf16 (pMat off arg1 v13 v45 v60) bitsLt_bf16_f32
  have cst_44 : FVec F S512x64 .f32 := constant S512x64 .f32 0x00000000#32
  have v81 : FVec F S512x64 .f32 := matmul dot_S512x512_S512x64_S512x64_1_0_0_1_n_n none v80 v48 cst_44
  have v82 : FVec F S512x64 .f32 := addf v79 v81
  v82

/-! ## Which printed payload is which instance -/

theorem pay10_eq : k1_pay10 (F := F) = sMask 0#32 := rfl
theorem pay11_eq : k1_pay11 (F := F) = mNew 0#32 := rfl
theorem pay12_eq : k1_pay12 (F := F) = rescale 0#32 := rfl
theorem pay13_eq : k1_pay13 (F := F) = pMat 0#32 := rfl
theorem pay14_eq : k1_pay14 (F := F) = lNew 0#32 := rfl
theorem pay15_eq : k1_pay15 (F := F) = accNew 0#32 := rfl
theorem pay16_eq : k1_pay16 (F := F) = sMask 512#32 := rfl
theorem pay17_eq : k1_pay17 (F := F) = mNew 512#32 := rfl
theorem pay18_eq : k1_pay18 (F := F) = rescale 512#32 := rfl
theorem pay19_eq : k1_pay19 (F := F) = pMat 512#32 := rfl
theorem pay20_eq : k1_pay20 (F := F) = lNew 512#32 := rfl
theorem pay21_eq : k1_pay21 (F := F) = accNew 512#32 := rfl
theorem pay22_eq : k1_pay22 (F := F) = sMask 1024#32 := rfl
theorem pay23_eq : k1_pay23 (F := F) = mNew 1024#32 := rfl
theorem pay24_eq : k1_pay24 (F := F) = rescale 1024#32 := rfl
theorem pay25_eq : k1_pay25 (F := F) = pMat 1024#32 := rfl
theorem pay26_eq : k1_pay26 (F := F) = lNew 1024#32 := rfl
theorem pay27_eq : k1_pay27 (F := F) = accNew 1024#32 := rfl
theorem pay28_eq : k1_pay28 (F := F) = sMask 1536#32 := rfl
theorem pay29_eq : k1_pay29 (F := F) = mNew 1536#32 := rfl
theorem pay30_eq : k1_pay30 (F := F) = rescale 1536#32 := rfl
theorem pay31_eq : k1_pay31 (F := F) = pMat 1536#32 := rfl
theorem pay32_eq : k1_pay32 (F := F) = lNew 1536#32 := rfl
theorem pay33_eq : k1_pay33 (F := F) = accNew 1536#32 := rfl
theorem pay34_eq : k1_pay34 (F := F) = sMask 2048#32 := rfl
theorem pay35_eq : k1_pay35 (F := F) = mNew 2048#32 := rfl
theorem pay36_eq : k1_pay36 (F := F) = rescale 2048#32 := rfl
theorem pay37_eq : k1_pay37 (F := F) = pMat 2048#32 := rfl
theorem pay38_eq : k1_pay38 (F := F) = lNew 2048#32 := rfl
theorem pay39_eq : k1_pay39 (F := F) = accNew 2048#32 := rfl
theorem pay40_eq : k1_pay40 (F := F) = sMask 2560#32 := rfl
theorem pay41_eq : k1_pay41 (F := F) = mNew 2560#32 := rfl
theorem pay42_eq : k1_pay42 (F := F) = rescale 2560#32 := rfl
theorem pay43_eq : k1_pay43 (F := F) = pMat 2560#32 := rfl
theorem pay44_eq : k1_pay44 (F := F) = lNew 2560#32 := rfl
theorem pay45_eq : k1_pay45 (F := F) = accNew 2560#32 := rfl
theorem pay46_eq : k1_pay46 (F := F) = sMask 3072#32 := rfl
theorem pay47_eq : k1_pay47 (F := F) = mNew 3072#32 := rfl
theorem pay48_eq : k1_pay48 (F := F) = rescale 3072#32 := rfl
theorem pay49_eq : k1_pay49 (F := F) = pMat 3072#32 := rfl
theorem pay50_eq : k1_pay50 (F := F) = lNew 3072#32 := rfl
theorem pay51_eq : k1_pay51 (F := F) = accNew 3072#32 := rfl
theorem pay52_eq : k1_pay52 (F := F) = sMask 3584#32 := rfl
theorem pay53_eq : k1_pay53 (F := F) = mNew 3584#32 := rfl
theorem pay54_eq : k1_pay54 (F := F) = rescale 3584#32 := rfl
theorem pay55_eq : k1_pay55 (F := F) = pMat 3584#32 := rfl
theorem pay56_eq : k1_pay56 (F := F) = lNew 3584#32 := rfl
theorem pay57_eq : k1_pay57 (F := F) = accNew 3584#32 := rfl

/-- The stores of the new maximum and numerator go through a cast to the same shape: the identity. -/
theorem pay62_eq (v : FVec F S512x64 .f32) : k1_pay62 v = v := shapeCast_self v _
theorem pay64_eq (v : FVec F S512x64 .f32) : k1_pay64 v = v := shapeCast_self v _
theorem pay66_eq (v : FVec F S512x64 .f32) : k1_pay66 v = v := shapeCast_self v _
theorem pay68_eq (v : FVec F S512x64 .f32) : k1_pay68 v = v := shapeCast_self v _
theorem pay1_eq (v : FVec F S512x64 .f32) : k1_pay1 v = v := shapeCast_self v _
theorem pay3_eq (v : FVec F S512x64 .f32) : k1_pay3 v = v := shapeCast_self v _
theorem pay5_eq (v : FVec F S512x64 .f32) : k1_pay5 v = v := shapeCast_self v _
theorem pay7_eq (v : FVec F S512x64 .f32) : k1_pay7 v = v := shapeCast_self v _
theorem pay63_eq (v : FVec F S512x1 .f32) : k1_pay63 v = v := shapeCast_self v _
theorem pay65_eq (v : FVec F S512x1 .f32) : k1_pay65 v = v := shapeCast_self v _
theorem pay67_eq (v : FVec F S512x1 .f32) : k1_pay67 v = v := shapeCast_self v _
theorem pay69_eq (v : FVec F S512x1 .f32) : k1_pay69 v = v := shapeCast_self v _
theorem pay2_eq (v : FVec F S512x1 .f32) : k1_pay2 v = v := shapeCast_self v _
theorem pay4_eq (v : FVec F S512x1 .f32) : k1_pay4 v = v := shapeCast_self v _
theorem pay6_eq (v : FVec F S512x1 .f32) : k1_pay6 v = v := shapeCast_self v _
theorem pay8_eq (v : FVec F S512x1 .f32) : k1_pay8 v = v := shapeCast_self v _

end Generic

/-! ## Layout operations the chunk meets, read at coordinates -/

section Layout
variable {α : Type}

/-- A vector of `a` entries viewed as an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along the rows to `a × b` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Constants at the ideal values -/

/-- The pattern of `-∞` denotes `⊥`. -/
theorem ofBits_negInf : Ideal.ofBits .f32 0xFF800000#32 = ⊥ := by simp [Ideal.ofBits, Ideal.ieee]

/-- The masked value: the table `κ` gives the mask's named constant the value `⊥`. -/
theorem negBig_eq : Named.named (F := Ideal) κ "neg_big" (φ := .f32) 0xF149F2CA#32 = (⊥ : EReal) :=
  IdealRules.named_const.ideal_named_scalar _ _ _ _ rfl

/-! ## The two products, read at coordinates -/

theorem lhs_qk_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem lhs_qk_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem rhs_qk_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem rhs_qk_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- The score product contracts the 64 feature coordinates of a query row and a key row. -/
theorem matmul_qk_apply (x : FVec Ideal S512x64 .bf16) (y : FVec Ideal S512x64 .bf16) (r c : Fin 512) :
    matmul dot_S512x64_S512x64_S512x512_1_1_0_0_n_n none x y (constant S512x512 .f32 0x00000000#32) (ix2 r c)
      = ∑ e : Fin 64, x (ix2 r e) * y (ix2 c e) := by
  simp only [matmul]
  rw [Ideal.matmul_constant_zero_apply, ← Equiv.sum_comp (contrEquiv1 dot_S512x64_S512x64_S512x512_1_1_0_0_n_n 64 rfl rfl).symm]
  refine Finset.sum_congr rfl fun e _ => ?_
  have hk := contrEquiv1_symm_val dot_S512x64_S512x64_S512x512_1_1_0_0_n_n 64 rfl rfl e
  have el : dot_S512x64_S512x64_S512x512_1_1_0_0_n_n.lhsIdx (ix2 r c) ((contrEquiv1 dot_S512x64_S512x64_S512x512_1_1_0_0_n_n 64 rfl rfl).symm e) = ix2 r e := funext fun a => Fin.ext (by
    match a with
    | ⟨0, _⟩ => exact lhs_qk_0 _ _
    | ⟨1, _⟩ => exact (lhs_qk_1 _ _).trans hk)
  have er : dot_S512x64_S512x64_S512x512_1_1_0_0_n_n.rhsIdx (ix2 r c) ((contrEquiv1 dot_S512x64_S512x64_S512x512_1_1_0_0_n_n 64 rfl rfl).symm e) = ix2 c e := funext fun a => Fin.ext (by
    match a with
    | ⟨0, _⟩ => exact rhs_qk_0 _ _
    | ⟨1, _⟩ => exact (rhs_qk_1 _ _).trans hk)
  rw [el, er]

theorem lhs_pv_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem lhs_pv_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem rhs_pv_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem rhs_pv_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl

/-- The value product contracts the chunk's 512 key positions: a row of weights against a column of values. -/
theorem matmul_pv_apply (x : FVec Ideal S512x512 .bf16) (y : FVec Ideal S512x64 .bf16) (r : Fin 512) (d : Fin 64) :
    matmul dot_S512x512_S512x64_S512x64_1_0_0_1_n_n none x y (constant S512x64 .f32 0x00000000#32) (ix2 r d)
      = ∑ c : Fin 512, x (ix2 r c) * y (ix2 c d) := by
  simp only [matmul]
  rw [Ideal.matmul_constant_zero_apply, ← Equiv.sum_comp (contrEquiv1 dot_S512x512_S512x64_S512x64_1_0_0_1_n_n 512 rfl rfl).symm]
  refine Finset.sum_congr rfl fun c _ => ?_
  have hk := contrEquiv1_symm_val dot_S512x512_S512x64_S512x64_1_0_0_1_n_n 512 rfl rfl c
  have el : dot_S512x512_S512x64_S512x64_1_0_0_1_n_n.lhsIdx (ix2 r d) ((contrEquiv1 dot_S512x512_S512x64_S512x64_1_0_0_1_n_n 512 rfl rfl).symm c) = ix2 r c := funext fun a => Fin.ext (by
    match a with
    | ⟨0, _⟩ => exact lhs_pv_0 _ _
    | ⟨1, _⟩ => exact (lhs_pv_1 _ _).trans hk)
  have er : dot_S512x512_S512x64_S512x64_1_0_0_1_n_n.rhsIdx (ix2 r d) ((contrEquiv1 dot_S512x512_S512x64_S512x64_1_0_0_1_n_n 512 rfl rfl).symm c) = ix2 c d := funext fun a => Fin.ext (by
    match a with
    | ⟨0, _⟩ => exact (rhs_pv_0 _ _).trans hk
    | ⟨1, _⟩ => exact rhs_pv_1 _ _)
  rw [el, er]

/-! ## The two row reductions, read at a row -/

/-- Over result row `r`, the source index with column `c` put back is `(r, c)`. -/
theorem lift_row (r c : Fin 512) : reduces_S512x512_S512.lift (ix1 r) c = ix2 r c := by
  funext a
  refine Fin.ext ?_
  match a with
  | ⟨0, _⟩ => rfl
  | ⟨1, _⟩ => rfl

/-- The row maximum from `-∞`: the fold of `max` from `⊥` over the row's 512 columns. -/
theorem rowMax_apply (src : FVec Ideal S512x512 .f32) (r : Fin 512) :
    multiReduction .maximumf [1] S512 src 0xFF800000#32 reduces_S512x512_S512 (.inl rfl) rfl (ix1 r)
      = (Finset.univ : Finset (Fin 512)).fold max ⊥ (fun c => src (ix2 r c)) := by
  refine (Ideal.multiReduction_maximumf_single src 0xFF800000#32 reduces_S512x512_S512 (.inl rfl) rfl (ix1 r)).trans ?_
  have hf : (src ∘ reduces_S512x512_S512.lift (ix1 r)) = fun c : Fin 512 => src (ix2 r c) :=
    funext fun c => congrArg src (lift_row r c)
  exact congrArg₂ (fun b f => (Finset.univ : Finset (Fin 512)).fold max b f) ofBits_negInf hf

/-- The row sum from `0`: the sum over the row's 512 columns. -/
theorem rowSum_apply (src : FVec Ideal S512x512 .f32) (r : Fin 512) :
    multiReduction .add [1] S512 src 0x00000000#32 reduces_S512x512_S512 (.inl rfl) rfl (ix1 r)
      = ∑ c : Fin 512, src (ix2 r c) := by
  refine (Ideal.multiReduction_add_single src 0x00000000#32 reduces_S512x512_S512 (.inl rfl) rfl (ix1 r)).trans ?_
  exact Finset.sum_congr rfl fun c _ => congrArg src (lift_row r c)

/-! ## The causal mask, read at coordinates -/

/-- Both sides of the mask's comparison stay below `2³¹`, so the signed comparison of the words is the comparison
    of the positions: key position `512 k + c` against query position `512 qv + r`. -/
theorem mask_word (k qv : ℕ) (hk : k < 8) (hq : qv < 8) (r c : Fin 512) :
    IntOp.cmpi .sle (IntOp.addi (BitVec.ofNat 32 (512 * k)) (BitVec.ofNat 32 c.val))
        (IntOp.addi (Scalar.muli (BitVec.ofNat 32 qv) 512#32) (BitVec.ofNat 32 r.val)) = 1#1
      ↔ 512 * k + c.val ≤ 512 * qv + r.val := by
  have hc := c.isLt
  have hr := r.isLt
  have ha : (IntOp.addi (BitVec.ofNat 32 (512 * k)) (BitVec.ofNat 32 c.val)).toNat = 512 * k + c.val := by
    simp only [IntOp.addi, BitVec.toNat_add, BitVec.toNat_ofNat, Nat.reducePow]; omega
  have hb : (IntOp.addi (Scalar.muli (BitVec.ofNat 32 qv) 512#32) (BitVec.ofNat 32 r.val)).toNat = 512 * qv + r.val := by
    simp only [IntOp.addi, Scalar.muli, IntOp.muli, BitVec.toNat_add, BitVec.toNat_mul, BitVec.toNat_ofNat, Nat.reducePow,
      Nat.reduceMod]
    omega
  rw [StableHlo.Predicate.sle_iff_toNat (by rw [ha]; omega) (by rw [hb]; omega), ha, hb]

/-- The mask at `(r, c)`: set exactly where the key position is not later than the query position. -/
theorem mask_apply (k qv : ℕ) (hk : k < 8) (hq : qv < 8) (r c : Fin 512) :
    cmpi .sle (addi (broadcast S512x512 (BitVec.ofNat 32 (512 * k))) (iota .tc S512x512 32 [1] iota_S512x512_d1_w32))
        (addi (broadcast S512x512 (Scalar.muli (BitVec.ofNat 32 qv) 512#32)) (iota .tc S512x512 32 [0] iota_S512x512_d0_w32))
        (ix2 r c) = 1#1
      ↔ 512 * k + c.val ≤ 512 * qv + r.val := by
  have h1 : iota .tc S512x512 32 [1] iota_S512x512_d1_w32 (ix2 r c) = BitVec.ofNat 32 c.val :=
    iota_single_apply .tc S512x512 32 1 iota_S512x512_d1_w32 (ix2 r c)
  have h0 : iota .tc S512x512 32 [0] iota_S512x512_d0_w32 (ix2 r c) = BitVec.ofNat 32 r.val :=
    iota_single_apply .tc S512x512 32 0 iota_S512x512_d0_w32 (ix2 r c)
  show IntOp.cmpi .sle (IntOp.addi (BitVec.ofNat 32 (512 * k)) (iota .tc S512x512 32 [1] iota_S512x512_d1_w32 (ix2 r c)))
      (IntOp.addi (Scalar.muli (BitVec.ofNat 32 qv) 512#32) (iota .tc S512x512 32 [0] iota_S512x512_d0_w32 (ix2 r c))) = 1#1 ↔ _
  rw [h1, h0]
  exact mask_word k qv hk hq r c

/-- A select on a bit that is set exactly when `P` holds is the `if` on `P`. -/
theorem select_of_iff (b : BitVec 1) (P : Prop) [Decidable P] (hb : b = 1#1 ↔ P) (x y : EReal) :
    Scalar.select b x y = if P then x else y := by
  unfold Scalar.select
  by_cases hP : P
  · rw [if_pos hP]; exact if_pos (hb.mpr hP)
  · rw [if_neg hP]; exact if_neg (fun h => hP (hb.mp h))

/-! ## One chunk at one row, at the ideal values -/

/-- The chunk's masked score at (row r, column c): the query row against the chunk's key c, behind the causal mask. -/
theorem sMask_apply (k qv : ℕ) (hk : k < 8) (hq : qv < 8) (q : FVec Ideal S512x64 .bf16) (kc : Vec Ideal S1x512x64 .bf16)
    (r c : Fin 512) :
    sMask (F := Ideal) (BitVec.ofNat 32 (512 * k)) (BitVec.ofNat 32 qv) q kc (ix2 r c)
      = Attn.masked qv r k c (∑ e : Fin 64, q (ix2 r e) * kc (ix3 (0 : Fin 1) c e)) := by
  unfold sMask Attn.masked
  refine (select_apply _ _ _ _).trans ?_
  refine (select_of_iff _ _ (mask_apply k qv hk hq r c) _ _).trans ?_
  refine if_congr Iff.rfl ?_ ?_
  · refine (matmul_qk_apply _ _ r c).trans ?_
    exact Finset.sum_congr rfl fun e _ => congrArg (q (ix2 r e) * ·) (shapeCast_1ab_ab_apply kc _ c e)
  · exact negBig_eq

/-! ## The chunk's five quantities at a row, each from the ones before it -/

/-- The new maximum at row `r`: the old one against the row's largest masked score. -/
theorem mNew_apply (off arg1 : BitVec 32) (q : FVec Ideal S512x64 .bf16) (kc : Vec Ideal S1x512x64 .bf16)
    (m : Vec Ideal S512x1 .f32) (r : Fin 512) :
    mNew (F := Ideal) off arg1 q kc m (ix2 r (0 : Fin 1))
      = max (m (ix2 r (0 : Fin 1)))
          ((Finset.univ : Finset (Fin 512)).fold max ⊥ (fun c => sMask (F := Ideal) off arg1 q kc (ix2 r c))) := by
  unfold mNew
  refine (maximumf_apply _ _ _).trans ?_
  refine congrArg (max (m (ix2 r (0 : Fin 1)))) ?_
  refine (shapeCast_a_a1_apply _ _ r (0 : Fin 1)).trans ?_
  exact rowMax_apply _ r

/-- The rescaling factor at row `r`: `exp` of the old maximum less the new. -/
theorem rescale_apply (off arg1 : BitVec 32) (q : FVec Ideal S512x64 .bf16) (kc : Vec Ideal S1x512x64 .bf16)
    (m : Vec Ideal S512x1 .f32) (r : Fin 512) :
    rescale (F := Ideal) off arg1 q kc m (ix2 r (0 : Fin 1))
      = Ideal.exp (m (ix2 r (0 : Fin 1)) - mNew (F := Ideal) off arg1 q kc m (ix2 r (0 : Fin 1))) := rfl

/-- The weight at `(r, c)`: `exp` of the masked score less the row's new maximum. -/
theorem pMat_apply (off arg1 : BitVec 32) (q : FVec Ideal S512x64 .bf16) (kc : Vec Ideal S1x512x64 .bf16)
    (m : Vec Ideal S512x1 .f32) (r c : Fin 512) :
    pMat (F := Ideal) off arg1 q kc m (ix2 r c)
      = Ideal.exp (sMask (F := Ideal) off arg1 q kc (ix2 r c) - mNew (F := Ideal) off arg1 q kc m (ix2 r (0 : Fin 1))) := by
  unfold pMat
  show Ideal.exp (sMask (F := Ideal) off arg1 q kc (ix2 r c)
      - broadcastTo S512x512 (mNew (F := Ideal) off arg1 q kc m) broadcasts_S512x1_S512x512 (ix2 r c)) = _
  rw [broadcastTo_a1_ab_apply]

/-- The new denominator at row `r`: the old one rescaled, plus the row's weights. -/
theorem lNew_apply (off arg1 : BitVec 32) (q : FVec Ideal S512x64 .bf16) (kc : Vec Ideal S1x512x64 .bf16)
    (m l : Vec Ideal S512x1 .f32) (r : Fin 512) :
    lNew (F := Ideal) off arg1 q kc m l (ix2 r (0 : Fin 1))
      = rescale (F := Ideal) off arg1 q kc m (ix2 r (0 : Fin 1)) * l (ix2 r (0 : Fin 1))
        + ∑ c : Fin 512, pMat (F := Ideal) off arg1 q kc m (ix2 r c) := by
  unfold lNew
  refine (congrFun (shapeCast_self _ _) _).trans ?_
  refine (addf_apply _ _ _).trans ?_
  refine congrArg₂ (· + ·) (mulf_apply _ _ _) ?_
  refine (shapeCast_a_a1_apply _ _ r (0 : Fin 1)).trans ?_
  exact rowSum_apply _ r

/-- The new numerator at `(r, d)`: the old one rescaled, plus the row's weights against the chunk's value column `d`. -/
theorem accNew_apply (off arg1 : BitVec 32) (q : FVec Ideal S512x64 .bf16) (kc vc : Vec Ideal S1x512x64 .bf16)
    (m : Vec Ideal S512x1 .f32) (acc : Vec Ideal S512x64 .f32) (r : Fin 512) (d : Fin 64) :
    accNew (F := Ideal) off arg1 q kc vc m acc (ix2 r d)
      = rescale (F := Ideal) off arg1 q kc m (ix2 r (0 : Fin 1)) * acc (ix2 r d)
        + ∑ c : Fin 512, pMat (F := Ideal) off arg1 q kc m (ix2 r c) * vc (ix3 (0 : Fin 1) c d) := by
  unfold accNew
  refine (addf_apply _ _ _).trans ?_
  refine congrArg₂ (· + ·) ?_ ?_
  · refine (mulf_apply _ _ _).trans ?_
    exact congrArg (· * acc (ix2 r d)) (broadcastTo_a1_ab_apply _ _ r d)
  · refine (matmul_pv_apply _ _ r d).trans ?_
    exact Finset.sum_congr rfl fun c _ =>
      congrArg (pMat (F := Ideal) off arg1 q kc m (ix2 r c) * ·) (shapeCast_1ab_ab_apply vc _ c d)

/-- ONE CHUNK AT ONE ROW: the new maximum and denominator at row `r` and the new numerator at (r, d) are `Attn.step` of
    the row's masked scores, the chunk's value column `d`, and the old three. -/
theorem step_apply (k qv : ℕ) (hk : k < 8) (hq : qv < 8) (q : FVec Ideal S512x64 .bf16) (kc vc : Vec Ideal S1x512x64 .bf16)
    (m l : Vec Ideal S512x1 .f32) (acc : Vec Ideal S512x64 .f32) (r : Fin 512) (d : Fin 64) :
    (mNew (F := Ideal) (BitVec.ofNat 32 (512 * k)) (BitVec.ofNat 32 qv) q kc m (ix2 r (0 : Fin 1)),
     lNew (F := Ideal) (BitVec.ofNat 32 (512 * k)) (BitVec.ofNat 32 qv) q kc m l (ix2 r (0 : Fin 1)),
     accNew (F := Ideal) (BitVec.ofNat 32 (512 * k)) (BitVec.ofNat 32 qv) q kc vc m acc (ix2 r d))
      = Attn.step (fun c => Attn.masked qv r k c (∑ e : Fin 64, q (ix2 r e) * kc (ix3 (0 : Fin 1) c e)))
          (fun c => vc (ix3 (0 : Fin 1) c d))
          (m (ix2 r (0 : Fin 1)), l (ix2 r (0 : Fin 1)), acc (ix2 r d)) := by
  rw [lNew_apply, accNew_apply]
  simp only [pMat_apply, rescale_apply]
  rw [mNew_apply]
  simp only [sMask_apply k qv hk hq]
  rfl

/-- The three quantities as the body resets them: the maximum at ⊥, the denominator and the numerator at 0. -/
theorem init_apply (r : Fin 512) (d : Fin 64) :
    (k1_pay58 (F := Ideal) (ix2 r (0 : Fin 1)), k1_pay59 (F := Ideal) (ix2 r (0 : Fin 1)), k1_pay60 (F := Ideal) (ix2 r d))
      = ((⊥ : EReal), (0 : EReal), (0 : EReal)) := by
  have h58 : k1_pay58 (F := Ideal) = fun _ => Ideal.ofBits .f32 0xFF800000#32 := shapeCast_self _ _
  have h59 : k1_pay59 (F := Ideal) = fun _ => Ideal.ofBits .f32 0x00000000#32 := shapeCast_self _ _
  have h60 : k1_pay60 (F := Ideal) = fun _ => Ideal.ofBits .f32 0x00000000#32 := shapeCast_self _ _
  rw [h58, h59, h60, ofBits_negInf, Ideal.ofBits_zero_f32]

/-- The query block as the chunks use it: the loaded block with its leading unit axis dropped. -/
theorem query_apply (v12 : Vec Ideal S1x512x64 .bf16) (r : Fin 512) (e : Fin 64) :
    k1_pay61 (F := Ideal) v12 (ix2 r e) = v12 (ix3 (0 : Fin 1) r e) :=
  shapeCast_1ab_ab_apply v12 _ r e

/-- The stored output: numerator over denominator, row by row. -/
theorem out_apply (acc : Vec Ideal S512x64 .f32) (l : Vec Ideal S512x1 .f32) (r : Fin 512) (d : Fin 64) :
    k1_pay9 (F := Ideal) acc l (ix3 (0 : Fin 1) r d) = Ideal.div (acc (ix2 r d)) (l (ix2 r (0 : Fin 1))) := by
  unfold k1_pay9
  refine (shapeCast_ab_1ab_apply _ _ (0 : Fin 1) r d).trans ?_
  refine (divf_apply _ _ _).trans ?_
  rw [broadcastTo_a1_ab_apply]

end Cert.KernelIdeal.Val

end
-- ==== Proof.AttnState.lean ====
/-
  The attention body's running state as a recursion over the chunks.

  `stAt n` is the triple (running maximum, running denominator, running numerator) after the first `n` chunks have
  been folded in, as vectors over the 512 query rows (and the 64 output columns): it starts at the body's reset
  values and each chunk applies the step of ValStep.lean with that chunk's keys and values — rows 512 n … 512 n + 511
  of the batch's key and value blocks — and its column offset 512 n. `outAt n` is the stored block, numerator over
  denominator, after `n` chunks.
-/
import proofs.«425320_j549755813913_3_alg».proof.Proof.ValStep

noncomputable section

namespace Cert.KernelIdeal.Val

open Cert.KernelIdeal Cert.KernelIdeal.Gen
open Idealize.ShloMosaic Idealize.SL.Sem

variable {F : FTy → Type} [FloatOps F] [Named F]

/-! ## The rectangles the body loads and stores through -/

abbrev rQry : Rect S1x512x64 := Rect.unit (s := S1x512x64) ![0, 0, 0] S1x512x64.size inb_S1x512x64_S1x512x64_0_0_0
abbrev rChunk0 : Rect S1x4096x64 := Rect.unit (s := S1x4096x64) ![0, 0, 0] S1x512x64.size inb_S1x4096x64_S1x512x64_0_0_0
abbrev rChunk1 : Rect S1x4096x64 := Rect.unit (s := S1x4096x64) ![0, 512, 0] S1x512x64.size inb_S1x4096x64_S1x512x64_0_512_0
abbrev rChunk2 : Rect S1x4096x64 := Rect.unit (s := S1x4096x64) ![0, 1024, 0] S1x512x64.size inb_S1x4096x64_S1x512x64_0_1024_0
abbrev rChunk3 : Rect S1x4096x64 := Rect.unit (s := S1x4096x64) ![0, 1536, 0] S1x512x64.size inb_S1x4096x64_S1x512x64_0_1536_0
abbrev rChunk4 : Rect S1x4096x64 := Rect.unit (s := S1x4096x64) ![0, 2048, 0] S1x512x64.size inb_S1x4096x64_S1x512x64_0_2048_0
abbrev rChunk5 : Rect S1x4096x64 := Rect.unit (s := S1x4096x64) ![0, 2560, 0] S1x512x64.size inb_S1x4096x64_S1x512x64_0_2560_0
abbrev rChunk6 : Rect S1x4096x64 := Rect.unit (s := S1x4096x64) ![0, 3072, 0] S1x512x64.size inb_S1x4096x64_S1x512x64_0_3072_0
abbrev rChunk7 : Rect S1x4096x64 := Rect.unit (s := S1x4096x64) ![0, 3584, 0] S1x512x64.size inb_S1x4096x64_S1x512x64_0_3584_0

/-- Chunk `n` of a 4096-row block: rows 512 n … 512 n + 511. -/
def chunkOf (x : Vec F S1x4096x64 .bf16) : ℕ → Vec F S1x512x64 .bf16
  | 0 => View.ld x rChunk0
  | 1 => View.ld x rChunk1
  | 2 => View.ld x rChunk2
  | 3 => View.ld x rChunk3
  | 4 => View.ld x rChunk4
  | 5 => View.ld x rChunk5
  | 6 => View.ld x rChunk6
  | 7 => View.ld x rChunk7
  | _ + 8 => View.ld x rChunk0

/-- Chunk `n`'s first key position, as the 32-bit word the body adds to the column index. -/
def offOf : ℕ → BitVec 32
  | 0 => 0#32
  | 1 => 512#32
  | 2 => 1024#32
  | 3 => 1536#32
  | 4 => 2048#32
  | 5 => 2560#32
  | 6 => 3072#32
  | 7 => 3584#32
  | _ + 8 => 0#32

/-- The running (maximum, denominator, numerator) after the first `n` chunks. -/
def stAt (a1 : BitVec 32) (x0 : Vec F S1x512x64 .bf16) (x1 x2 : Vec F S1x4096x64 .bf16) :
    ℕ → Vec F S512x1 .f32 × Vec F S512x1 .f32 × Vec F S512x64 .f32
  | 0 => (k1_pay58, k1_pay59, k1_pay60)
  | n + 1 =>
    (mNew (offOf n) a1 (k1_pay61 (View.ld x0 rQry)) (chunkOf x1 n) (stAt a1 x0 x1 x2 n).1,
     lNew (offOf n) a1 (k1_pay61 (View.ld x0 rQry)) (chunkOf x1 n) (stAt a1 x0 x1 x2 n).1 (stAt a1 x0 x1 x2 n).2.1,
     accNew (offOf n) a1 (k1_pay61 (View.ld x0 rQry)) (chunkOf x1 n) (chunkOf x2 n) (stAt a1 x0 x1 x2 n).1 (stAt a1 x0 x1 x2 n).2.2)

/-- The stored block after `n` chunks: numerator over denominator. -/
def outAt (a1 : BitVec 32) (x0 : Vec F S1x512x64 .bf16) (x1 x2 : Vec F S1x4096x64 .bf16) (n : ℕ) : Vec F S1x512x64 .f32 :=
  k1_pay9 (stAt a1 x0 x1 x2 n).2.2 (stAt a1 x0 x1 x2 n).2.1

end Cert.KernelIdeal.Val

end
-- ==== Proof.LibReadBack.lean ====
/-
  Reading a buffer back after it was stored whole.

  The symbolic executor names what a load reads after earlier stores into the same buffer as `View.readCov L B`: `L` the
  stores so far, LAST FIRST, `B` the box loaded. When the LAST store wrote the whole buffer (the unit rectangle at
  zero offsets of the buffer's own sizes) and the load reads the whole buffer, the load reads that store's payload,
  whatever the earlier stores were: an accumulator updated whole, then read back whole.
-/
import Idealize.ShloMosaic.Lib.Pipeline.FrameBody
import Idealize.ShloMosaic.Lib.Pipeline.Value

noncomputable section

namespace LibReadBack

open Idealize.ShloMosaic

variable {Val : EltTy → Type} {S : Shape} {e : EltTy}

/-- A whole-buffer load after stores of which the LAST wrote the whole buffer reads that store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end LibReadBack

end
-- ==== Proof.Val1Pieces.lean ====
/-
  What each control case of the attention body leaves in the output block: for each of the eight cases the pieces
  the case's run found are exactly one store of the whole output block with payload `outAt (q + 1)` (AttnState.lean) —
  what every load of a scratch buffer read is the payload of the last whole-buffer store before it, and the body's
  loads of its input windows read the chunks.
-/
import proofs.«425320_j549755813913_3_alg».proof.Proof.KI.Attn
import proofs.«425320_j549755813913_3_alg».proof.Proof.AttnState
import proofs.«425320_j549755813913_3_alg».proof.Proof.LibReadBack

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F] [Named F]

/-! ## A scratch buffer read back whole after it was stored whole -/

theorem hz2 : (![0, 0] : Fin 2 → ℕ) = fun _ => 0 := by funext a; fin_cases a <;> rfl

theorem rb_col {sg : RefSig} {κ : Kind} {sp : Space} (v : View sg κ sp S512x1 .f32) (w : S512x1.Idx → Elt F .f32)
    (L : List (View.Piece (Elt F) S512x1 .f32)) :
    v.readCov ((⟨Rect.unit (s := S512x1) ![0, 0] ![512, 1] inb_S512x1_S512x1_0_0, w⟩ : View.Piece (Elt F) S512x1 .f32) :: L)
      (Rect.unit (s := S512x1) ![0, 0] ![512, 1] inb_S512x1_S512x1_0_0).toLoadRect = w :=
  LibReadBack.readCov_cons_unit_zero (S := S512x1) v hz2 inb_S512x1_S512x1_0_0 w L

theorem rb_acc {sg : RefSig} {κ : Kind} {sp : Space} (v : View sg κ sp S512x64 .f32) (w : S512x64.Idx → Elt F .f32)
    (L : List (View.Piece (Elt F) S512x64 .f32)) :
    v.readCov ((⟨Rect.unit (s := S512x64) ![0, 0] ![512, 64] inb_S512x64_S512x64_0_0, w⟩ : View.Piece (Elt F) S512x64 .f32) :: L)
      (Rect.unit (s := S512x64) ![0, 0] ![512, 64] inb_S512x64_S512x64_0_0).toLoadRect = w :=
  LibReadBack.readCov_cons_unit_zero (S := S512x64) v hz2 inb_S512x64_S512x64_0_0 w L

/-! ## Each case's found pieces -/

set_option maxHeartbeats 4000000 in
theorem pieces0 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : ¬qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    (attnRun0 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 1⟩] := by
  unfold attnRun0
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

set_option maxHeartbeats 4000000 in
theorem pieces1 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : ¬qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    (attnRun1 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 2⟩] := by
  unfold attnRun1
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

set_option maxHeartbeats 4000000 in
theorem pieces2 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : ¬qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    (attnRun2 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 3⟩] := by
  unfold attnRun2
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

set_option maxHeartbeats 4000000 in
theorem pieces3 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : ¬qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    (attnRun3 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 4⟩] := by
  unfold attnRun3
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

set_option maxHeartbeats 4000000 in
theorem pieces4 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : ¬qGe 5#32 i) (hc6 : ¬qGe 6#32 i) (hc7 : ¬qGe 7#32 i)
    (x0 : Vec F S1x512x64 .bf16) (x1 : Vec F S1x4096x64 .bf16) (x2 : Vec F S1x4096x64 .bf16) :
    (attnRun4 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 5⟩] := by
  unfold attnRun4
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

set_option maxHeartbeats 4000000 in
theorem pieces5 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : ¬qGe 6#32 i) (hc7 : ¬qGe 7#32 i)
    (x0 : Vec F S1x512x64 .bf16) (x1 : Vec F S1x4096x64 .bf16) (x2 : Vec F S1x4096x64 .bf16) :
    (attnRun5 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 6⟩] := by
  unfold attnRun5
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

set_option maxHeartbeats 4000000 in
theorem pieces6 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : ¬qGe 7#32 i)
    (x0 : Vec F S1x512x64 .bf16) (x1 : Vec F S1x4096x64 .bf16) (x2 : Vec F S1x4096x64 .bf16) :
    (attnRun6 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 7⟩] := by
  unfold attnRun6
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

set_option maxHeartbeats 4000000 in
theorem pieces7 (c : Dev nD) (i : grid1.Coords)
    (arg2 : Memref sig .tc .vmem S1x512x64 .bf16) (harg2 : arg2.IsWhole) (arg3 : Memref sig .tc .vmem S1x4096x64 .bf16) (harg3 : arg3.IsWhole)
    (arg4 : Memref sig .tc .vmem S1x4096x64 .bf16) (harg4 : arg4.IsWhole) (arg5 : Memref sig .tc .vmem S1x512x64 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x64 .f32) (harg8 : arg8.IsWhole)
    (hc0 : qGe 0#32 i) (hc1 : qGe 1#32 i) (hc2 : qGe 2#32 i) (hc3 : qGe 3#32 i) (hc4 : qGe 4#32 i) (hc5 : qGe 5#32 i) (hc6 : qGe 6#32 i) (hc7 : qGe 7#32 i)
    (x0 : Vec F S1x512x64 .bf16) (x1 : Vec F S1x4096x64 .bf16) (x2 : Vec F S1x4096x64 .bf16) :
    (attnRun7 c i arg2 harg2 arg3 harg3 arg4 harg4 arg5 harg5 arg6 harg6 arg7 harg7 arg8 harg8 hc0 hc1 hc2 hc3 hc4 hc5 hc6 hc7 x0 x1 x2).1 = [⟨rQry, outAt (BitVec.ofNat 32 (i 1).val) x0 x1 x2 8⟩] := by
  unfold attnRun7
  dsimp only
  sl_unfold_words
  simp only [rb_col, rb_acc, View.readAt_eq_ld, Memref.IsWhole.read_unread, pay62_eq, pay63_eq, pay64_eq, pay65_eq, pay66_eq, pay67_eq, pay68_eq, pay69_eq, pay1_eq, pay2_eq, pay3_eq, pay4_eq, pay5_eq, pay6_eq, pay7_eq, pay8_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq, pay45_eq, pay46_eq, pay47_eq, pay48_eq, pay49_eq, pay50_eq, pay51_eq, pay52_eq, pay53_eq, pay54_eq, pay55_eq, pay56_eq, pay57_eq]
  rfl

/-! ## The output block at a point -/

theorem hz3 : (![0, 0, 0] : Fin 3 → ℕ) = fun _ => 0 := by funext a; fin_cases a <;> rfl

/-- One store of the whole output block, read back over anything, is its payload. -/
theorem readback (P : Vec F S1x512x64 .f32) :
    VOut.read (Elt F) (VOut.writes (Elt F) VOut.junk [(⟨rQry, P⟩ : View.Piece (Elt F) S1x512x64 .f32)]) = P :=
  (View.read_writes_eq_canon _ _ _ (fun y => ⟨_, List.mem_singleton_self _, View.mem_set_unit_zero hz3 inb_S1x512x64_S1x512x64_0_0_0 y⟩)).trans
    (View.canon_unit_zero hz3 inb_S1x512x64_S1x512x64_0_0_0 P)

set_option maxHeartbeats 1000000 in
/-- THE OUTPUT BLOCK AT POINT `t`: the stored block after q + 1 chunks, q = t mod 8 the query-block coordinate, of the
    running state over the point's query, key and value blocks. -/
theorem aOut_eq (V : (c : Dev nD) → (b : Ref sig .tc) → Buf (Elt F) ((c : Thread nD τ).loc b)) (c : Dev nD) (t : Fin cfg1.N) :
    aOut V c t = outAt (BitVec.ofNat 32 ((grid1.coords t) 1).val) (ablk V c 0 t) (ablk V c 1 t) (ablk V c 2 t) (t.val % 8 + 1) := by
  have hlt : t.val % 8 < 8 := Nat.mod_lt _ (by decide)
  by_cases h1 : 1 ≤ t.val % 8
  · by_cases h2 : 2 ≤ t.val % 8
    · by_cases h3 : 3 ≤ t.val % 8
      · by_cases h4 : 4 ≤ t.val % 8
        · by_cases h5 : 5 ≤ t.val % 8
          · by_cases h6 : 6 ≤ t.val % 8
            · by_cases h7 : 7 ≤ t.val % 8
              · rw [aOut_7 V c t h1 h2 h3 h4 h5 h6 h7]
                unfold runOut
                rw [pieces7, show t.val % 8 = 7 from by omega]
                exact readback _
              · rw [aOut_6 V c t h1 h2 h3 h4 h5 h6 h7]
                unfold runOut
                rw [pieces6, show t.val % 8 = 6 from by omega]
                exact readback _
            · rw [aOut_5 V c t h1 h2 h3 h4 h5 h6]
              unfold runOut
              rw [pieces5, show t.val % 8 = 5 from by omega]
              exact readback _
          · rw [aOut_4 V c t h1 h2 h3 h4 h5]
            unfold runOut
            rw [pieces4, show t.val % 8 = 4 from by omega]
            exact readback _
        · rw [aOut_3 V c t h1 h2 h3 h4]
          unfold runOut
          rw [pieces3, show t.val % 8 = 3 from by omega]
          exact readback _
      · rw [aOut_2 V c t h1 h2 h3]
        unfold runOut
        rw [pieces2, show t.val % 8 = 2 from by omega]
        exact readback _
    · rw [aOut_1 V c t h1 h2]
      unfold runOut
      rw [pieces1, show t.val % 8 = 1 from by omega]
      exact readback _
  · rw [aOut_0 V c t h1]
    unfold runOut
    rw [pieces0, show t.val % 8 = 0 from by omega]
    exact readback _

end Cert.KernelIdeal.Val

end
-- ==== Proof.AttnRow.lean ====
/-
  The attention body's running state at one query row IS the running softmax of Softmax.lean.

  Fix a query row `r` of the block and an output column `d`. With `x0` the query block, `x1`, `x2` the batch's key and
  value blocks and `qv` the query-block coordinate, the score of the row against key position `s` is the inner product
  over the 64 features `Σ_e x0[r, e] · x1[s, e]`, and the value is `x2[s, d]`. Chunk `n` of the keys and values is rows
  512 n … 512 n + 511, so by induction over the chunks the triple (maximum, denominator at row r; numerator at (r, d))
  after `n` chunks is `Attn.run` after `n` chunks of those scores and values, and the stored entry (r, d) after
  `qv + 1` chunks is `Attn.online`.
-/
import proofs.«425320_j549755813913_3_alg».proof.Proof.AttnState
import proofs.«425320_j549755813913_3_alg».proof.Proof.Softmax
import Idealize.ShloMosaic.Lib.ValueIdx
import Idealize.ShloMosaic.Lib.Pipeline.Value

noncomputable section

namespace Cert.KernelIdeal.Val

open Cert.KernelIdeal Cert.KernelIdeal.Gen Cert.Proof
open Idealize.ShloMosaic Idealize.ShloMosaic.ValueIdx Idealize.SL.Sem

/-- Row `s` of a 4096-row block at feature `e`; 0 for a row number outside the block (never used). -/
def rowOf (x : Vec Ideal S1x4096x64 .bf16) (s : ℕ) (e : Fin 64) : EReal :=
  if h : s < 4096 then x (ix3 (0 : Fin 1) (⟨s, h⟩ : Fin 4096) e) else 0

/-! ### The blocks the chunks read, at coordinates -/

/-- Chunk `n`'s column offset as a word. -/
theorem offOf_eq (n : ℕ) (hn : n < 8) : offOf n = BitVec.ofNat 32 (512 * n) := by
  interval_cases n <;> rfl

/-- A load of 512 rows from row `off` on reads row `off + c` at its row `c`. -/
theorem ld_rows (x : Vec Ideal S1x4096x64 .bf16) (off : ℕ)
    (inb : ∀ a, (![0, off, 0] : Fin 3 → ℕ) a + S1x512x64.size a ≤ S1x4096x64.size a) (h : off + 512 ≤ 4096)
    (c : Fin 512) (e : Fin 64) :
    View.ld x (Rect.unit (s := S1x4096x64) ![0, off, 0] S1x512x64.size inb) (ix3 (0 : Fin 1) c e)
      = x (ix3 (0 : Fin 1) (⟨off + c.val, by have := c.isLt; omega⟩ : Fin 4096) e) := by
  refine congrArg x ?_
  funext a
  apply Fin.ext
  match a with
  | ⟨0, _⟩ => rfl
  | ⟨1, _⟩ => exact congrArg (off + ·) (Nat.one_mul c.val)
  | ⟨2, _⟩ => exact (Nat.zero_add _).trans (Nat.one_mul e.val)

/-- Chunk `n` of a block at (c, e) is the block's row `512 n + c`. -/
theorem chunk_apply (x : Vec Ideal S1x4096x64 .bf16) (n : ℕ) (hn : n < 8) (c : Fin 512) (e : Fin 64) :
    chunkOf (F := Ideal) x n (ix3 (0 : Fin 1) c e) = rowOf x (512 * n + c.val) e := by
  have hc := c.isLt
  unfold rowOf
  rw [dif_pos (by omega)]
  interval_cases n
  · exact ld_rows x 0 _ (by omega) c e
  · exact ld_rows x 512 _ (by omega) c e
  · exact ld_rows x 1024 _ (by omega) c e
  · exact ld_rows x 1536 _ (by omega) c e
  · exact ld_rows x 2048 _ (by omega) c e
  · exact ld_rows x 2560 _ (by omega) c e
  · exact ld_rows x 3072 _ (by omega) c e
  · exact ld_rows x 3584 _ (by omega) c e

/-- The query block as the chunks use it, at (r, e). -/
theorem query_eq (x0 : Vec Ideal S1x512x64 .bf16) (r : Fin 512) (e : Fin 64) :
    k1_pay61 (F := Ideal) (View.ld x0 rQry) (ix2 r e) = x0 (ix3 (0 : Fin 1) r e) := by
  have hz : (![0, 0, 0] : Fin 3 → ℕ) = fun _ => 0 := by
    funext a
    fin_cases a <;> rfl
  rw [query_apply]
  exact congrFun (View.ld_unit_zero (S := S1x512x64) hz inb_S1x512x64_S1x512x64_0_0_0 x0) (ix3 (0 : Fin 1) r e)

/-- The running state at row `r` (numerator at column `d`) after `n` chunks is the running softmax after `n` chunks. -/
theorem stAt_apply (qv : ℕ) (hq : qv < 8) (x0 : Vec Ideal S1x512x64 .bf16) (x1 x2 : Vec Ideal S1x4096x64 .bf16)
    (r : Fin 512) (d : Fin 64) (n : ℕ) (hn : n ≤ 8) :
    ((stAt (F := Ideal) (BitVec.ofNat 32 qv) x0 x1 x2 n).1 (ix2 r (0 : Fin 1)),
     (stAt (F := Ideal) (BitVec.ofNat 32 qv) x0 x1 x2 n).2.1 (ix2 r (0 : Fin 1)),
     (stAt (F := Ideal) (BitVec.ofNat 32 qv) x0 x1 x2 n).2.2 (ix2 r d))
      = Attn.run qv r (fun k c => ∑ e : Fin 64, x0 (ix3 (0 : Fin 1) r e) * rowOf x1 (512 * k + c.val) e)
          (fun k c => rowOf x2 (512 * k + c.val) d) n := by
  induction n with
  | zero => exact init_apply r d
  | succ n ih =>
    have hn' : n < 8 := by omega
    have ih' := ih (by omega)
    show (mNew (F := Ideal) (offOf n) (BitVec.ofNat 32 qv) (k1_pay61 (F := Ideal) (View.ld x0 rQry)) (chunkOf (F := Ideal) x1 n)
            (stAt (F := Ideal) (BitVec.ofNat 32 qv) x0 x1 x2 n).1 (ix2 r (0 : Fin 1)),
          lNew (F := Ideal) (offOf n) (BitVec.ofNat 32 qv) (k1_pay61 (F := Ideal) (View.ld x0 rQry)) (chunkOf (F := Ideal) x1 n)
            (stAt (F := Ideal) (BitVec.ofNat 32 qv) x0 x1 x2 n).1 (stAt (F := Ideal) (BitVec.ofNat 32 qv) x0 x1 x2 n).2.1
            (ix2 r (0 : Fin 1)),
          accNew (F := Ideal) (offOf n) (BitVec.ofNat 32 qv) (k1_pay61 (F := Ideal) (View.ld x0 rQry)) (chunkOf (F := Ideal) x1 n)
            (chunkOf (F := Ideal) x2 n) (stAt (F := Ideal) (BitVec.ofNat 32 qv) x0 x1 x2 n).1
            (stAt (F := Ideal) (BitVec.ofNat 32 qv) x0 x1 x2 n).2.2 (ix2 r d)) = _
    rw [offOf_eq n hn', step_apply n qv hn' hq, ih']
    have hf : (fun c : Fin 512 => Attn.masked qv r n c
          (∑ e : Fin 64, k1_pay61 (F := Ideal) (View.ld x0 rQry) (ix2 r e) * chunkOf (F := Ideal) x1 n (ix3 (0 : Fin 1) c e)))
        = fun c : Fin 512 => Attn.masked qv r n c (∑ e : Fin 64, x0 (ix3 (0 : Fin 1) r e) * rowOf x1 (512 * n + c.val) e) :=
      funext fun c => congrArg (Attn.masked qv r n c)
        (Finset.sum_congr rfl fun e _ => by rw [query_eq, chunk_apply x1 n hn'])
    have hg : (fun c : Fin 512 => chunkOf (F := Ideal) x2 n (ix3 (0 : Fin 1) c d))
        = fun c : Fin 512 => rowOf x2 (512 * n + c.val) d :=
      funext fun c => chunk_apply x2 n hn' c d
    rw [hf, hg]
    rfl

/-- The stored entry (r, d) of the case q = j is the running form's result after chunks 0 … j. -/
theorem outAt_apply (j : Fin 8) (x0 : Vec Ideal S1x512x64 .bf16) (x1 x2 : Vec Ideal S1x4096x64 .bf16)
    (r : Fin 512) (d : Fin 64) :
    outAt (F := Ideal) (BitVec.ofNat 32 j.val) x0 x1 x2 (j.val + 1) (ix3 (0 : Fin 1) r d)
      = Attn.online j.val r (fun k c => ∑ e : Fin 64, x0 (ix3 (0 : Fin 1) r e) * rowOf x1 (512 * k + c.val) e)
          (fun k c => rowOf x2 (512 * k + c.val) d) := by
  unfold outAt
  rw [out_apply]
  unfold Attn.online
  rw [← stAt_apply j.val j.isLt x0 x1 x2 r d (j.val + 1) (by omega)]

end Cert.KernelIdeal.Val

end
-- ==== Proof.AttnBlocks.lean ====
/-
  The attention pipeline's geometry. The grid is 8 batches × 8 query blocks; point (b, j) is point number 8 b + j.
  At that point the query window holds rows 512 j … 512 j + 511 of batch b of the query array, the key and value
  windows hold ALL 4096 rows of batch b of the key and value arrays, and the output window is written back to rows
  512 j … 512 j + 511 of batch b of the result array. Every row of every batch of the result is written by exactly one
  point, so after the region entry (b, 512 j + r, d) of the result array is entry (r, d) of what the body left in the
  output block at point (b, j).
-/
import proofs.«425320_j549755813913_3_alg».proof.Proof.KI.Attn
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.ValueIdx Idealize.ShloMosaic.TcCoe Idealize.SL.Sem
open Idealize.ShloMosaic.Pipeline (Dat)

variable {F : FTy → Type} [FloatOps F] [Named F]
variable (V : (c : Dev nD) → (b : Ref sig .tc) → Buf (Elt F) ((c : Thread nD τ).loc b)) (c : Dev nD)

/-- Grid point (b, j). -/
def pt (b j : Fin 8) : Fin cfg1.N := ⟨8 * b.val + j.val, by have := N_1; show 8 * b.val + j.val < grid1.N; omega⟩

theorem pt_mod (b j : Fin 8) : (pt b j).val % 8 = j.val := by
  show (8 * b.val + j.val) % 8 = j.val; omega

/-- Point (b, j) lies in batch b. -/
theorem pt_div (b j : Fin 8) : (pt b j).val / 8 = b.val := by
  show (8 * b.val + j.val) / 8 = b.val; omega

/-- The second grid coordinate of point t is t mod 8 (the grid is 8 × 8, row-major). -/
theorem coords_1_eq : ∀ t : Fin cfg1.N, ((grid1.coords t) 1).val = t.val % 8 :=
  (by decide +kernel : ∀ t : Fin grid1.N, ((grid1.coords t) 1).val = t.val % 8)

/-- The query-block coordinate the body reads at point (b, j) is j. -/
theorem coords_pt_1 (b j : Fin 8) : ((grid1.coords (pt b j)) 1).val = j.val := by
  rw [coords_1_eq, pt_mod]

/-- The block indices of the four windows at point t: the query and result windows sit at block (t / 8, t mod 8, 0),
    the key and value windows at block (t / 8, 0, 0). -/
theorem idx_qry : ∀ t : Fin cfg1.N, win1_0.index t (0 : Fin 3) = t.val / 8 ∧ win1_0.index t (1 : Fin 3) = t.val % 8
    ∧ win1_0.index t (2 : Fin 3) = 0 :=
  (by decide +kernel : ∀ t : Fin grid1.N, win1_0.index t (0 : Fin 3) = t.val / 8 ∧ win1_0.index t (1 : Fin 3) = t.val % 8
    ∧ win1_0.index t (2 : Fin 3) = 0)
theorem idx_key : ∀ t : Fin cfg1.N, win1_1.index t (0 : Fin 3) = t.val / 8 ∧ win1_1.index t (1 : Fin 3) = 0
    ∧ win1_1.index t (2 : Fin 3) = 0 :=
  (by decide +kernel : ∀ t : Fin grid1.N, win1_1.index t (0 : Fin 3) = t.val / 8 ∧ win1_1.index t (1 : Fin 3) = 0
    ∧ win1_1.index t (2 : Fin 3) = 0)
theorem idx_val : ∀ t : Fin cfg1.N, win1_2.index t (0 : Fin 3) = t.val / 8 ∧ win1_2.index t (1 : Fin 3) = 0
    ∧ win1_2.index t (2 : Fin 3) = 0 :=
  (by decide +kernel : ∀ t : Fin grid1.N, win1_2.index t (0 : Fin 3) = t.val / 8 ∧ win1_2.index t (1 : Fin 3) = 0
    ∧ win1_2.index t (2 : Fin 3) = 0)
theorem idx_res : ∀ t : Fin cfg1.N, win1_3.index t (0 : Fin 3) = t.val / 8 ∧ win1_3.index t (1 : Fin 3) = t.val % 8
    ∧ win1_3.index t (2 : Fin 3) = 0 :=
  (by decide +kernel : ∀ t : Fin grid1.N, win1_3.index t (0 : Fin 3) = t.val / 8 ∧ win1_3.index t (1 : Fin 3) = t.val % 8
    ∧ win1_3.index t (2 : Fin 3) = 0)

/-- The query window's block at point (b, j): rows 512 j … of batch b of the query array. -/
theorem qry_blk_at (b j : Fin 8) (r : Fin 512) (e : Fin 64) :
    ablk V c 0 (pt b j) (ix3 (0 : Fin 1) r e) = V c main_v1_1 (ix3 b (⟨512 * j.val + r.val, by omega⟩ : Fin 4096) e) := by
  obtain ⟨e0, e1, e2⟩ := idx_qry (pt b j)
  rw [pt_div] at e0
  rw [pt_mod] at e1
  unfold ablk
  rw [View.read_apply]
  show V c main_v1_1 (((cfg1.win 0).blk (pt b j)).view.emb (ix3 (0 : Fin 1) r e)) = V c main_v1_1 _
  congr 1
  funext a
  apply Fin.ext
  match a with
  | ⟨0, _⟩ => show win1_0.index (pt b j) (0 : Fin 3) * 1 + 1 * (0 : Fin 1).val = b.val; rw [e0]; simp
  | ⟨1, _⟩ => show win1_0.index (pt b j) (1 : Fin 3) * 512 + 1 * r.val = 512 * j.val + r.val; rw [e1]; omega
  | ⟨2, _⟩ => show win1_0.index (pt b j) (2 : Fin 3) * 64 + 1 * e.val = e.val; rw [e2]; omega

/-- The key window's block at point (b, j): all rows of batch b of the key array. -/
theorem key_blk_at (b j : Fin 8) (s : Fin 4096) (e : Fin 64) :
    ablk V c 1 (pt b j) (ix3 (0 : Fin 1) s e) = V c main_v1_0 (ix3 b s e) := by
  obtain ⟨e0, e1, e2⟩ := idx_key (pt b j)
  rw [pt_div] at e0
  unfold ablk
  rw [View.read_apply]
  show V c main_v1_0 (((cfg1.win 1).blk (pt b j)).view.emb (ix3 (0 : Fin 1) s e)) = V c main_v1_0 _
  congr 1
  funext a
  apply Fin.ext
  match a with
  | ⟨0, _⟩ => show win1_1.index (pt b j) (0 : Fin 3) * 1 + 1 * (0 : Fin 1).val = b.val; rw [e0]; simp
  | ⟨1, _⟩ => show win1_1.index (pt b j) (1 : Fin 3) * 4096 + 1 * s.val = s.val; rw [e1]; omega
  | ⟨2, _⟩ => show win1_1.index (pt b j) (2 : Fin 3) * 64 + 1 * e.val = e.val; rw [e2]; omega

/-- The value window's block at point (b, j): all rows of batch b of the value array. -/
theorem val_blk_at (b j : Fin 8) (s : Fin 4096) (e : Fin 64) :
    ablk V c 2 (pt b j) (ix3 (0 : Fin 1) s e) = V c main_v1_2 (ix3 b s e) := by
  obtain ⟨e0, e1, e2⟩ := idx_val (pt b j)
  rw [pt_div] at e0
  unfold ablk
  rw [View.read_apply]
  show V c main_v1_2 (((cfg1.win 2).blk (pt b j)).view.emb (ix3 (0 : Fin 1) s e)) = V c main_v1_2 _
  congr 1
  funext a
  apply Fin.ext
  match a with
  | ⟨0, _⟩ => show win1_2.index (pt b j) (0 : Fin 3) * 1 + 1 * (0 : Fin 1).val = b.val; rw [e0]; simp
  | ⟨1, _⟩ => show win1_2.index (pt b j) (1 : Fin 3) * 4096 + 1 * s.val = s.val; rw [e1]; omega
  | ⟨2, _⟩ => show win1_2.index (pt b j) (2 : Fin 3) * 64 + 1 * e.val = e.val; rw [e2]; omega

/-- The result array as one function of its index: entry (b, s, d) is entry (s mod 512, d) of the output block of
    point (b, s / 512). -/
def resAt (b : Fin 8) (s : Fin 4096) (d : Fin 64) : Elt F .f32 :=
  aOut V c (pt b ⟨s.val / 512, by omega⟩) (ix3 (0 : Fin 1) (⟨s.val % 512, by omega⟩ : Fin 512) d)

/-- The same function on an index of the result array. -/
def resG : S8x4096x64.Idx → Elt F .f32 := fun i => resAt V c (i 0) (i 1) (i 2)

/-- What point t writes back is block t of that function: the block sits at rows 512 (t mod 8) … of batch t / 8. -/
theorem flushed_res (t : Fin cfg1.N) :
    (adat V c).flushed 3 t = ((cfg1.win 3).blk t).view.read (Elt F) (resG V c) := by
  show (cfg1.win 3).cut (grid1.coords t) ((adat V c).after 3 t) = _
  rw [aafter_3]
  obtain ⟨e0, e1, e2⟩ := idx_res t
  funext y
  rw [View.read_apply]
  show aOut V c t ((cfg1.win 3).xinj (grid1.coords t) y) = resG V c (((cfg1.win 3).blk t).view.emb y)
  have h0 : (y 0).val < 1 := (y 0).isLt
  have h1 : (y 1).val < 512 := (y 1).isLt
  have h2 : (y 2).val < 64 := (y 2).isLt
  have c0 : ((((cfg1.win 3).blk t).view.emb y) 0).val = t.val / 8 := by
    show win1_3.index t (0 : Fin 3) * 1 + 1 * (y 0).val = _; rw [e0]; omega
  have c1 : ((((cfg1.win 3).blk t).view.emb y) 1).val = t.val % 8 * 512 + (y 1).val := by
    show win1_3.index t (1 : Fin 3) * 512 + 1 * (y 1).val = _; rw [e1]; omega
  have c2 : ((((cfg1.win 3).blk t).view.emb y) 2).val = (y 2).val := by
    show win1_3.index t (2 : Fin 3) * 64 + 1 * (y 2).val = _; rw [e2]; omega
  unfold resG resAt
  congr 1
  · apply Fin.ext
    show t.val = 8 * ((((cfg1.win 3).blk t).view.emb y) 0).val + ((((cfg1.win 3).blk t).view.emb y) 1).val / 512
    rw [c0, c1]; omega
  · funext a
    apply Fin.ext
    match a with
    | ⟨0, _⟩ => show (y 0).val = 0; omega
    | ⟨1, _⟩ => show (y 1).val = ((((cfg1.win 3).blk t).view.emb y) 1).val % 512; rw [c1]; omega
    | ⟨2, _⟩ => show (y 2).val = ((((cfg1.win 3).blk t).view.emb y) 2).val; rw [c2]

/-- THE RESULT ARRAY after the region: entry (b, 512 j + r, d) is entry (r, d) of the output block of point (b, j). -/
theorem result_at (b j : Fin 8) (r : Fin 512) (d : Fin 64) :
    (adat V c).arrAt 3 cfg1.N (ix3 b (⟨512 * j.val + r.val, by omega⟩ : Fin 4096) d)
      = aOut V c (pt b j) (ix3 (0 : Fin 1) r d) := by
  obtain ⟨e0, e1, e2⟩ := idx_res (pt b j)
  rw [pt_div] at e0
  rw [pt_mod] at e1
  have hmem : (ix3 b (⟨512 * j.val + r.val, by omega⟩ : Fin 4096) d : S8x4096x64.Idx) ∈ ((cfg1.win 3).blk (pt b j)).view.set := by
    show _ ∈ ((View.whole main_v2).slice (win1_3.rect (pt b j))).set
    rw [View.set_slice_whole, Rect.mem_set_unit]
    intro a
    match a with
    | ⟨0, _⟩ => show win1_3.index (pt b j) (0 : Fin 3) * 1 ≤ b.val ∧ b.val < win1_3.index (pt b j) (0 : Fin 3) * 1 + 1; rw [e0]; omega
    | ⟨1, _⟩ => show win1_3.index (pt b j) (1 : Fin 3) * 512 ≤ 512 * j.val + r.val ∧ 512 * j.val + r.val < win1_3.index (pt b j) (1 : Fin 3) * 512 + 512; rw [e1]; omega
    | ⟨2, _⟩ => show win1_3.index (pt b j) (2 : Fin 3) * 64 ≤ d.val ∧ d.val < win1_3.index (pt b j) (2 : Fin 3) * 64 + 64; rw [e2]; omega
  refine ((adat V c).arrAt_apply_of_mem 3 (resG V c) (fun t _ => flushed_res V c t) cfg1.N (pt b j) _ (pt b j).isLt
    (flush1_3 (pt b j)) hmem).trans ?_
  show aOut V c (pt b ⟨(512 * j.val + r.val) / 512, _⟩) (ix3 (0 : Fin 1) (⟨(512 * j.val + r.val) % 512, _⟩ : Fin 512) d) = _
  congr 1
  · apply Fin.ext
    show 8 * b.val + (512 * j.val + r.val) / 512 = 8 * b.val + j.val
    omega
  · funext a
    apply Fin.ext
    match a with
    | ⟨0, _⟩ => rfl
    | ⟨1, _⟩ => show (512 * j.val + r.val) % 512 = r.val; omega
    | ⟨2, _⟩ => rfl

end Cert.KernelIdeal.Val

end
-- ==== Proof.KernelValue.lean ====
/-
  The idealized kernel program's result array at one entry, for finite inputs: entry (b, 512 j + r, d) is the running
  softmax (Softmax.lean's `online`) of row 512 j + r of batch b after chunks 0 … j, over the real scaled scores
  `scoreR` and the real value column `valR` (AttnDefs.lean).

  The chain: that entry of the result is entry (r, d) of the output block of grid point (b, j) (the pipeline's geometry);
  the block is the stored block after j + 1 chunks of the running state over the point's query, key and value blocks
  (the case q = j of the body); at one row that is `online` of the inner products of the query row with the key rows
  and of the value column; the query, key and value blocks are rows of the three arrays the projection region left,
  which hold the projections of the input (the query's times 1/8); and the inner product over the 64 features of
  (query feature · 1/8) · (key feature) is the real scaled score, on the reals.
-/
import proofs.«425320_j549755813913_3_alg».proof.Proof.KI.Main
import proofs.«425320_j549755813913_3_alg».proof.Proof.Val0
import proofs.«425320_j549755813913_3_alg».proof.Proof.Val1Pieces
import proofs.«425320_j549755813913_3_alg».proof.Proof.AttnRow
import proofs.«425320_j549755813913_3_alg».proof.Proof.AttnBlocks
import proofs.«425320_j549755813913_3_alg».proof.Proof.AttnDefs
import proofs.«425320_j549755813913_3_alg».proof.Proof.Softmax
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr Cert.Proof
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)
variable (x : S8x4096x1024.Idx → ℝ) (wk wq wv : S64x1024.Idx → ℝ)

/-! ## On the reals: the inner product of the scaled query row with a key row is the scaled score -/

/-- The inner product over the 64 features of (query feature · 1/8) against key row `s` (zero outside the 4096
    positions) is the real scaled score: the factor 1/8 leaves the sum, and a sum of reals is the real sum. -/
theorem score_coe (b : Fin 8) (t : Fin 4096) (s : ℕ) (f g : Fin 64 → EReal)
    (hf : ∀ e, f e = ((Attn.projR x wq b t e * (1 / 8) : ℝ) : EReal))
    (hg : ∀ e, g e = if h : s < 4096 then ((Attn.projR x wk b ⟨s, h⟩ e : ℝ) : EReal) else 0) :
    ∑ e : Fin 64, f e * g e = ((Attn.scoreR x wq wk b t.val s : ℝ) : EReal) := by
  unfold Attn.scoreR
  by_cases h : s < 4096
  · rw [dif_pos ⟨t.isLt, h⟩]
    have e1 : ∀ e : Fin 64, f e * g e
        = ((Attn.projR x wq b t e * (1 / 8) * Attn.projR x wk b ⟨s, h⟩ e : ℝ) : EReal) := fun e => by
      rw [hf e, hg e, dif_pos h, ← EReal.coe_mul]
    rw [Finset.sum_congr rfl fun e _ => e1 e, Attn.Softmax.coe_sum, Finset.sum_div]
    refine congrArg (fun z : ℝ => (z : EReal)) (Finset.sum_congr rfl fun e _ => ?_)
    ring
  · rw [dif_neg (fun hh => h hh.2)]
    have e1 : ∀ e : Fin 64, f e * g e = 0 := fun e => by rw [hg e, dif_neg h, mul_zero]
    rw [Finset.sum_congr rfl fun e _ => e1 e, Finset.sum_const_zero, EReal.coe_zero]

/-! ## What the projection region is entered with -/

/-- The stacked weight: the three weights one above the other. -/
theorem stacked_eq
    (hk : m ((c.tc : Thread nD τ).loc main_arg1) = fun i => ((wk i : ℝ) : EReal))
    (hq : m ((c.tc : Thread nD τ).loc main_arg2) = fun i => ((wq i : ℝ) : EReal))
    (hv : m ((c.tc : Thread nD τ).loc main_arg3) = fun i => ((wv i : ℝ) : EReal)) :
    E1 m ρ c main_v0 = concatenate S192x1024 0 [⟨S64x1024, fun i => ((wk i : ℝ) : EReal)⟩, ⟨S64x1024, fun i => ((wq i : ℝ) : EReal)⟩, ⟨S64x1024, fun i => ((wv i : ℝ) : EReal)⟩] concatenates_S64x1024_S64x1024_S64x1024_S192x1024_d0 := by
  have h1 : B0 m ρ c (Proc.devRef .tc main_arg1) = fun i => ((wk i : ℝ) : EReal) := hk
  have h2 : B0 m ρ c (Proc.devRef .tc main_arg2) = fun i => ((wq i : ℝ) : EReal) := hq
  have h3 : B0 m ρ c (Proc.devRef .tc main_arg3) = fun i => ((wv i : ℝ) : EReal) := hv
  show StableHlo.after hostOps0 (B0 m ρ c) (Proc.devRef .tc main_v0) = _
  after_results
  show concatenate S192x1024 0 [⟨S64x1024, B0 m ρ c (Proc.devRef .tc main_arg1)⟩, ⟨S64x1024, B0 m ρ c (Proc.devRef .tc main_arg2)⟩,
    ⟨S64x1024, B0 m ρ c (Proc.devRef .tc main_arg3)⟩] concatenates_S64x1024_S64x1024_S64x1024_S192x1024_d0 = _
  rw [h1, h2, h3]

/-! ## The result array at one entry -/

theorem kernel_at
    (hx : m ((c.tc : Thread nD τ).loc main_arg0) = fun i => ((x i : ℝ) : EReal))
    (hk : m ((c.tc : Thread nD τ).loc main_arg1) = fun i => ((wk i : ℝ) : EReal))
    (hq : m ((c.tc : Thread nD τ).loc main_arg2) = fun i => ((wq i : ℝ) : EReal))
    (hv : m ((c.tc : Thread nD τ).loc main_arg3) = fun i => ((wv i : ℝ) : EReal))
    (b j : Fin 8) (r : Fin 512) (d : Fin 64) :
    (adat (F := Ideal) (E2 m ρ) c).arrAt 3 cfg1.N (ix3 b (⟨512 * j.val + r.val, by omega⟩ : Fin 4096) d)
      = Attn.online j.val r (fun k cc => ((Attn.scoreR x wq wk b (512 * j.val + r.val) (512 * k + cc.val) : ℝ) : EReal))
          (fun k cc => ((Attn.valR x wv b d (512 * k + cc.val) : ℝ) : EReal)) := by
  have hE1x : E1 m ρ c main_arg0 = fun i => ((x i : ℝ) : EReal) := (B1_of m ρ c main_arg0 (by decide)).trans hx
  have hE1w := stacked_eq m ρ c wk wq wv hk hq hv
  have hK : ∀ (t : Fin 4096) (e : Fin 64), E2 m ρ c main_v1_0 (ix3 b t e) = ((Attn.projR x wk b t e : ℝ) : EReal) := fun t e =>
    (congrFun (B2_arr m ρ c 2) (ix3 b t e)).trans (keys_at (E1 m ρ) c x wk wq wv hE1x hE1w b t e)
  have hQ : ∀ (t : Fin 4096) (e : Fin 64), E2 m ρ c main_v1_1 (ix3 b t e) = ((Attn.projR x wq b t e * (1 / 8) : ℝ) : EReal) := fun t e =>
    (congrFun (B2_arr m ρ c 3) (ix3 b t e)).trans (queries_at (E1 m ρ) c x wk wq wv hE1x hE1w b t e)
  have hV : ∀ (t : Fin 4096) (e : Fin 64), E2 m ρ c main_v1_2 (ix3 b t e) = ((Attn.projR x wv b t e : ℝ) : EReal) := fun t e =>
    (congrFun (B2_arr m ρ c 4) (ix3 b t e)).trans (values_at (E1 m ρ) c x wk wq wv hE1x hE1w b t e)
  refine (result_at (E2 m ρ) c b j r d).trans ?_
  rw [aOut_eq, coords_pt_1, pt_mod]
  refine (outAt_apply j _ _ _ r d).trans ?_
  refine congrArg₂ (Attn.online j.val r) (funext fun k => funext fun cc => ?_) (funext fun k => funext fun cc => ?_)
  · refine score_coe x wk wq b (⟨512 * j.val + r.val, by omega⟩ : Fin 4096) (512 * k + cc.val) _ _
      (fun e => (qry_blk_at (E2 m ρ) c b j r e).trans (hQ _ e)) (fun e => ?_)
    unfold rowOf
    by_cases h : 512 * k + cc.val < 4096
    · rw [dif_pos h, dif_pos h]
      exact (key_blk_at (E2 m ρ) c b j ⟨_, h⟩ e).trans (hK _ e)
    · rw [dif_neg h, dif_neg h]
  · unfold rowOf Attn.valR
    by_cases h : 512 * k + cc.val < 4096
    · rw [dif_pos h, dif_pos h]
      exact (val_blk_at (E2 m ρ) c b j ⟨_, h⟩ d).trans (hV _ d)
    · rw [dif_neg h, dif_neg h, EReal.coe_zero]

end Cert.KernelIdeal.Val

end
-- ==== Proof.Finite.lean ====
/-
  What the precondition says: it holds exactly when every entry of the four argument arrays satisfies |a| < +∞, so
  under it every entry is a real number, and each array is the coercion of a real-valued array.
-/
import proofs.«425320_j549755813913_3_alg».proof.Pre_finite_inputs
import Idealize.ShloMosaic.PureOps.Ideal
import Idealize.ShloMosaic.Lib.ValueIdx
import Idealize.ShloMosaic.Lib.ReduceAll

noncomputable section

namespace Cert.Proof.Attn

open Idealize.ShloMosaic Idealize.ShloMosaic.ValueIdx

/-- The index type of the rank-0 shape has one element. -/
instance : Subsingleton Cert.Pre_finite_inputs.S_.Idx := ⟨fun a b => funext fun d => d.elim0⟩

/-- An extended real whose absolute value compares strictly below the f32 pattern of +∞ is a real number:
    that pattern denotes ⊤, and max x (-x) is ⊤ at both ⊥ and ⊤. -/
theorem real_of_abs_olt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- All entries real: if the and-reduction over all axes of the bits "|a i| < +∞" is 1, the array is the
    coercion of a real-valued array. -/
theorem all_real {s : Shape} {axes : List (Fin s.rank)} (a : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf .olt (Host.absf a) (broadcastInDim s dims hb (constant Cert.Pre_finite_inputs.S_ .f32 0x7F800000#32)))
        init hr hu j = 1#1) :
    ∃ x : s.Idx → ℝ, a = fun i => ((x i : ℝ) : EReal) := by
  have hall : ∀ i : s.Idx, ∃ r : ℝ, a i = ((r : ℝ) : EReal) := fun i =>
    real_of_abs_olt_inf (a i) (Host.reduce_andi_all _ init hr hu j e i)
  choose x hx using hall
  exact ⟨x, funext hx⟩

/-- If the finiteness predicate of the four arrays is all ones, each array is a real-valued array, coerced. -/
theorem reals_of_fn [Cert.Pre_finite_inputs.Facts]
    (a0 : FVec Ideal Cert.Pre_finite_inputs.S8x4096x1024 .f32) (a1 a2 a3 : FVec Ideal Cert.Pre_finite_inputs.S64x1024 .f32)
    (h : Cert.Pre_finite_inputs.fn (F := Ideal) a0 a1 a2 a3 = fun _ => 1#1) :
    (∃ x : Cert.Pre_finite_inputs.S8x4096x1024.Idx → ℝ, a0 = fun i => ((x i : ℝ) : EReal))
      ∧ (∃ w : Cert.Pre_finite_inputs.S64x1024.Idx → ℝ, a1 = fun i => ((w i : ℝ) : EReal))
      ∧ (∃ w : Cert.Pre_finite_inputs.S64x1024.Idx → ℝ, a2 = fun i => ((w i : ℝ) : EReal))
      ∧ (∃ w : Cert.Pre_finite_inputs.S64x1024.Idx → ℝ, a3 = fun i => ((w i : ℝ) : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨all_real a0 _ _ _ _ _ _ h1, all_real a1 _ _ _ _ _ _ h2, all_real a2 _ _ _ _ _ _ h3,
    all_real a3 _ _ _ _ _ _ h4⟩

end Cert.Proof.Attn

end
-- ==== Proof.Algebraic.lean ====
/-
  The two idealized programs end with equal results.

  Both runs are in hand: the kernel program's, with its result buffer at what the attention pipeline's write-backs
  leave, and the reference's, with its result at the composed term of its operations. Under the precondition the four
  argument arrays are real-valued (coerced), the two memories agree on them, and then, entry by entry — entry
  (b, t, d) with t = 512 j + r — the reference's result is the textbook softmax attention of row t and the kernel's
  the running form after chunks 0 … j of the same scaled scores and the same value column; for finite scores and
  values those are equal.
-/
import proofs.«425320_j549755813913_3_alg».proof.Defs
import proofs.«425320_j549755813913_3_alg».proof.Proof.Gen.KernelIdeal
import proofs.«425320_j549755813913_3_alg».proof.Proof.Gen.ReferenceIdeal
import proofs.«425320_j549755813913_3_alg».proof.Proof.Gen.Pre_finite_inputs
import proofs.«425320_j549755813913_3_alg».proof.Proof.KI.Main
import proofs.«425320_j549755813913_3_alg».proof.Proof.RefRead
import proofs.«425320_j549755813913_3_alg».proof.Proof.RefAttn
import proofs.«425320_j549755813913_3_alg».proof.Proof.KernelValue
import proofs.«425320_j549755813913_3_alg».proof.Proof.Finite
import proofs.«425320_j549755813913_3_alg».proof.Proof.Softmax
import proofs.«425320_j549755813913_3_alg».proof.Proof.AttnDefs
import Idealize.ShloMosaic.Lib.ValueIdx

noncomputable section

namespace Cert.Proof

open Idealize.ShloMosaic Idealize.ShloMosaic.ValueIdx Idealize.SL.Sem

/-- A position below 4096 is row `r` of block `j`. -/
theorem split_pos (t : Fin 4096) : ∃ (j : Fin 8) (r : Fin 512), t = (⟨512 * j.val + r.val, by omega⟩ : Fin 4096) :=
  ⟨⟨t.val / 512, by omega⟩, ⟨t.val % 512, Nat.mod_lt _ (by decide)⟩, Fin.ext (by show t.val = 512 * (t.val / 512) + t.val % 512; omega)⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Fr.adat (F := Ideal) (Cert.KernelIdeal.Fr.E2 m ρ) c).arrAt 3 Cert.KernelIdeal.cfg1.N,
    Cert.KernelIdeal.Fr.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  obtain ⟨⟨x, hx⟩, ⟨wk, hk⟩, ⟨wq, hq⟩, ⟨wv, hv⟩⟩ := Attn.reals_of_fn _ _ _ _ (hpre c)
  rw [hx, hk, hq, hv]
  funext i
  obtain ⟨b, t, d, rfl⟩ : ∃ (b : Fin 8) (t : Fin 4096) (d : Fin 64), i = ix3 b t d := ⟨i 0, i 1, i 2, eq_ix3 i⟩
  obtain ⟨j, r, rfl⟩ := split_pos t
  rw [Attn.ref_at x wk wq wv b j r d]
  exact ((Cert.KernelIdeal.Val.kernel_at m ρ c x wk wq wv hx hk hq hv b j r d).trans
    (Attn.online_eq_plain j r (fun s => Attn.scoreR x wq wk b (512 * j.val + r.val) s) (fun s => Attn.valR x wv b d s))).symm

end Cert.Proof

end
-- ==== Proof.lean ====
/-
  Causal self-attention of one head, written as a Pallas program of two kernels, against its plain jnp reference.

  The kernel program stacks the key, query and value weights, projects the input through the stacked weight in one
  matrix product per 2048-row slab (the query band scaled by 1/8 = 1/√64), and then, per batch and per block of 512
  query rows, runs the softmax over the key positions chunk by chunk — a running maximum, a running denominator
  and a running numerator, rescaled whenever the maximum moves — skipping the chunks that lie wholly after the
  block's rows, and divides once at the end. The reference projects three times, forms all 4096 × 4096 scores per
  batch, divides them by √64, masks the later positions to −∞, and applies the textbook softmax and the weighted
  sum of the values.

  The claims: each of the three programs runs to the end, faults nowhere and leaves its four argument arrays
  unchanged (the frames: for the two kernel programs by the launch theorem for a program of several regions over
  each region's proof data and body triple; for the reference by its run); the idealized kernel differs from the
  kernel only in naming its finite stand-in for −∞ (−1e30) as −∞, eight times; and at the ideal values, from
  memories agreeing on FINITE arguments, the two idealized programs end with equal result arrays: entry
  (b, 512 j + r, d) of the kernel's result is the running softmax of row 512 j + r after chunks 0 … j, the
  reference's is the textbook softmax of that row, and for finite scores the two agree (Softmax.lean) — the
  scores agree because multiplying each query feature by 1/8 before the inner product is dividing the inner
  product by 8 on the reals.
-/
import proofs.«425320_j549755813913_3_alg».proof.Defs
import proofs.«425320_j549755813913_3_alg».proof.Proof.Gen.Kernel
import proofs.«425320_j549755813913_3_alg».proof.Proof.Gen.KernelIdeal
import proofs.«425320_j549755813913_3_alg».proof.Proof.Gen.ReferenceIdeal
import proofs.«425320_j549755813913_3_alg».proof.Proof.Gen.Pre_finite_inputs
import proofs.«425320_j549755813913_3_alg».proof.Proof.K.Main
import proofs.«425320_j549755813913_3_alg».proof.Proof.KI.Main
import proofs.«425320_j549755813913_3_alg».proof.Proof.RefRead
import proofs.«425320_j549755813913_3_alg».proof.Proof.Algebraic
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel (hKernel := Cert.Kernel.Gen.facts) (hPre_finite_inputs := Cert.Pre_finite_inputs.Gen.facts) :=
  fun m ρ _ => Cert.Kernel.Fr.frame m ρ

/-- The idealized kernel program runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame m ρ

/-- The reference runs and keeps its arguments: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The eight rewrites of the idealization are one fact: the named stand-in for −∞ denotes −∞ at the ideal values. -/
theorem neg_big : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal :=
  ⟨neg_big, neg_big, neg_big, neg_big, neg_big, neg_big, neg_big, neg_big⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
